-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S256 : Shape := ⟨1, ![256]⟩
abbrev S2048x8192 : Shape := ⟨2, ![2048, 8192]⟩
abbrev S8192 : Shape := ⟨1, ![8192]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S256 : S_.BroadcastsInDim S256 (![] : Fin 0 → Fin S256.rank)
  reducesTo_S256_S_d0 : S256.ReducesTo [0] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  main_v53

def fn_part2 {F : FTy → Type} [FloatOps F] (main_arg7 : FVec F S8192 .f32) (main_arg8 : FVec F S2048 .f32) (main_arg9 : FVec F S8192 .f32) (main_arg10 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_v48 main_v49 main_v50

def fn_part1 {F : FTy → Type} [FloatOps F] (main_arg4 : FVec F S8192x2048 .f32) (main_arg5 : FVec F S8192 .f32) (main_arg6 : FVec F S2048 .f32) (main_arg7 : FVec F S8192 .f32) (main_arg8 : FVec F S2048 .f32) (main_arg9 : FVec F S8192 .f32) (main_arg10 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S256 .f32) (main_arg2 : FVec F S256 .f32) (main_arg3 : FVec F S2048x8192 .f32) (main_arg4 : FVec F S8192x2048 .f32) (main_arg5 : FVec F S8192 .f32) (main_arg6 : FVec F S2048 .f32) (main_arg7 : FVec F S8192 .f32) (main_arg8 : FVec F S2048 .f32) (main_arg9 : FVec F S8192 .f32) (main_arg10 : FVec F S8192 .f32) (main_arg11 : IVec S2048x8192 32) (main_arg12 : IVec S8192x2048 32) (main_arg13 : IVec S2048x8192 1) (main_arg14 : IVec S8192x2048 1) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S256 : Shape := ⟨1, ![256]⟩
abbrev S2048x8192 : Shape := ⟨2, ![2048, 8192]⟩
abbrev S8192 : Shape := ⟨1, ![8192]⟩
abbrev S2048 : Shape := ⟨1, ![2048]⟩
abbrev S_ : Shape := ⟨0, ![]⟩
abbrev S2048x8192x1 : Shape := ⟨3, ![2048, 8192, 1]⟩
abbrev S8192x2048x1 : Shape := ⟨3, ![8192, 2048, 1]⟩
abbrev S1x8192 : Shape := ⟨2, ![1, 8192]⟩
abbrev S8192x8192 : Shape := ⟨2, ![8192, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1x2048 : Shape := ⟨2, ![1, 2048]⟩

abbrev nBuf : Space → Nat
  | .hbm => 49
  | .vmem => 40
  | .smem => 0
  | _ => 0

abbrev bufTy : (tb : Table) → Fin (tcTables nBuf tb) → BufTy
  | .hbm, ⟨0, _⟩ => ⟨S8192x2048, .f32⟩
  | .hbm, ⟨1, _⟩ => ⟨S256, .f32⟩
  | .hbm, ⟨2, _⟩ => ⟨S256, .f32⟩
  | .hbm, ⟨3, _⟩ => ⟨S2048x8192, .f32⟩
  | .hbm, ⟨4, _⟩ => ⟨S8192x2048, .f32⟩
  | .hbm, ⟨5, _⟩ => ⟨S8192, .f32⟩
  | .hbm, ⟨6, _⟩ => ⟨S2048, .f32⟩
  | .hbm, ⟨7, _⟩ => ⟨S8192, .f32⟩
  | .hbm, ⟨8, _⟩ => ⟨S2048, .f32⟩
  | .hbm, ⟨9, _⟩ => ⟨S8192, .f32⟩
  | .hbm, ⟨10, _⟩ => ⟨S8192, .f32⟩
  | .hbm, ⟨11, _⟩ => ⟨S2048x8192, .i32⟩
  | .hbm, ⟨12, _⟩ => ⟨S8192x2048, .i32⟩
  | .hbm, ⟨13, _⟩ => ⟨S2048x8192, .i1⟩
  | .hbm, ⟨14, _⟩ => ⟨S8192x2048, .i1⟩
  | .hbm, ⟨15, _⟩ => ⟨S_, .i32⟩
  | .hbm, ⟨16, _⟩ => ⟨S2048x8192, .i32⟩
  | .hbm, ⟨17, _⟩ => ⟨S2048x8192, .i1⟩
  | .hbm, ⟨18, _⟩ => ⟨S_, .i32⟩
  | .hbm, ⟨19, _⟩ => ⟨S2048x8192, .i32⟩
  | .hbm, ⟨20, _⟩ => ⟨S2048x8192, .i32⟩
  | .hbm, ⟨21, _⟩ => ⟨S2048x8192, .i32⟩
  | .hbm, ⟨22, _⟩ => ⟨S2048x8192x1, .i32⟩
  | .hbm, ⟨23, _⟩ => ⟨S2048x8192, .f32⟩
  | .hbm, ⟨24, _⟩ => ⟨S2048x8192, .f32⟩
  | .hbm, ⟨25, _⟩ => ⟨S_, .i32⟩
  | .hbm, ⟨26, _⟩ => ⟨S8192x2048, .i32⟩
  | .hbm, ⟨27, _⟩ => ⟨S8192x2048, .i1⟩
  | .hbm, ⟨28, _⟩ => ⟨S_, .i32⟩
  | .hbm, ⟨29, _⟩ => ⟨S8192x2048, .i32⟩
  | .hbm, ⟨30, _⟩ => ⟨S8192x2048, .i32⟩
  | .hbm, ⟨31, _⟩ => ⟨S8192x2048, .i32⟩
  | .hbm, ⟨32, _⟩ => ⟨S8192x2048x1, .i32⟩
  | .hbm, ⟨33, _⟩ => ⟨S8192x2048, .f32⟩
  | .hbm, ⟨34, _⟩ => ⟨S8192x2048, .f32⟩
  | .hbm, ⟨35, _⟩ => ⟨S8192x2048, .bf16⟩
  | .hbm, ⟨36, _⟩ => ⟨S2048x8192, .bf16⟩
  | .hbm, ⟨37, _⟩ => ⟨S8192x2048, .bf16⟩
  | .hbm, ⟨38, _⟩ => ⟨S1x8192, .f32⟩
  | .hbm, ⟨39, _⟩ => ⟨S1x8192, .f32⟩
  | .hbm, ⟨40, _⟩ => ⟨S1x8192, .f32⟩
  | .hbm, ⟨41, _⟩ => ⟨S8192x8192, .bf16⟩
  | .hbm, ⟨42, _⟩ => ⟨S1x2048, .f32⟩
  | .hbm, ⟨43, _⟩ => ⟨S8192x2048, .f32⟩
  | .hbm, ⟨44, _⟩ => ⟨S8192x2048, .bf16⟩
  | .hbm, ⟨45, _⟩ => ⟨S1x8192, .f32⟩
  | .hbm, ⟨46, _⟩ => ⟨S8192x8192, .bf16⟩
  | .hbm, ⟨47, _⟩ => ⟨S1x2048, .f32⟩
  | .hbm, ⟨48, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024x2048, .bf16⟩
  | .local _ .vmem, ⟨26, _⟩ => ⟨S1x1024, .f32⟩
  | .local _ .vmem, ⟨27, _⟩ => ⟨S1x1024, .f32⟩
  | .local _ .vmem, ⟨28, _⟩ => ⟨S1024x1024, .bf16⟩
  | .local _ .vmem, ⟨29, _⟩ => ⟨S1024x1024, .bf16⟩
  | .local _ .vmem, ⟨30, _⟩ => ⟨S1024x1024, .f32⟩
  | .local _ .vmem, ⟨31, _⟩ => ⟨S1024x1024, .bf16⟩
  | .local _ .vmem, ⟨32, _⟩ => ⟨S1024x1024, .bf16⟩
  | .local _ .vmem, ⟨33, _⟩ => ⟨S1024x1024, .bf16⟩
  | .local _ .vmem, ⟨34, _⟩ => ⟨S1024x1024, .bf16⟩
  | .local _ .vmem, ⟨35, _⟩ => ⟨S1x1024, .f32⟩
  | .local _ .vmem, ⟨36, _⟩ => ⟨S1x1024, .f32⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_scratch0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![8, 8, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![8, 2, 8], ![false, false, false]⟩

def k3_cond2 (i : grid3.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  bcast_S_S8192x2048 : S_.BroadcastsInDim S8192x2048 (![] : Fin 0 → Fin S8192x2048.rank)
  bcast_S8192x2048_S8192x2048x1_0_1 : S8192x2048.BroadcastsInDim S8192x2048x1 (![0, 1] : Fin 2 → Fin S8192x2048x1.rank)
  bitsLt_bf16_f32 : FTy.bits .bf16 < FTy.bits .f32
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S2048_S1x2048 : S2048.ShapeCasts S1x2048
  transposes_S1024x2048_p1_0_S2048x1024 : S1024x2048.Transposes [1, 0] S2048x1024
  transposes_S1024x1024_p1_0_S1024x1024 : S1024x1024.Transposes [1, 0] S1024x1024
  gather_S256_S2048x8192x1_S2048x8192_n_0_n_n_0_2_1_wf : GatherDims.WF S256 S2048x8192x1 S2048x8192 [] [0] [] [0] [] 2 ![1]
  gather_S256_S8192x2048x1_S8192x2048_n_0_n_n_0_2_1_wf : GatherDims.WF S256 S8192x2048x1 S8192x2048 [] [0] [] [0] [] 2 ![1]
  dot_S1024x2048_S2048x1024_S1024x1024_1_0_0_1_n_n_wf : DotDims.WF S1024x2048 S2048x1024 S1024x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x8192.size a
  hwx0_1 : ∀ i : grid0.Coords, EltTy.bits .bf16 = 32 ∨ (Rect.block (s := S2048x8192) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x8192.size a
  hwx0_5 : ∀ i : grid0.Coords, EltTy.bits .bf16 = 32 ∨ (Rect.block (s := S8192x8192) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x2048.size a
  hwx1_1 : ∀ i : grid1.Coords, EltTy.bits .bf16 = 32 ∨ (Rect.block (s := S8192x2048) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x2048.size a
  hwx1_2 : ∀ i : grid1.Coords, EltTy.bits .f32 = 32 ∨ (Rect.block (s := S1x2048) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x2048.size a
  hwx1_3 : ∀ i : grid1.Coords, EltTy.bits .f32 = 32 ∨ (Rect.block (s := S8192x2048) S1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x2048.size a
  hwx2_0 : ∀ i : grid2.Coords, EltTy.bits .bf16 = 32 ∨ (Rect.block (s := S8192x2048) S1024x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S8192x2048.size a
  hwx2_1 : ∀ i : grid2.Coords, EltTy.bits .bf16 = 32 ∨ (Rect.block (s := S8192x2048) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x8192.size a
  hwx2_2 : ∀ i : grid2.Coords, EltTy.bits .f32 = 32 ∨ (Rect.block (s := S1x8192) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x8192.size a
  hwx2_3 : ∀ i : grid2.Coords, EltTy.bits .bf16 = 32 ∨ (Rect.block (s := S8192x8192) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .bf16 = 32 ∨ (Rect.block (s := S8192x8192) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S2048x8192.size a
  hwx3_1 : ∀ i : grid3.Coords, EltTy.bits .bf16 = 32 ∨ (Rect.block (s := S2048x8192) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x2048.size a
  hwx3_2 : ∀ i : grid3.Coords, EltTy.bits .f32 = 32 ∨ (Rect.block (s := S1x2048) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S8192x2048.size a
  hwx3_3 : ∀ i : grid3.Coords, EltTy.bits .f32 = 32 ∨ (Rect.block (s := S8192x2048) S1024x1024.size (cc3_transform_3 i) (hinb3_3 i)).WholeWords (EltTy.packing .f32)

variable [Facts₀]

def gather_S256_S2048x8192x1_S2048x8192_n_0_n_n_0_2_1 : GatherDims S256 S2048x8192x1 S2048x8192 where
  offsetDims := []
  collapsedSliceDims := [0]
  operandBatchingDims := []
  startIndicesBatchingDims := []
  startIndexMap := [0]
  indexVectorDim := 2
  sliceSizes := ![1]
  wf := gather_S256_S2048x8192x1_S2048x8192_n_0_n_n_0_2_1_wf
def gather_S256_S8192x2048x1_S8192x2048_n_0_n_n_0_2_1 : GatherDims S256 S8192x2048x1 S8192x2048 where
  offsetDims := []
  collapsedSliceDims := [0]
  operandBatchingDims := []
  startIndicesBatchingDims := []
  startIndexMap := [0]
  indexVectorDim := 2
  sliceSizes := ![1]
  wf := gather_S256_S8192x2048x1_S8192x2048_n_0_n_n_0_2_1_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v16) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v22) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v25) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v27) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S1x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S256 : Shape := ⟨1, ![256]⟩
abbrev S2048x8192 : Shape := ⟨2, ![2048, 8192]⟩
abbrev S8192 : Shape := ⟨1, ![8192]⟩
abbrev S2048 : Shape := ⟨1, ![2048]⟩
abbrev S_ : Shape := ⟨0, ![]⟩
abbrev S2048x8192x1 : Shape := ⟨3, ![2048, 8192, 1]⟩
abbrev S8192x2048x1 : Shape := ⟨3, ![8192, 2048, 1]⟩
abbrev S8192x8192 : Shape := ⟨2, ![8192, 8192]⟩
abbrev S1x8192 : Shape := ⟨2, ![1, 8192]⟩
abbrev S1x2048 : Shape := ⟨2, ![1, 2048]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256, .f32⟩
  | .hbm, ⟨2, _⟩ => ⟨S256, .f32⟩
  | .hbm, ⟨3, _⟩ => ⟨S2048x8192, .f32⟩
  | .hbm, ⟨4, _⟩ => ⟨S8192x2048, .f32⟩
  | .hbm, ⟨5, _⟩ => ⟨S8192, .f32⟩
  | .hbm, ⟨6, _⟩ => ⟨S2048, .f32⟩
  | .hbm, ⟨7, _⟩ => ⟨S8192, .f32⟩
  | .hbm, ⟨8, _⟩ => ⟨S2048, .f32⟩
  | .hbm, ⟨9, _⟩ => ⟨S8192, .f32⟩
  | .hbm, ⟨10, _⟩ => ⟨S8192, .f32⟩
  | .hbm, ⟨11, _⟩ => ⟨S2048x8192, .i32⟩
  | .hbm, ⟨12, _⟩ => ⟨S8192x2048, .i32⟩
  | .hbm, ⟨13, _⟩ => ⟨S2048x8192, .i1⟩
  | .hbm, ⟨14, _⟩ => ⟨S8192x2048, .i1⟩
  | .hbm, ⟨15, _⟩ => ⟨S_, .i32⟩
  | .hbm, ⟨16, _⟩ => ⟨S2048x8192, .i32⟩
  | .hbm, ⟨17, _⟩ => ⟨S2048x8192, .i1⟩
  | .hbm, ⟨18, _⟩ => ⟨S_, .i32⟩
  | .hbm, ⟨19, _⟩ => ⟨S2048x8192, .i32⟩
  | .hbm, ⟨20, _⟩ => ⟨S2048x8192, .i32⟩
  | .hbm, ⟨21, _⟩ => ⟨S2048x8192, .i32⟩
  | .hbm, ⟨22, _⟩ => ⟨S2048x8192x1, .i32⟩
  | .hbm, ⟨23, _⟩ => ⟨S2048x8192, .f32⟩
  | .hbm, ⟨24, _⟩ => ⟨S2048x8192, .f32⟩
  | .hbm, ⟨25, _⟩ => ⟨S_, .i32⟩
  | .hbm, ⟨26, _⟩ => ⟨S8192x2048, .i32⟩
  | .hbm, ⟨27, _⟩ => ⟨S8192x2048, .i1⟩
  | .hbm, ⟨28, _⟩ => ⟨S_, .i32⟩
  | .hbm, ⟨29, _⟩ => ⟨S8192x2048, .i32⟩
  | .hbm, ⟨30, _⟩ => ⟨S8192x2048, .i32⟩
  | .hbm, ⟨31, _⟩ => ⟨S8192x2048, .i32⟩
  | .hbm, ⟨32, _⟩ => ⟨S8192x2048x1, .i32⟩
  | .hbm, ⟨33, _⟩ => ⟨S8192x2048, .f32⟩
  | .hbm, ⟨34, _⟩ => ⟨S8192x2048, .f32⟩
  | .hbm, ⟨35, _⟩ => ⟨S8192x8192, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192, .f32⟩
  | .hbm, ⟨44, _⟩ => ⟨S8192, .i1⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S1x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S1x8192, .f32⟩
  | .hbm, ⟨69, _⟩ => ⟨S8192x8192, .f32⟩
  | .hbm, ⟨70, _⟩ => ⟨S8192x8192, .f32⟩
  | .hbm, ⟨71, _⟩ => ⟨S8192x8192, .f32⟩
  | .hbm, ⟨72, _⟩ => ⟨S1x8192, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S2048x8192, .f32⟩
  | .hbm, ⟨81, _⟩ => ⟨S8192x8192, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x2048, .f32⟩
  | .hbm, ⟨86, _⟩ => ⟨S8192x2048, .f32⟩
  | .hbm, ⟨87, _⟩ => ⟨S1x2048, .f32⟩
  | .hbm, ⟨88, _⟩ => ⟨S8192x2048, .f32⟩
  | .hbm, ⟨89, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_c_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call2_cst : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst : Ref sig .tc := ⟨.hbm, 55, rfl⟩
abbrev main_v23 : Ref sig .tc := ⟨.hbm, 56, rfl⟩
abbrev main_v24 : Ref sig .tc := ⟨.hbm, 57, rfl⟩
abbrev main_cst_3 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩

abbrev nD : Nat := 1
abbrev τ : Topo := Topo.v7x

variable {F : FTy → Type} [FloatOps F]

class Facts₀ : Prop where
  bcast_S_S2048x8192 : S_.BroadcastsInDim S2048x8192 (![] : Fin 0 → Fin S2048x8192.rank)
  bcast_S2048x8192_S2048x8192x1_0_1 : S2048x8192.BroadcastsInDim S2048x8192x1 (![0, 1] : Fin 2 → Fin S2048x8192x1.rank)
  bcast_S_S8192x2048 : S_.BroadcastsInDim S8192x2048 (![] : Fin 0 → Fin S8192x2048.rank)
  bcast_S8192x2048_S8192x2048x1_0_1 : S8192x2048.BroadcastsInDim S8192x2048x1 (![0, 1] : Fin 2 → Fin S8192x2048x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192 : S_.BroadcastsInDim S8192 (![] : Fin 0 → Fin S8192.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S8192x2048_S2048x8192_1_0 : S8192x2048.Transposes [1, 0] S2048x8192
  transposes_S2048x8192_S8192x2048_1_0 : S2048x8192.Transposes [1, 0] S8192x2048
  gather_S256_S2048x8192x1_S2048x8192_n_0_n_n_0_2_1_wf : GatherDims.WF S256 S2048x8192x1 S2048x8192 [] [0] [] [0] [] 2 ![1]
  gather_S256_S8192x2048x1_S8192x2048_n_0_n_n_0_2_1_wf : GatherDims.WF S256 S8192x2048x1 S8192x2048 [] [0] [] [0] [] 2 ![1]
  dot_S8192x2048_S2048x8192_S8192x8192_1_0_0_1_n_n_wf : DotDims.WF S8192x2048 S2048x8192 S8192x8192 [1] [0] [0] [1] [] []
  dot_S8192x8192_S8192x2048_S8192x2048_1_0_0_1_n_n_wf : DotDims.WF S8192x8192 S8192x2048 S8192x2048 [1] [0] [0] [1] [] []

variable [Facts₀]

def gather_S256_S2048x8192x1_S2048x8192_n_0_n_n_0_2_1 : GatherDims S256 S2048x8192x1 S2048x8192 where
  offsetDims := []
  collapsedSliceDims := [0]
  operandBatchingDims := []
  startIndicesBatchingDims := []
  startIndexMap := [0]
  indexVectorDim := 2
  sliceSizes := ![1]
  wf := gather_S256_S2048x8192x1_S2048x8192_n_0_n_n_0_2_1_wf
def gather_S256_S8192x2048x1_S8192x2048_n_0_n_n_0_2_1 : GatherDims S256 S8192x2048x1 S8192x2048 where
  offsetDims := []
  collapsedSliceDims := [0]
  operandBatchingDims := []
  startIndicesBatchingDims := []
  startIndexMap := [0]
  indexVectorDim := 2
  sliceSizes := ![1]
  wf := gather_S256_S8192x2048x1_S8192x2048_n_0_n_n_0_2_1_wf
def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf
def dot_S8192x8192_S8192x2048_S8192x2048_1_0_0_1_n_n : DotDims S8192x8192 S8192x2048 S8192x2048 where
  lhsContracting := [1]
  rhsContracting := [0]
  lhsNonContracting := [0]
  rhsNonContracting := [1]
  lhsBatch := []
  rhsBatch := []
  wf := dot_S8192x8192_S8192x2048_S8192x2048_1_0_0_1_n_n_wf

class Facts : Prop extends Facts₀ where

variable [Facts]
-- ==== Proof.Net.RunCond.lean ====
/-
  The whole program's run from one segment record per kernel region: every weakly fair execution of @main terminates,
  and the final memory holds the two result arrays at what the last region boundary's valuation says, and every
  argument array as launched. The regions' records are entered from and left at the thread states "every unscoped
  buffer at the boundary's contents, beside a rest of the certificate's choosing"; between two regions the host
  operations move the valuation along. The frame claims and the value claim are both read off this one run.
-/
import proofs.«113703_j70265664962673_1_alg».proof.Proof.Gen.KernelIdeal.Regions

noncomputable section

namespace Cert.KernelIdeal.Net

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- GIVEN, per region, a segment record entered from the thread state before it and left at the one after it, every
    weakly fair execution of @main from memory `m` with zero counters terminates; the final memory has the two
    results at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c)) :
    θ_run defs (onTc (τ := τ) (main (F := F))) ⟨m, fun _ => 0, ρ⟩ (fun r => ∀ c : Dev nD,
      r.2.mem ((c.tc : Thread nD τ).loc main_v29) = V12 m outs c main_v29
      ∧ r.2.mem ((c.tc : Thread nD τ).loc main_v24) = V12 m outs c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, .rfl, .rfl, .rfl, .rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v29) = V12 m outs c main_v29 ∧ s.mem ((c.tc : Thread nD τ).loc main_v24) = V12 m outs c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact ⟨h (Proc.devRef .tc main_v29) (Finset.mem_filter.mpr ⟨StableHlo.devRef_mem_tcRefs main_v29, by decide⟩),
        h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V12_main_arg0 m outs c),
        (h (Proc.devRef .tc main_arg1) (Finset.mem_filter.mpr ⟨StableHlo.devRef_mem_tcRefs main_arg1, by decide⟩)).trans (V12_main_arg1 m outs c),
        (h (Proc.devRef .tc main_arg2) (Finset.mem_filter.mpr ⟨StableHlo.devRef_mem_tcRefs main_arg2, by decide⟩)).trans (V12_main_arg2 m outs c),
        (h (Proc.devRef .tc main_arg3) (Finset.mem_filter.mpr ⟨StableHlo.devRef_mem_tcRefs main_arg3, by decide⟩)).trans (V12_main_arg3 m outs c),
        (h (Proc.devRef .tc main_arg4) (Finset.mem_filter.mpr ⟨StableHlo.devRef_mem_tcRefs main_arg4, by decide⟩)).trans (V12_main_arg4 m outs c),
        (h (Proc.devRef .tc main_arg5) (Finset.mem_filter.mpr ⟨StableHlo.devRef_mem_tcRefs main_arg5, by decide⟩)).trans (V12_main_arg5 m outs c),
        (h (Proc.devRef .tc main_arg6) (Finset.mem_filter.mpr ⟨StableHlo.devRef_mem_tcRefs main_arg6, by decide⟩)).trans (V12_main_arg6 m outs c),
        (h (Proc.devRef .tc main_arg7) (Finset.mem_filter.mpr ⟨StableHlo.devRef_mem_tcRefs main_arg7, by decide⟩)).trans (V12_main_arg7 m outs c),
        (h (Proc.devRef .tc main_arg8) (Finset.mem_filter.mpr ⟨StableHlo.devRef_mem_tcRefs main_arg8, by decide⟩)).trans (V12_main_arg8 m outs c),
        (h (Proc.devRef .tc main_arg9) (Finset.mem_filter.mpr ⟨StableHlo.devRef_mem_tcRefs main_arg9, by decide⟩)).trans (V12_main_arg9 m outs c),
        (h (Proc.devRef .tc main_arg10) (Finset.mem_filter.mpr ⟨StableHlo.devRef_mem_tcRefs main_arg10, by decide⟩)).trans (V12_main_arg10 m outs c),
        (h (Proc.devRef .tc main_arg11) (Finset.mem_filter.mpr ⟨StableHlo.devRef_mem_tcRefs main_arg11, by decide⟩)).trans (V12_main_arg11 m outs c),
        (h (Proc.devRef .tc main_arg12) (Finset.mem_filter.mpr ⟨StableHlo.devRef_mem_tcRefs main_arg12, by decide⟩)).trans (V12_main_arg12 m outs c),
        (h (Proc.devRef .tc main_arg13) (Finset.mem_filter.mpr ⟨StableHlo.devRef_mem_tcRefs main_arg13, by decide⟩)).trans (V12_main_arg13 m outs c),
        (h (Proc.devRef .tc main_arg14) (Finset.mem_filter.mpr ⟨StableHlo.devRef_mem_tcRefs main_arg14, by decide⟩)).trans (V12_main_arg14 m outs c)⟩
    · iexact HSI

end Cert.KernelIdeal.Net

end
-- ==== Proof.Net.LatentBody.lean ====
/-
  The body of the second product's kernel (the latent code `z = h · W₂ + b₂`, accumulated over eight blocks of the
  contracted axis) at one grid point, on whole staging buffers. The grid's last coordinate `k` selects one of three
  control cases: at `k = 0` the accumulator is zeroed and then takes the first partial product; at `0 < k < 7` it
  takes one more partial product; at `k = 7` it takes the last one and the output block is the accumulator plus the
  bias row. Each case says exactly what the accumulator and the output buffer hold afterwards, as the kernel's own
  pure terms of what the buffers held before.
-/
import proofs.«113703_j70265664962673_1_alg».proof.Proof.Gen.KernelIdeal.Skeleton
import proofs.«113703_j70265664962673_1_alg».proof.Proof.Gen.KernelIdeal.Launch
import proofs.«113703_j70265664962673_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The whole-buffer rectangle's offsets are zero. -/
theorem off2_zero : (![0, 0] : Fin 2 → ℕ) = fun _ => 0 := by funext a; fin_cases a <;> rfl

/-- `k = 0`: the branch that zeroes the accumulator is taken. -/
abbrev latentFirst (i : grid1.Coords) : Prop := (Scalar.cmpi .ne (Scalar.extui (Scalar.cmpi .eq (BitVec.ofNat 32 (i 2).val) 0#32)) 0#32) = 1#1
/-- `k = 7`: the branch that adds the bias and stores the output block is taken. -/
abbrev latentLast (i : grid1.Coords) : Prop := k1_cond2 i = 1#1

set_option maxHeartbeats 1000000 in
/-- `k = 0`: whatever the accumulator held, it ends at `0 + a · b`; the output buffer is untouched. -/
theorem latent_first (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : latentFirst i) (hc1 : ¬latentLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 k1_pay1 x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `0 < k < 7`: the accumulator `s` ends at `s + a · b`; the output buffer is untouched. -/
theorem latent_mid (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬latentFirst i) (hc1 : ¬latentLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 xs x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `k = 7`: the accumulator `s` ends at `s + a · b`, and the output buffer, whatever it held, at that plus the bias row. -/
theorem latent_last (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬latentFirst i) (hc1 : latentLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]
  iexists _; isplitr
  swap; · iexact HS
  ipureintro
  sl_unfold_words
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

end Cert.KernelIdeal.Net

end
-- ==== Proof.Net.EncodeData.lean ====
/-
  The first product's kernel over its whole grid (the hidden code `h = act (x · W₁ + b₁)`): 8 row blocks × 8 column
  blocks, the contracted axis in ONE block, so every point zeroes the accumulator, adds the whole product and
  finishes its output block with the bias row and the activation. What the pipeline hands the body at each point and
  what the body leaves.
-/
import proofs.«113703_j70265664962673_1_alg».proof.Proof.Net.LatentBody

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-! ## The branches and the windows over the grid: the contracted axis is one block, so at every point both branches
    are taken and no window is idle — decided over the 64 points -/

/-- `k = 0`: the branch that zeroes the accumulator. -/
abbrev encodeFirst (i : grid0.Coords) : Prop := (Scalar.cmpi .ne (Scalar.extui (Scalar.cmpi .eq (BitVec.ofNat 32 (i 2).val) 0#32)) 0#32) = 1#1
/-- `k` is the last block: the branch that finishes the output block. -/
abbrev encodeLast (i : grid0.Coords) : Prop := k0_cond2 i = 1#1
theorem encodeFirst_all : ∀ t : Fin cfg0.N, encodeFirst (grid0.coords t) :=
  (by decide +kernel : ∀ t : Fin grid0.N, encodeFirst (grid0.coords t))
theorem encodeLast_all : ∀ t : Fin cfg0.N, encodeLast (grid0.coords t) :=
  (by decide +kernel : ∀ t : Fin grid0.N, encodeLast (grid0.coords t))
theorem encode_live0 : ∀ t : Fin cfg0.N, cfg0.idle 0 (grid0.coords t) = false := by decide +kernel
theorem encode_live1 : ∀ t : Fin cfg0.N, cfg0.idle 1 (grid0.coords t) = false := by decide +kernel
theorem encode_live2 : ∀ t : Fin cfg0.N, cfg0.idle 2 (grid0.coords t) = false := by decide +kernel
theorem encode_live3 : ∀ t : Fin cfg0.N, cfg0.idle 3 (grid0.coords t) = false := by decide +kernel
theorem encode_live4 : ∀ t : Fin cfg0.N, cfg0.idle 4 (grid0.coords t) = false := by decide +kernel
theorem encode_live5 : ∀ t : Fin cfg0.N, cfg0.idle 5 (grid0.coords t) = false := by decide +kernel

/-- Each window's current staging buffer at point `t`, as the pipeline passes it to the body. -/
abbrev encodeSt0 (t : Fin cfg0.N) : Memref sig .tc .vmem S1024x2048 .bf16 := win0_0.stage (cfg0.slots t 0)
abbrev encodeSt1 (t : Fin cfg0.N) : Memref sig .tc .vmem S2048x1024 .bf16 := win0_1.stage (cfg0.slots t 1)
abbrev encodeSt2 (t : Fin cfg0.N) : Memref sig .tc .vmem S1x1024 .f32 := win0_2.stage (cfg0.slots t 2)
abbrev encodeSt3 (t : Fin cfg0.N) : Memref sig .tc .vmem S1x1024 .f32 := win0_3.stage (cfg0.slots t 3)
abbrev encodeSt4 (t : Fin cfg0.N) : Memref sig .tc .vmem S1x1024 .f32 := win0_4.stage (cfg0.slots t 4)
abbrev encodeSt5 (t : Fin cfg0.N) : Memref sig .tc .vmem S1024x1024 .bf16 := win0_5.stage (cfg0.slots t 5)
/-- The accumulator: a whole scoped buffer of the kernel's own. -/
abbrev encodeScratch : Memref sig .tc .vmem S1024x1024 .f32 := Memref.whole cc0_scratch0

section
-- the TensorCore's buffer contents when the region is entered
variable (V : (c : Dev nD) → (b : Ref sig .tc) → Buf (Elt F) ((c : Thread nD τ).loc b))

/-- Window `w`'s block at point `t`, read off its array as the region finds it. -/
def encodeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. -/
theorem encode_before0_of {c : Dev nD} (dat : Dat τ (Elt F) Unit ℕ (UR sig nD τ) ℕ cfg0 c) (hA : dat.A 0 = V c (Pipeline.arrRef spec0 0))
    (hafter : ∀ t, dat.after 0 t = encodeBlk V c 0 t) (t : Fin cfg0.N) (d) : dat.before 0 t d = encodeBlk V c 0 t :=
  (dat.before_in_eq_fetched 0 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before1_of {c : Dev nD} (dat : Dat τ (Elt F) Unit ℕ (UR sig nD τ) ℕ cfg0 c) (hA : dat.A 1 = V c (Pipeline.arrRef spec0 1))
    (hafter : ∀ t, dat.after 1 t = encodeBlk V c 1 t) (t : Fin cfg0.N) (d) : dat.before 1 t d = encodeBlk V c 1 t :=
  (dat.before_in_eq_fetched 1 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before2_of {c : Dev nD} (dat : Dat τ (Elt F) Unit ℕ (UR sig nD τ) ℕ cfg0 c) (hA : dat.A 2 = V c (Pipeline.arrRef spec0 2))
    (hafter : ∀ t, dat.after 2 t = encodeBlk V c 2 t) (t : Fin cfg0.N) (d) : dat.before 2 t d = encodeBlk V c 2 t :=
  (dat.before_in_eq_fetched 2 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before3_of {c : Dev nD} (dat : Dat τ (Elt F) Unit ℕ (UR sig nD τ) ℕ cfg0 c) (hA : dat.A 3 = V c (Pipeline.arrRef spec0 3))
    (hafter : ∀ t, dat.after 3 t = encodeBlk V c 3 t) (t : Fin cfg0.N) (d) : dat.before 3 t d = encodeBlk V c 3 t :=
  (dat.before_in_eq_fetched 3 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before4_of {c : Dev nD} (dat : Dat τ (Elt F) Unit ℕ (UR sig nD τ) ℕ cfg0 c) (hA : dat.A 4 = V c (Pipeline.arrRef spec0 4))
    (hafter : ∀ t, dat.after 4 t = encodeBlk V c 4 t) (t : Fin cfg0.N) (d) : dat.before 4 t d = encodeBlk V c 4 t :=
  (dat.before_in_eq_fetched 4 rfl (fun _ => rfl) (fun _ _ _ => rfl) (fun t => by rw [hafter]; unfold Dat.blockOf encodeBlk; rw [hA]; try rfl) t d).trans
    (by unfold Dat.fetched Dat.blockOf encodeBlk; rw [hA]; try rfl)

/-- What the body leaves in the output window's staging buffer at point `t`: the kernel's terms composed — the zero
    block, plus the product of the two operand blocks, then the closing term over the row blocks. -/
def encodeOut (c : Dev nD) (t : Fin cfg0.N) : Vec F S1024x1024 .bf16 :=
  k0_pay3 (k0_pay2 k0_pay1 (encodeBlk V c 0 t) (encodeBlk V c 1 t)) (encodeBlk V c 2 t) (encodeBlk V c 3 t) (encodeBlk V c 4 t)

/-- The class invariant with the accumulator split off as a whole buffer owned at some contents. -/
theorem encodePhiA_eq (c : Dev nD) :
    (Pipeline.ΦA spec0 c : sProp 𝕄)
      = iprop(iprop(iprop((∃ d, owns (c : Thread nD τ) encodeScratch fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [encodeScratch, owns_whole]; try rfl

/-- The proof data of this pipeline on core `c`: the arrays as the region finds them; after the body each input's
    buffer at its block and the output's at `encodeOut`; the invariant the class's (the accumulator at anything between
    points: every point restarts it); nothing owed; full shares. -/
def encodeDat (c : Dev nD) : Dat τ (Elt F) Unit ℕ (UR sig nD τ) ℕ cfg0 c where
  A w := V c (Pipeline.arrRef spec0 w)
  after w t := match w with
    | ⟨0, _⟩ => encodeBlk V c 0 t
    | ⟨1, _⟩ => encodeBlk V c 1 t
    | ⟨2, _⟩ => encodeBlk V c 2 t
    | ⟨3, _⟩ => encodeBlk V c 3 t
    | ⟨4, _⟩ => encodeBlk V c 4 t
    | ⟨5, _⟩ => encodeOut V c t
  Φ _ := Pipeline.ΦA spec0 c
  q _ := fullShare
  owed _ := 0

theorem encodeDat_A (c : Dev nD) (w : Fin cfg0.W) : (encodeDat V c).A w = V c (Pipeline.arrRef spec0 w) := by
  dsimp only [encodeDat]
theorem encodeDat_after0 (c : Dev nD) (t : Fin cfg0.N) : (encodeDat V c).after 0 t = encodeBlk V c 0 t := by dsimp only [encodeDat]
theorem encodeDat_after1 (c : Dev nD) (t : Fin cfg0.N) : (encodeDat V c).after 1 t = encodeBlk V c 1 t := by dsimp only [encodeDat]
theorem encodeDat_after2 (c : Dev nD) (t : Fin cfg0.N) : (encodeDat V c).after 2 t = encodeBlk V c 2 t := by dsimp only [encodeDat]
theorem encodeDat_after3 (c : Dev nD) (t : Fin cfg0.N) : (encodeDat V c).after 3 t = encodeBlk V c 3 t := by dsimp only [encodeDat]
theorem encodeDat_after4 (c : Dev nD) (t : Fin cfg0.N) : (encodeDat V c).after 4 t = encodeBlk V c 4 t := by dsimp only [encodeDat]
theorem encodeDat_after5 (c : Dev nD) (t : Fin cfg0.N) : (encodeDat V c).after 5 t = encodeOut V c t := by dsimp only [encodeDat]
theorem encode_before0 (c : Dev nD) (t : Fin cfg0.N) (d) : (encodeDat V c).before 0 t d = encodeBlk V c 0 t :=
  encode_before0_of V (encodeDat V c) (encodeDat_A V c 0) (encodeDat_after0 V c) t d
theorem encode_before1 (c : Dev nD) (t : Fin cfg0.N) (d) : (encodeDat V c).before 1 t d = encodeBlk V c 1 t :=
  encode_before1_of V (encodeDat V c) (encodeDat_A V c 1) (encodeDat_after1 V c) t d
theorem encode_before2 (c : Dev nD) (t : Fin cfg0.N) (d) : (encodeDat V c).before 2 t d = encodeBlk V c 2 t :=
  encode_before2_of V (encodeDat V c) (encodeDat_A V c 2) (encodeDat_after2 V c) t d
theorem encode_before3 (c : Dev nD) (t : Fin cfg0.N) (d) : (encodeDat V c).before 3 t d = encodeBlk V c 3 t :=
  encode_before3_of V (encodeDat V c) (encodeDat_A V c 3) (encodeDat_after3 V c) t d
theorem encode_before4 (c : Dev nD) (t : Fin cfg0.N) (d) : (encodeDat V c).before 4 t d = encodeBlk V c 4 t :=
  encode_before4_of V (encodeDat V c) (encodeDat_A V c 4) (encodeDat_after4 V c) t d

end

end Cert.KernelIdeal.Net

end
-- ==== Proof.Net.LatentData.lean ====
/-
  The second product's kernel over its whole grid: what the pipeline hands the body at each point and what the body
  leaves. The grid is (8 row blocks) × (2 column blocks) × (8 blocks of the contracted axis), the contracted axis
  fastest, so position `n` has `k = n % 8`. The accumulator after position `n` is, by recursion on `n`, the kernel's
  own update term: restarted from the zero block where `k = 0`, otherwise the previous accumulator plus this point's
  partial product. The output window is written at `k = 7` only (the accumulator plus the bias row) and idle elsewhere.
-/
import proofs.«113703_j70265664962673_1_alg».proof.Proof.Net.LatentBody

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-! ## Where the branches are taken, and where the output window is idle: decided over the 128 points -/

theorem latentFirst_iff : ∀ t : Fin cfg1.N, latentFirst (grid1.coords t) ↔ t.val % 8 = 0 :=
  (by decide +kernel : ∀ t : Fin grid1.N, latentFirst (grid1.coords t) ↔ t.val % 8 = 0)
theorem latentLast_iff : ∀ t : Fin cfg1.N, latentLast (grid1.coords t) ↔ t.val % 8 = 7 :=
  (by decide +kernel : ∀ t : Fin grid1.N, latentLast (grid1.coords t) ↔ t.val % 8 = 7)
theorem latent_live0 : ∀ t : Fin cfg1.N, cfg1.idle 0 (grid1.coords t) = false := by decide +kernel
theorem latent_live1 : ∀ t : Fin cfg1.N, cfg1.idle 1 (grid1.coords t) = false := by decide +kernel
theorem latent_live2 : ∀ t : Fin cfg1.N, cfg1.idle 2 (grid1.coords t) = false := by decide +kernel
theorem latent_out_idle : ∀ t : Fin cfg1.N, ¬latentLast (grid1.coords t) → cfg1.idle 3 (grid1.coords t) = true := by decide +kernel
theorem latent_out_noflush : ∀ t : Fin cfg1.N, ¬latentLast (grid1.coords t) → (cfg1.win 3).flush t = false := by decide +kernel
theorem latent_out_live : ∀ t : Fin cfg1.N, latentLast (grid1.coords t) → cfg1.idle 3 (grid1.coords t) = false := by decide +kernel

/-- Each window's current staging buffer at point `t`, as the pipeline passes it to the body. -/
abbrev latentSt0 (t : Fin cfg1.N) : Memref sig .tc .vmem S1024x1024 .bf16 := win1_0.stage (cfg1.slots t 0)
abbrev latentSt1 (t : Fin cfg1.N) : Memref sig .tc .vmem S1024x1024 .bf16 := win1_1.stage (cfg1.slots t 1)
abbrev latentSt2 (t : Fin cfg1.N) : Memref sig .tc .vmem S1x1024 .f32 := win1_2.stage (cfg1.slots t 2)
abbrev latentSt3 (t : Fin cfg1.N) : Memref sig .tc .vmem S1024x1024 .f32 := win1_3.stage (cfg1.slots t 3)
/-- The accumulator: a whole scoped buffer of the kernel's own. -/
abbrev latentScratch : Memref sig .tc .vmem S1024x1024 .f32 := Memref.whole cc1_scratch0

section
-- the TensorCore's buffer contents when the region is entered
variable (V : (c : Dev nD) → (b : Ref sig .tc) → Buf (Elt F) ((c : Thread nD τ).loc b))

/-- Window `w`'s block at point `t`, read off its array as the region finds it. -/
def latentBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved. -/
theorem latent_before0_of {c : Dev nD} (dat : Dat τ (Elt F) Unit ℕ (UR sig nD τ) ℕ cfg1 c) (hA : dat.A 0 = V c (Pipeline.arrRef spec1 0))
    (hafter : ∀ t, dat.after 0 t = latentBlk V c 0 t) (t : Fin cfg1.N) (d) : dat.before 0 t d = latentBlk V c 0 t :=
  (dat.before_in_eq_fetched 0 rfl (fun _ => rfl) (fun _ _ _ => rfl) (fun t => by rw [hafter]; unfold Dat.blockOf latentBlk; rw [hA]; try rfl) t d).trans
    (by unfold Dat.fetched Dat.blockOf latentBlk; rw [hA]; try rfl)
theorem latent_before1_of {c : Dev nD} (dat : Dat τ (Elt F) Unit ℕ (UR sig nD τ) ℕ cfg1 c) (hA : dat.A 1 = V c (Pipeline.arrRef spec1 1))
    (hafter : ∀ t, dat.after 1 t = latentBlk V c 1 t) (t : Fin cfg1.N) (d) : dat.before 1 t d = latentBlk V c 1 t :=
  (dat.before_in_eq_fetched 1 rfl (fun _ => rfl) (fun _ _ _ => rfl) (fun t => by rw [hafter]; unfold Dat.blockOf latentBlk; rw [hA]; try rfl) t d).trans
    (by unfold Dat.fetched Dat.blockOf latentBlk; rw [hA]; try rfl)
theorem latent_before2_of {c : Dev nD} (dat : Dat τ (Elt F) Unit ℕ (UR sig nD τ) ℕ cfg1 c) (hA : dat.A 2 = V c (Pipeline.arrRef spec1 2))
    (hafter : ∀ t, dat.after 2 t = latentBlk V c 2 t) (t : Fin cfg1.N) (d) : dat.before 2 t d = latentBlk V c 2 t :=
  (dat.before_in_eq_fetched 2 rfl (fun _ => rfl) (fun _ _ _ => rfl) (fun t => by rw [hafter]; unfold Dat.blockOf latentBlk; rw [hA]; try rfl) t d).trans
    (by unfold Dat.fetched Dat.blockOf latentBlk; rw [hA]; try rfl)

/-! ## The accumulator, position by position -/

/-- What the accumulator holds after the body at position `n`: the kernel's update term, restarted from the zero
    block where `n % 8 = 0`, otherwise over what position `n - 1` left. -/
def latentAcc (c : Dev nD) : (n : ℕ) → n < cfg1.N → Vec F S1024x1024 .f32
  | 0, hn => k1_pay2 k1_pay1 (latentBlk V c 0 ⟨0, hn⟩) (latentBlk V c 1 ⟨0, hn⟩)
  | n + 1, hn =>
    if (n + 1) % 8 = 0 then k1_pay2 k1_pay1 (latentBlk V c 0 ⟨n + 1, hn⟩) (latentBlk V c 1 ⟨n + 1, hn⟩)
    else k1_pay2 (latentAcc c n (Nat.lt_of_succ_lt hn)) (latentBlk V c 0 ⟨n + 1, hn⟩) (latentBlk V c 1 ⟨n + 1, hn⟩)

theorem latentAcc_first (c : Dev nD) (t : Fin cfg1.N) (h : t.val % 8 = 0) :
    latentAcc V c t.val t.isLt = k1_pay2 k1_pay1 (latentBlk V c 0 t) (latentBlk V c 1 t) := by
  obtain ⟨n, hn⟩ := t
  cases n with
  | zero => rfl
  | succ n => exact if_pos h

theorem latentAcc_next (c : Dev nD) (t : Fin cfg1.N) (h : ¬t.val % 8 = 0) :
    latentAcc V c t.val t.isLt
      = k1_pay2 (latentAcc V c (t.val - 1) (Nat.lt_of_le_of_lt (Nat.sub_le _ _) t.isLt)) (latentBlk V c 0 t) (latentBlk V c 1 t) := by
  obtain ⟨n, hn⟩ := t
  cases n with
  | zero => exact absurd (Nat.zero_mod _) h
  | succ n => exact if_neg h

/-- What the body leaves in the output window's staging buffer at a point with `k = 7`: the accumulator plus the bias row. -/
def latentOut (c : Dev nD) (t : Fin cfg1.N) : Vec F S1024x1024 .f32 :=
  k1_pay3 (latentAcc V c t.val t.isLt) (latentBlk V c 2 t)

/-! ## The invariant between points -/

/-- Before the first point the kernel's scoped buffers are at anything; after position `n` the accumulator holds
    `latentAcc … n`. The other scoped buffers and the generator register ride along untouched. -/
def latentPhi (c : Dev nD) : (n : ℕ) → n ≤ cfg1.N → sProp 𝕄
  | 0, _ => Pipeline.ΦA spec1 c
  | n + 1, hn => iprop(iprop(owns (c : Thread nD τ) latentScratch fullShare (latentAcc V c n hn)
      ∗ Pipeline.scopedRestBut (Ix := Unit) (Name := ℕ) (U := UR sig nD τ) (Lvl := ℕ) (Val := Elt F) spec1 c [cc1_scratch0]) ∗ (∃ r, prngReg c r))

theorem latentPhi_zero (c : Dev nD) (n : ℕ) (h : n ≤ cfg1.N) (hz : n = 0) : latentPhi V c n h = Pipeline.ΦA spec1 c := by
  subst hz; rfl

theorem latentPhi_succ (c : Dev nD) (n : ℕ) (hn : n < cfg1.N) :
    latentPhi V c (n + 1) hn = iprop(iprop(owns (c : Thread nD τ) latentScratch fullShare (latentAcc V c n hn)
      ∗ Pipeline.scopedRestBut (Ix := Unit) (Name := ℕ) (U := UR sig nD τ) (Lvl := ℕ) (Val := Elt F) spec1 c [cc1_scratch0]) ∗ (∃ r, prngReg c r)) := rfl

theorem latentPhi_pos (c : Dev nD) (n : ℕ) (h : n ≤ cfg1.N) (hz : n ≠ 0) :
    latentPhi V c n h = iprop(iprop(owns (c : Thread nD τ) latentScratch fullShare (latentAcc V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The class invariant with the accumulator split off as a whole buffer owned at some contents. -/
theorem latentPhiA_eq (c : Dev nD) :
    (Pipeline.ΦA spec1 c : sProp 𝕄)
      = iprop(iprop(iprop((∃ d, owns (c : Thread nD τ) latentScratch fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [latentScratch, owns_whole]; try rfl

/-! ## The proof data -/

/-- The proof data of the second product's pipeline on core `c`: the arrays as the region finds them; after the body
    each input's buffer at its block, the output's at the accumulator plus the bias row (consulted only where
    `k = 7`); the invariant above; nothing owed; full shares. -/
def latentDat (c : Dev nD) : Dat τ (Elt F) Unit ℕ (UR sig nD τ) ℕ cfg1 c where
  A w := V c (Pipeline.arrRef spec1 w)
  after w t := match w with
    | ⟨0, _⟩ => latentBlk V c 0 t
    | ⟨1, _⟩ => latentBlk V c 1 t
    | ⟨2, _⟩ => latentBlk V c 2 t
    | ⟨3, _⟩ => latentOut V c t
  Φ t := latentPhi V c t.val (Nat.le_of_lt_succ t.isLt)
  q _ := fullShare
  owed _ := 0

theorem latentDat_A (c : Dev nD) (w : Fin cfg1.W) : (latentDat V c).A w = V c (Pipeline.arrRef spec1 w) := by
  dsimp only [latentDat]
theorem latentDat_after0 (c : Dev nD) (t : Fin cfg1.N) : (latentDat V c).after 0 t = latentBlk V c 0 t := by dsimp only [latentDat]
theorem latentDat_after1 (c : Dev nD) (t : Fin cfg1.N) : (latentDat V c).after 1 t = latentBlk V c 1 t := by dsimp only [latentDat]
theorem latentDat_after2 (c : Dev nD) (t : Fin cfg1.N) : (latentDat V c).after 2 t = latentBlk V c 2 t := by dsimp only [latentDat]
theorem latentDat_after3 (c : Dev nD) (t : Fin cfg1.N) : (latentDat V c).after 3 t = latentOut V c t := by dsimp only [latentDat]
theorem latentDat_Phi_castSucc (c : Dev nD) (t : Fin cfg1.N) :
    (latentDat V c).Φ t.castSucc = latentPhi V c t.val (Nat.le_of_lt t.isLt) := by
  dsimp only [latentDat]; simp only [Fin.coe_castSucc]

theorem latent_before0 (c : Dev nD) (t : Fin cfg1.N) (d) : (latentDat V c).before 0 t d = latentBlk V c 0 t :=
  latent_before0_of V (latentDat V c) (latentDat_A V c 0) (latentDat_after0 V c) t d
theorem latent_before1 (c : Dev nD) (t : Fin cfg1.N) (d) : (latentDat V c).before 1 t d = latentBlk V c 1 t :=
  latent_before1_of V (latentDat V c) (latentDat_A V c 1) (latentDat_after1 V c) t d
theorem latent_before2 (c : Dev nD) (t : Fin cfg1.N) (d) : (latentDat V c).before 2 t d = latentBlk V c 2 t :=
  latent_before2_of V (latentDat V c) (latentDat_A V c 2) (latentDat_after2 V c) t d

end

end Cert.KernelIdeal.Net

end
-- ==== Proof.Net.ExpandData.lean ====
/-
  The third product's kernel over its whole grid (the expansion `t = z · W₂ᵀ + d₁`): 8 row blocks × 8 column blocks,
  the contracted axis in ONE block, so every point zeroes the accumulator, adds the whole product (the second operand
  block transposed) and finishes its output block with the bias row. What the pipeline hands the body at each point
  and what the body leaves.
-/
import proofs.«113703_j70265664962673_1_alg».proof.Proof.Net.LatentBody

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-! ## The branches and the windows over the grid: the contracted axis is one block, so at every point both branches
    are taken and no window is idle — decided over the 64 points -/

/-- `k = 0`: the branch that zeroes the accumulator. -/
abbrev expandFirst (i : grid2.Coords) : Prop := (Scalar.cmpi .ne (Scalar.extui (Scalar.cmpi .eq (BitVec.ofNat 32 (i 2).val) 0#32)) 0#32) = 1#1
/-- `k` is the last block: the branch that finishes the output block. -/
abbrev expandLast (i : grid2.Coords) : Prop := k2_cond2 i = 1#1
theorem expandFirst_all : ∀ t : Fin cfg2.N, expandFirst (grid2.coords t) :=
  (by decide +kernel : ∀ t : Fin grid2.N, expandFirst (grid2.coords t))
theorem expandLast_all : ∀ t : Fin cfg2.N, expandLast (grid2.coords t) :=
  (by decide +kernel : ∀ t : Fin grid2.N, expandLast (grid2.coords t))
theorem expand_live0 : ∀ t : Fin cfg2.N, cfg2.idle 0 (grid2.coords t) = false := by decide +kernel
theorem expand_live1 : ∀ t : Fin cfg2.N, cfg2.idle 1 (grid2.coords t) = false := by decide +kernel
theorem expand_live2 : ∀ t : Fin cfg2.N, cfg2.idle 2 (grid2.coords t) = false := by decide +kernel
theorem expand_live3 : ∀ t : Fin cfg2.N, cfg2.idle 3 (grid2.coords t) = false := by decide +kernel

/-- Each window's current staging buffer at point `t`, as the pipeline passes it to the body. -/
abbrev expandSt0 (t : Fin cfg2.N) : Memref sig .tc .vmem S1024x2048 .bf16 := win2_0.stage (cfg2.slots t 0)
abbrev expandSt1 (t : Fin cfg2.N) : Memref sig .tc .vmem S1024x2048 .bf16 := win2_1.stage (cfg2.slots t 1)
abbrev expandSt2 (t : Fin cfg2.N) : Memref sig .tc .vmem S1x1024 .f32 := win2_2.stage (cfg2.slots t 2)
abbrev expandSt3 (t : Fin cfg2.N) : Memref sig .tc .vmem S1024x1024 .bf16 := win2_3.stage (cfg2.slots t 3)
/-- The accumulator: a whole scoped buffer of the kernel's own. -/
abbrev expandScratch : Memref sig .tc .vmem S1024x1024 .f32 := Memref.whole cc2_scratch0

section
-- the TensorCore's buffer contents when the region is entered
variable (V : (c : Dev nD) → (b : Ref sig .tc) → Buf (Elt F) ((c : Thread nD τ).loc b))

/-- Window `w`'s block at point `t`, read off its array as the region finds it. -/
def expandBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched, the
    block index has not moved. -/
theorem expand_before0_of {c : Dev nD} (dat : Dat τ (Elt F) Unit ℕ (UR sig nD τ) ℕ cfg2 c) (hA : dat.A 0 = V c (Pipeline.arrRef spec2 0))
    (hafter : ∀ t, dat.after 0 t = expandBlk V c 0 t) (t : Fin cfg2.N) (d) : dat.before 0 t d = expandBlk V c 0 t :=
  (dat.before_in_eq_fetched 0 rfl (fun _ => rfl) (fun _ _ _ => rfl) (fun t => by rw [hafter]; unfold Dat.blockOf expandBlk; rw [hA]; try rfl) t d).trans
    (by unfold Dat.fetched Dat.blockOf expandBlk; rw [hA]; try rfl)
theorem expand_before1_of {c : Dev nD} (dat : Dat τ (Elt F) Unit ℕ (UR sig nD τ) ℕ cfg2 c) (hA : dat.A 1 = V c (Pipeline.arrRef spec2 1))
    (hafter : ∀ t, dat.after 1 t = expandBlk V c 1 t) (t : Fin cfg2.N) (d) : dat.before 1 t d = expandBlk V c 1 t :=
  (dat.before_in_eq_fetched 1 rfl (fun _ => rfl) (fun _ _ _ => rfl) (fun t => by rw [hafter]; unfold Dat.blockOf expandBlk; rw [hA]; try rfl) t d).trans
    (by unfold Dat.fetched Dat.blockOf expandBlk; rw [hA]; try rfl)
theorem expand_before2_of {c : Dev nD} (dat : Dat τ (Elt F) Unit ℕ (UR sig nD τ) ℕ cfg2 c) (hA : dat.A 2 = V c (Pipeline.arrRef spec2 2))
    (hafter : ∀ t, dat.after 2 t = expandBlk V c 2 t) (t : Fin cfg2.N) (d) : dat.before 2 t d = expandBlk V c 2 t :=
  (dat.before_in_eq_fetched 2 rfl (fun _ => rfl) (fun _ _ _ => rfl) (fun t => by rw [hafter]; unfold Dat.blockOf expandBlk; rw [hA]; try rfl) t d).trans
    (by unfold Dat.fetched Dat.blockOf expandBlk; rw [hA]; try rfl)

/-- What the body leaves in the output window's staging buffer at point `t`: the kernel's terms composed — the zero
    block, plus the product of the two operand blocks, then the closing term over the row blocks. -/
def expandOut (c : Dev nD) (t : Fin cfg2.N) : Vec F S1024x1024 .bf16 :=
  k2_pay3 (k2_pay2 k2_pay1 (expandBlk V c 0 t) (expandBlk V c 1 t)) (expandBlk V c 2 t)

/-- The class invariant with the accumulator split off as a whole buffer owned at some contents. -/
theorem expandPhiA_eq (c : Dev nD) :
    (Pipeline.ΦA spec2 c : sProp 𝕄)
      = iprop(iprop(iprop((∃ d, owns (c : Thread nD τ) expandScratch fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [expandScratch, owns_whole]; try rfl

/-- The proof data of this pipeline on core `c`: the arrays as the region finds them; after the body each input's
    buffer at its block and the output's at `expandOut`; the invariant the class's (the accumulator at anything between
    points: every point restarts it); nothing owed; full shares. -/
def expandDat (c : Dev nD) : Dat τ (Elt F) Unit ℕ (UR sig nD τ) ℕ cfg2 c where
  A w := V c (Pipeline.arrRef spec2 w)
  after w t := match w with
    | ⟨0, _⟩ => expandBlk V c 0 t
    | ⟨1, _⟩ => expandBlk V c 1 t
    | ⟨2, _⟩ => expandBlk V c 2 t
    | ⟨3, _⟩ => expandOut V c t
  Φ _ := Pipeline.ΦA spec2 c
  q _ := fullShare
  owed _ := 0

theorem expandDat_A (c : Dev nD) (w : Fin cfg2.W) : (expandDat V c).A w = V c (Pipeline.arrRef spec2 w) := by
  dsimp only [expandDat]
theorem expandDat_after0 (c : Dev nD) (t : Fin cfg2.N) : (expandDat V c).after 0 t = expandBlk V c 0 t := by dsimp only [expandDat]
theorem expandDat_after1 (c : Dev nD) (t : Fin cfg2.N) : (expandDat V c).after 1 t = expandBlk V c 1 t := by dsimp only [expandDat]
theorem expandDat_after2 (c : Dev nD) (t : Fin cfg2.N) : (expandDat V c).after 2 t = expandBlk V c 2 t := by dsimp only [expandDat]
theorem expandDat_after3 (c : Dev nD) (t : Fin cfg2.N) : (expandDat V c).after 3 t = expandOut V c t := by dsimp only [expandDat]
theorem expand_before0 (c : Dev nD) (t : Fin cfg2.N) (d) : (expandDat V c).before 0 t d = expandBlk V c 0 t :=
  expand_before0_of V (expandDat V c) (expandDat_A V c 0) (expandDat_after0 V c) t d
theorem expand_before1 (c : Dev nD) (t : Fin cfg2.N) (d) : (expandDat V c).before 1 t d = expandBlk V c 1 t :=
  expand_before1_of V (expandDat V c) (expandDat_A V c 1) (expandDat_after1 V c) t d
theorem expand_before2 (c : Dev nD) (t : Fin cfg2.N) (d) : (expandDat V c).before 2 t d = expandBlk V c 2 t :=
  expand_before2_of V (expandDat V c) (expandDat_A V c 2) (expandDat_after2 V c) t d

end

end Cert.KernelIdeal.Net

end
-- ==== Proof.Net.ReconBody.lean ====
/-
  The body of the fourth product's kernel (the reconstruction `r = t · W₁ᵀ + d₂`, the second operand block transposed, accumulated over eight blocks of the
  contracted axis) at one grid point, on whole staging buffers. The grid's last coordinate `k` selects one of three
  control cases: at `k = 0` the accumulator is zeroed and then takes the first partial product; at `0 < k < 7` it
  takes one more partial product; at `k = 7` it takes the last one and the output block is the accumulator plus the
  bias row. Each case says exactly what the accumulator and the output buffer hold afterwards, as the kernel's own
  pure terms of what the buffers held before.
-/
import proofs.«113703_j70265664962673_1_alg».proof.Proof.Gen.KernelIdeal.Skeleton
import proofs.«113703_j70265664962673_1_alg».proof.Proof.Gen.KernelIdeal.Launch
import proofs.«113703_j70265664962673_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-- The whole-buffer rectangle's offsets are zero. -/
theorem off2_zero : (![0, 0] : Fin 2 → ℕ) = fun _ => 0 := by funext a; fin_cases a <;> rfl

/-- `k = 0`: the branch that zeroes the accumulator is taken. -/
abbrev reconFirst (i : grid3.Coords) : Prop := (Scalar.cmpi .ne (Scalar.extui (Scalar.cmpi .eq (BitVec.ofNat 32 (i 2).val) 0#32)) 0#32) = 1#1
/-- `k = 7`: the branch that adds the bias and stores the output block is taken. -/
abbrev reconLast (i : grid3.Coords) : Prop := k3_cond2 i = 1#1

set_option maxHeartbeats 1000000 in
/-- `k = 0`: whatever the accumulator held, it ends at `0 + a · b`; the output buffer is untouched. -/
theorem recon_first (c : Dev nD) (E : Set ℕ) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : reconFirst i) (hc1 : ¬reconLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k3_pay2 k3_pay1 x0 x1)) -∗ K ⟨⟩))
      ⊢ wp frame (wpE (defs₀ (F := F)) Variants.none c none) E (cc3_kernel i arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `0 < k < 7`: the accumulator `s` ends at `s + a · b`; the output buffer is untouched. -/
theorem recon_mid (c : Dev nD) (E : Set ℕ) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬reconFirst i) (hc1 : ¬reconLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k3_pay2 xs x0 x1)) -∗ K ⟨⟩))
      ⊢ wp frame (wpE (defs₀ (F := F)) Variants.none c none) E (cc3_kernel i arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `k = 7`: the accumulator `s` ends at `s + a · b`, and the output buffer, whatever it held, at that plus the bias row. -/
theorem recon_last (c : Dev nD) (E : Set ℕ) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬reconFirst i) (hc1 : reconLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k3_pay3 (k3_pay2 xs x0 x1) x2) ∗ owns (c : Thread nD τ) arg7 fullShare (k3_pay2 xs x0 x1)) -∗ K ⟨⟩))
      ⊢ wp frame (wpE (defs₀ (F := F)) Variants.none c none) E (cc3_kernel i arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]
  iexists _; isplitr
  swap; · iexact HS
  ipureintro
  sl_unfold_words
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

end Cert.KernelIdeal.Net

end
-- ==== Proof.Net.ReconData.lean ====
/-
  The fourth product's kernel over its whole grid: what the pipeline hands the body at each point and what the body
  leaves. The grid is (8 row blocks) × (2 column blocks) × (8 blocks of the contracted axis), the contracted axis
  fastest, so position `n` has `k = n % 8`. The accumulator after position `n` is, by recursion on `n`, the kernel's
  own update term: restarted from the zero block where `k = 0`, otherwise the previous accumulator plus this point's
  partial product. The output window is written at `k = 7` only (the accumulator plus the bias row) and idle elsewhere.
-/
import proofs.«113703_j70265664962673_1_alg».proof.Proof.Net.ReconBody

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

/-! ## Where the branches are taken, and where the output window is idle: decided over the 128 points -/

theorem reconFirst_iff : ∀ t : Fin cfg3.N, reconFirst (grid3.coords t) ↔ t.val % 8 = 0 :=
  (by decide +kernel : ∀ t : Fin grid3.N, reconFirst (grid3.coords t) ↔ t.val % 8 = 0)
theorem reconLast_iff : ∀ t : Fin cfg3.N, reconLast (grid3.coords t) ↔ t.val % 8 = 7 :=
  (by decide +kernel : ∀ t : Fin grid3.N, reconLast (grid3.coords t) ↔ t.val % 8 = 7)
theorem recon_live0 : ∀ t : Fin cfg3.N, cfg3.idle 0 (grid3.coords t) = false := by decide +kernel
theorem recon_live1 : ∀ t : Fin cfg3.N, cfg3.idle 1 (grid3.coords t) = false := by decide +kernel
theorem recon_live2 : ∀ t : Fin cfg3.N, cfg3.idle 2 (grid3.coords t) = false := by decide +kernel
theorem recon_out_idle : ∀ t : Fin cfg3.N, ¬reconLast (grid3.coords t) → cfg3.idle 3 (grid3.coords t) = true := by decide +kernel
theorem recon_out_noflush : ∀ t : Fin cfg3.N, ¬reconLast (grid3.coords t) → (cfg3.win 3).flush t = false := by decide +kernel
theorem recon_out_live : ∀ t : Fin cfg3.N, reconLast (grid3.coords t) → cfg3.idle 3 (grid3.coords t) = false := by decide +kernel

/-- Each window's current staging buffer at point `t`, as the pipeline passes it to the body. -/
abbrev reconSt0 (t : Fin cfg3.N) : Memref sig .tc .vmem S1024x1024 .bf16 := win3_0.stage (cfg3.slots t 0)
abbrev reconSt1 (t : Fin cfg3.N) : Memref sig .tc .vmem S1024x1024 .bf16 := win3_1.stage (cfg3.slots t 1)
abbrev reconSt2 (t : Fin cfg3.N) : Memref sig .tc .vmem S1x1024 .f32 := win3_2.stage (cfg3.slots t 2)
abbrev reconSt3 (t : Fin cfg3.N) : Memref sig .tc .vmem S1024x1024 .f32 := win3_3.stage (cfg3.slots t 3)
/-- The accumulator: a whole scoped buffer of the kernel's own. -/
abbrev reconScratch : Memref sig .tc .vmem S1024x1024 .f32 := Memref.whole cc3_scratch0

section
-- the TensorCore's buffer contents when the region is entered
variable (V : (c : Dev nD) → (b : Ref sig .tc) → Buf (Elt F) ((c : Thread nD τ).loc b))

/-- Window `w`'s block at point `t`, read off its array as the region finds it. -/
def reconBlk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: unfetched, the
    block index has not moved. -/
theorem recon_before0_of {c : Dev nD} (dat : Dat τ (Elt F) Unit ℕ (UR sig nD τ) ℕ cfg3 c) (hA : dat.A 0 = V c (Pipeline.arrRef spec3 0))
    (hafter : ∀ t, dat.after 0 t = reconBlk V c 0 t) (t : Fin cfg3.N) (d) : dat.before 0 t d = reconBlk V c 0 t :=
  (dat.before_in_eq_fetched 0 rfl (fun _ => rfl) (fun _ _ _ => rfl) (fun t => by rw [hafter]; unfold Dat.blockOf reconBlk; rw [hA]; try rfl) t d).trans
    (by unfold Dat.fetched Dat.blockOf reconBlk; rw [hA]; try rfl)
theorem recon_before1_of {c : Dev nD} (dat : Dat τ (Elt F) Unit ℕ (UR sig nD τ) ℕ cfg3 c) (hA : dat.A 1 = V c (Pipeline.arrRef spec3 1))
    (hafter : ∀ t, dat.after 1 t = reconBlk V c 1 t) (t : Fin cfg3.N) (d) : dat.before 1 t d = reconBlk V c 1 t :=
  (dat.before_in_eq_fetched 1 rfl (fun _ => rfl) (fun _ _ _ => rfl) (fun t => by rw [hafter]; unfold Dat.blockOf reconBlk; rw [hA]; try rfl) t d).trans
    (by unfold Dat.fetched Dat.blockOf reconBlk; rw [hA]; try rfl)
theorem recon_before2_of {c : Dev nD} (dat : Dat τ (Elt F) Unit ℕ (UR sig nD τ) ℕ cfg3 c) (hA : dat.A 2 = V c (Pipeline.arrRef spec3 2))
    (hafter : ∀ t, dat.after 2 t = reconBlk V c 2 t) (t : Fin cfg3.N) (d) : dat.before 2 t d = reconBlk V c 2 t :=
  (dat.before_in_eq_fetched 2 rfl (fun _ => rfl) (fun _ _ _ => rfl) (fun t => by rw [hafter]; unfold Dat.blockOf reconBlk; rw [hA]; try rfl) t d).trans
    (by unfold Dat.fetched Dat.blockOf reconBlk; rw [hA]; try rfl)

/-! ## The accumulator, position by position -/

/-- What the accumulator holds after the body at position `n`: the kernel's update term, restarted from the zero
    block where `n % 8 = 0`, otherwise over what position `n - 1` left. -/
def reconAcc (c : Dev nD) : (n : ℕ) → n < cfg3.N → Vec F S1024x1024 .f32
  | 0, hn => k3_pay2 k3_pay1 (reconBlk V c 0 ⟨0, hn⟩) (reconBlk V c 1 ⟨0, hn⟩)
  | n + 1, hn =>
    if (n + 1) % 8 = 0 then k3_pay2 k3_pay1 (reconBlk V c 0 ⟨n + 1, hn⟩) (reconBlk V c 1 ⟨n + 1, hn⟩)
    else k3_pay2 (reconAcc c n (Nat.lt_of_succ_lt hn)) (reconBlk V c 0 ⟨n + 1, hn⟩) (reconBlk V c 1 ⟨n + 1, hn⟩)

theorem reconAcc_first (c : Dev nD) (t : Fin cfg3.N) (h : t.val % 8 = 0) :
    reconAcc V c t.val t.isLt = k3_pay2 k3_pay1 (reconBlk V c 0 t) (reconBlk V c 1 t) := by
  obtain ⟨n, hn⟩ := t
  cases n with
  | zero => rfl
  | succ n => exact if_pos h

theorem reconAcc_next (c : Dev nD) (t : Fin cfg3.N) (h : ¬t.val % 8 = 0) :
    reconAcc V c t.val t.isLt
      = k3_pay2 (reconAcc V c (t.val - 1) (Nat.lt_of_le_of_lt (Nat.sub_le _ _) t.isLt)) (reconBlk V c 0 t) (reconBlk V c 1 t) := by
  obtain ⟨n, hn⟩ := t
  cases n with
  | zero => exact absurd (Nat.zero_mod _) h
  | succ n => exact if_neg h

/-- What the body leaves in the output window's staging buffer at a point with `k = 7`: the accumulator plus the bias row. -/
def reconOut (c : Dev nD) (t : Fin cfg3.N) : Vec F S1024x1024 .f32 :=
  k3_pay3 (reconAcc V c t.val t.isLt) (reconBlk V c 2 t)

/-! ## The invariant between points -/

/-- Before the first point the kernel's scoped buffers are at anything; after position `n` the accumulator holds
    `reconAcc … n`. The other scoped buffers and the generator register ride along untouched. -/
def reconPhi (c : Dev nD) : (n : ℕ) → n ≤ cfg3.N → sProp 𝕄
  | 0, _ => Pipeline.ΦA spec3 c
  | n + 1, hn => iprop(iprop(owns (c : Thread nD τ) reconScratch fullShare (reconAcc V c n hn)
      ∗ Pipeline.scopedRestBut (Ix := Unit) (Name := ℕ) (U := UR sig nD τ) (Lvl := ℕ) (Val := Elt F) spec3 c [cc3_scratch0]) ∗ (∃ r, prngReg c r))

theorem reconPhi_zero (c : Dev nD) (n : ℕ) (h : n ≤ cfg3.N) (hz : n = 0) : reconPhi V c n h = Pipeline.ΦA spec3 c := by
  subst hz; rfl

theorem reconPhi_succ (c : Dev nD) (n : ℕ) (hn : n < cfg3.N) :
    reconPhi V c (n + 1) hn = iprop(iprop(owns (c : Thread nD τ) reconScratch fullShare (reconAcc V c n hn)
      ∗ Pipeline.scopedRestBut (Ix := Unit) (Name := ℕ) (U := UR sig nD τ) (Lvl := ℕ) (Val := Elt F) spec3 c [cc3_scratch0]) ∗ (∃ r, prngReg c r)) := rfl

theorem reconPhi_pos (c : Dev nD) (n : ℕ) (h : n ≤ cfg3.N) (hz : n ≠ 0) :
    reconPhi V c n h = iprop(iprop(owns (c : Thread nD τ) reconScratch fullShare (reconAcc V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The class invariant with the accumulator split off as a whole buffer owned at some contents. -/
theorem reconPhiA_eq (c : Dev nD) :
    (Pipeline.ΦA spec3 c : sProp 𝕄)
      = iprop(iprop(iprop((∃ d, owns (c : Thread nD τ) reconScratch fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [reconScratch, owns_whole]; try rfl

/-! ## The proof data -/

/-- The proof data of the fourth product's pipeline on core `c`: the arrays as the region finds them; after the body
    each input's buffer at its block, the output's at the accumulator plus the bias row (consulted only where
    `k = 7`); the invariant above; nothing owed; full shares. -/
def reconDat (c : Dev nD) : Dat τ (Elt F) Unit ℕ (UR sig nD τ) ℕ cfg3 c where
  A w := V c (Pipeline.arrRef spec3 w)
  after w t := match w with
    | ⟨0, _⟩ => reconBlk V c 0 t
    | ⟨1, _⟩ => reconBlk V c 1 t
    | ⟨2, _⟩ => reconBlk V c 2 t
    | ⟨3, _⟩ => reconOut V c t
  Φ t := reconPhi V c t.val (Nat.le_of_lt_succ t.isLt)
  q _ := fullShare
  owed _ := 0

theorem reconDat_A (c : Dev nD) (w : Fin cfg3.W) : (reconDat V c).A w = V c (Pipeline.arrRef spec3 w) := by
  dsimp only [reconDat]
theorem reconDat_after0 (c : Dev nD) (t : Fin cfg3.N) : (reconDat V c).after 0 t = reconBlk V c 0 t := by dsimp only [reconDat]
theorem reconDat_after1 (c : Dev nD) (t : Fin cfg3.N) : (reconDat V c).after 1 t = reconBlk V c 1 t := by dsimp only [reconDat]
theorem reconDat_after2 (c : Dev nD) (t : Fin cfg3.N) : (reconDat V c).after 2 t = reconBlk V c 2 t := by dsimp only [reconDat]
theorem reconDat_after3 (c : Dev nD) (t : Fin cfg3.N) : (reconDat V c).after 3 t = reconOut V c t := by dsimp only [reconDat]
theorem reconDat_Phi_castSucc (c : Dev nD) (t : Fin cfg3.N) :
    (reconDat V c).Φ t.castSucc = reconPhi V c t.val (Nat.le_of_lt t.isLt) := by
  dsimp only [reconDat]; simp only [Fin.coe_castSucc]

theorem recon_before0 (c : Dev nD) (t : Fin cfg3.N) (d) : (reconDat V c).before 0 t d = reconBlk V c 0 t :=
  recon_before0_of V (reconDat V c) (reconDat_A V c 0) (reconDat_after0 V c) t d
theorem recon_before1 (c : Dev nD) (t : Fin cfg3.N) (d) : (reconDat V c).before 1 t d = reconBlk V c 1 t :=
  recon_before1_of V (reconDat V c) (reconDat_A V c 1) (reconDat_after1 V c) t d
theorem recon_before2 (c : Dev nD) (t : Fin cfg3.N) (d) : (reconDat V c).before 2 t d = reconBlk V c 2 t :=
  recon_before2_of V (reconDat V c) (reconDat_A V c 2) (reconDat_after2 V c) t d

end

end Cert.KernelIdeal.Net

end
-- ==== Proof.Net.RunData.lean ====
/-
  The buffer contents at every boundary of @main, each region's proof data at its own entry contents, and the thread
  state that rides between the segments.

  The contents a region leaves in its output array are what its pipeline's write-backs fold to (`Dat.arrAt … N`), and
  each later boundary is computed from the earlier ones; so the contents are fixed region by region: `outsA` knows
  what the first region leaves, `outsB` also what the second leaves given `outsA`, and so on up to `outs`.
-/
import proofs.«113703_j70265664962673_1_alg».proof.Proof.Gen.KernelIdeal.Regions
import proofs.«113703_j70265664962673_1_alg».proof.Proof.Net.EncodeData
import proofs.«113703_j70265664962673_1_alg».proof.Proof.Net.LatentData
import proofs.«113703_j70265664962673_1_alg».proof.Proof.Net.ExpandData
import proofs.«113703_j70265664962673_1_alg».proof.Proof.Net.ReconData
import Idealize.ShloMosaic.Lib.Pipeline.RegionsLoop
import Idealize.ShloMosaic.Lib.Pipeline.FrameSuffix

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-! ## What each region leaves, fixed one region after the other -/

/-- The first region's entry contents, read at the TensorCore's references. -/
abbrev VA (c : Dev nD) (b : Ref sig .tc) : Buf (Elt F) ((c : Thread nD τ).loc b) := V5 m c b
/-- After the first region: its arrays at what its write-backs fold to. -/
def outsA : Outs (F := F) := fun _ r c =>
  Pipeline.withArrays spec0 c (V5 m c) (fun w => (encodeDat (VA m) c).arrAt w cfg0.N) (Proc.devRef .tc r)

/-- The second region's entry contents. -/
abbrev VB (c : Dev nD) (b : Ref sig .tc) : Buf (Elt F) ((c : Thread nD τ).loc b) := V7 m (outsA m) c b
def outsB : Outs (F := F) := fun J r c =>
  if J = 6 then outsA m J r c
  else Pipeline.withArrays spec1 c (V7 m (outsA m) c) (fun w => (latentDat (VB m) c).arrAt w cfg1.N) (Proc.devRef .tc r)

/-- The third region's entry contents. -/
abbrev VC (c : Dev nD) (b : Ref sig .tc) : Buf (Elt F) ((c : Thread nD τ).loc b) := V9 m (outsB m) c b
def outsC : Outs (F := F) := fun J r c =>
  if J = 6 ∨ J = 8 then outsB m J r c
  else Pipeline.withArrays spec2 c (V9 m (outsB m) c) (fun w => (expandDat (VC m) c).arrAt w cfg2.N) (Proc.devRef .tc r)

/-- The fourth region's entry contents. -/
abbrev VD (c : Dev nD) (b : Ref sig .tc) : Buf (Elt F) ((c : Thread nD τ).loc b) := V11 m (outsC m) c b
/-- What every region leaves. -/
def outs : Outs (F := F) := fun J r c =>
  if J = 6 ∨ J = 8 ∨ J = 10 then outsC m J r c
  else Pipeline.withArrays spec3 c (V11 m (outsC m) c) (fun w => (reconDat (VD m) c).arrAt w cfg3.N) (Proc.devRef .tc r)

/-- The later stages agree with the earlier ones on what the earlier regions leave. -/
theorem outsB_six (r : Ref sig .tc) (c : Dev nD) : outsB m 6 r c = outsA m 6 r c := by
  unfold outsB; rw [if_pos rfl]
theorem outsC_six (r : Ref sig .tc) (c : Dev nD) : outsC m 6 r c = outsA m 6 r c := by
  unfold outsC; rw [if_pos (Or.inl rfl), outsB_six]
theorem outsC_eight (r : Ref sig .tc) (c : Dev nD) : outsC m 8 r c = outsB m 8 r c := by
  unfold outsC; rw [if_pos (Or.inr rfl)]
theorem outs_six (r : Ref sig .tc) (c : Dev nD) : outs m 6 r c = outsA m 6 r c := by
  unfold outs; rw [if_pos (Or.inl rfl), outsC_six]
theorem outs_eight (r : Ref sig .tc) (c : Dev nD) : outs m 8 r c = outsB m 8 r c := by
  unfold outs; rw [if_pos (Or.inr (Or.inl rfl)), outsC_eight]
theorem outs_ten (r : Ref sig .tc) (c : Dev nD) : outs m 10 r c = outsC m 10 r c := by
  unfold outs; rw [if_pos (Or.inr (Or.inr rfl))]

/-- A boundary's valuation depends on `outs` only through what the regions before it leave. -/
theorem V7_congr (o o' : Outs (F := F)) (c : Dev nD) (h6 : o 6 main_v22 c = o' 6 main_v22 c) : V7 m o c = V7 m o' c := by
  show StableHlo.after hostOps1 (Function.update (V5 m c) (Proc.devRef .tc main_v22) (o 6 main_v22 c))
    = StableHlo.after hostOps1 (Function.update (V5 m c) (Proc.devRef .tc main_v22) (o' 6 main_v22 c))
  rw [h6]
theorem V9_congr (o o' : Outs (F := F)) (c : Dev nD) (h6 : o 6 main_v22 c = o' 6 main_v22 c) (h8 : o 8 main_v24 c = o' 8 main_v24 c) :
    V9 m o c = V9 m o' c := by
  show StableHlo.after hostOps2 (Function.update (V7 m o c) (Proc.devRef .tc main_v24) (o 8 main_v24 c))
    = StableHlo.after hostOps2 (Function.update (V7 m o' c) (Proc.devRef .tc main_v24) (o' 8 main_v24 c))
  rw [h8, V7_congr m o o' c h6]
theorem V11_congr (o o' : Outs (F := F)) (c : Dev nD) (h6 : o 6 main_v22 c = o' 6 main_v22 c) (h8 : o 8 main_v24 c = o' 8 main_v24 c)
    (h10 : o 10 main_v27 c = o' 10 main_v27 c) : V11 m o c = V11 m o' c := by
  show StableHlo.after hostOps3 (Function.update (V9 m o c) (Proc.devRef .tc main_v27) (o 10 main_v27 c))
    = StableHlo.after hostOps3 (Function.update (V9 m o' c) (Proc.devRef .tc main_v27) (o' 10 main_v27 c))
  rw [h10, V9_congr m o o' c h6 h8]

/-- The boundaries computed with the final `outs` are the ones each region was fixed at. -/
theorem V5_outs (c : Dev nD) : V5 m c = V5 m c := rfl
theorem V7_outs (c : Dev nD) : V7 m (outs m) c = V7 m (outsA m) c := V7_congr m _ _ c (outs_six m _ c)
theorem V9_outs (c : Dev nD) : V9 m (outs m) c = V9 m (outsB m) c :=
  V9_congr m _ _ c ((outs_six m _ c).trans (outsB_six m _ c).symm) (outs_eight m _ c)
theorem V11_outs (c : Dev nD) : V11 m (outs m) c = V11 m (outsC m) c :=
  V11_congr m _ _ c ((outs_six m _ c).trans (outsC_six m _ c).symm) ((outs_eight m _ c).trans (outsC_eight m _ c).symm) (outs_ten m _ c)

/-- Each region's output array after the region is what its write-backs fold to. -/
theorem outs_v22 (c : Dev nD) : outs m 6 main_v22 c = (encodeDat (VA m) c).arrAt 5 cfg0.N :=
  (outs_six m main_v22 c).trans (by unfold outsA; exact Pipeline.withArrays_arr spec0 launch0.win.arr_inj c _ _ 5)
theorem outs_v24 (c : Dev nD) : outs m 8 main_v24 c = (latentDat (VB m) c).arrAt 3 cfg1.N :=
  (outs_eight m main_v24 c).trans (by unfold outsB; rw [if_neg (by decide)]; exact Pipeline.withArrays_arr spec1 launch1.win.arr_inj c _ _ 3)
theorem outs_v27 (c : Dev nD) : outs m 10 main_v27 c = (expandDat (VC m) c).arrAt 3 cfg2.N :=
  (outs_ten m main_v27 c).trans (by unfold outsC; rw [if_neg (by decide)]; exact Pipeline.withArrays_arr spec2 launch2.win.arr_inj c _ _ 3)
theorem outs_v29 (c : Dev nD) : outs m 12 main_v29 c = (reconDat (VD m) c).arrAt 3 cfg3.N := by
  unfold outs; rw [if_neg (by decide)]; exact Pipeline.withArrays_arr spec3 launch3.win.arr_inj c _ _ 3

/-! ## The proof data family and what rides between the segments -/

/-- Every pipeline's proof data, each at its region's entry contents: a literal match on the pipeline's index. -/
def pdats : (p : Fin 4) → (c : Dev nD) → Dat τ (Elt F) Unit ℕ (UR sig nD τ) ℕ (cfgs p) c
  | ⟨0, _⟩ => fun c => encodeDat (VA m) c
  | ⟨1, _⟩ => fun c => latentDat (VB m) c
  | ⟨2, _⟩ => fun c => expandDat (VC m) c
  | ⟨3, _⟩ => fun c => reconDat (VD m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's
    `owes`, at nothing. -/
abbrev Rz (c : Dev nD) : sProp 𝕄 := iprop((∃ r, prngReg c r) ∗ ∃ W, owes (c : Thread nD τ) (0 : CellTallies nD τ sig Unit) W)

end Cert.KernelIdeal.Net

end
-- ==== Proof.Net.EncodeBody.lean ====
/-
  The body of the first product's kernel (the hidden code `h = act (x · W₁ + b₁)`) at one grid point, on whole
  staging buffers. The contracted axis is a single block, so one run of the body does everything: the accumulator,
  whatever it held, is overwritten with the zero block; it is read back and the whole product of the row block of `x`
  with the column block of `W₁` is added to it; and, since this is also the last block of the contracted axis, the
  accumulator is read once more, the bias row is added, the activation (built from the two remaining parameter rows)
  is applied, the result is rounded to half precision and stored as the output block. The theorem says exactly what
  the accumulator and the output buffer hold afterwards, as the kernel's own pure terms of what the operand buffers
  held before; the operand buffers themselves are returned unchanged.
-/
import proofs.«113703_j70265664962673_1_alg».proof.Proof.Net.EncodeData

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

set_option maxHeartbeats 1000000 in
/-- Both branches taken: whatever the accumulator and the output buffer held, the accumulator ends at `0 + a · b` and
    the output buffer at the closing term over that and the three parameter rows. -/
theorem encode_body (c : Dev nD) (E : Set ℕ) (i : grid0.Coords)
    (arg3 : Memref sig .tc .vmem S1024x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc0 : encodeFirst i) (hc1 : encodeLast i)
    (x0 : Vec F S1024x2048 .bf16) (x1 : Vec F S2048x1024 .bf16) (x2 x3 x4 : Vec F S1x1024 .f32) (xo : Vec F S1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare (k0_pay3 (k0_pay2 k0_pay1 x0 x1) x2 x3 x4)
            ∗ owns (c : Thread nD τ) arg9 fullShare (k0_pay2 k0_pay1 x0 x1)) -∗ K ⟨⟩))
      ⊢ wp frame (wpE (defs₀ (F := F)) Variants.none c none) E (cc0_kernel i arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hfo; obtain rfl := harg9.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    rw [View.readCov_eq_canon_ld _ _ _ (fun y => ⟨_, List.mem_cons.mpr (Or.inl rfl), View.mem_set_unit_zero off2_zero inb_S1024x1024_S1024x1024_0_0 y⟩),
      View.canon_cons_unit_zero off2_zero]
    simp only [View.readAt_eq_ld, View.readCov_unit_zero (S := S1024x1024) _ off2_zero, harg3.read_unread, harg4.read_unread, harg5.read_unread, harg6.read_unread, harg7.read_unread,
      View.ld_unit_zero (S := S1024x1024) off2_zero, View.ld_unit_zero (S := S1024x2048) off2_zero, View.ld_unit_zero (S := S2048x1024) off2_zero, View.ld_unit_zero (S := S1x1024) off2_zero]
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg3.read_unread, harg4.read_unread,
    View.ld_unit_zero (S := S1024x2048) off2_zero, View.ld_unit_zero (S := S2048x1024) off2_zero]

end Cert.KernelIdeal.Net

end
-- ==== Proof.Net.EncodeSeg.lean ====
/-
  The body obligation of the first product's pipeline (the hidden code `h = act (x · W₁ + b₁)`): at every grid point
  the kernel body, handed the invariant and each window's current staging buffer at what the pipeline put there,
  returns the invariant and each buffer at what the proof data say. The contracted axis is one block, so there is a
  single control case: every window is live at every point, the accumulator is taken at whatever the invariant holds
  for it (the body overwrites it before reading it) and handed back at whatever the body left, and the output
  window's buffer ends at the closing term over the point's operand blocks.
-/
import proofs.«113703_j70265664962673_1_alg».proof.Proof.Net.EncodeBody

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def encodeBodyPre (c : Dev nD) (t : Fin cfg0.N) : sProp 𝕄 :=
  iprop((encodeDat V c).Φ t.castSucc ∗ (encodeDat V c).owesAt () t.castSucc
    ∗ (∃ d, owns (c : Thread nD τ) (encodeSt0 t) fullShare ((encodeDat V c).before 0 t d))
    ∗ (∃ d, owns (c : Thread nD τ) (encodeSt1 t) fullShare ((encodeDat V c).before 1 t d))
    ∗ (∃ d, owns (c : Thread nD τ) (encodeSt2 t) fullShare ((encodeDat V c).before 2 t d))
    ∗ (∃ d, owns (c : Thread nD τ) (encodeSt3 t) fullShare ((encodeDat V c).before 3 t d))
    ∗ (∃ d, owns (c : Thread nD τ) (encodeSt4 t) fullShare ((encodeDat V c).before 4 t d))
    ∗ (∃ d, owns (c : Thread nD τ) (encodeSt5 t) fullShare ((encodeDat V c).before 5 t d)))

/-- and what it returns. -/
def encodeBodyPost (c : Dev nD) (t : Fin cfg0.N) : sProp 𝕄 :=
  iprop((encodeDat V c).Φ t.succ ∗ (encodeDat V c).owesAt () t.succ
    ∗ (encodeDat V c).leavesExact 0 t
    ∗ (encodeDat V c).leavesExact 1 t
    ∗ (encodeDat V c).leavesExact 2 t
    ∗ (encodeDat V c).leavesExact 3 t
    ∗ (encodeDat V c).leavesExact 4 t
    ∗ (encodeDat V c).leavesExact 5 t)

set_option maxHeartbeats 4000000 in
/-- The body at any point. -/
theorem encode_sound_body (c : Dev nD) (t : Fin cfg0.N) :
    encodeBodyPre V c t ⊢ wp frame (wpE (defs₀ (F := F)) Variants.none c none) Set.univ (bodyAt0 t) (fun _ => encodeBodyPost V c t) := by
  unfold encodeBodyPre encodeBodyPost bodyAt0
  simp only [encode_before0, encode_before1, encode_before2, encode_before3, encode_before4]
  rw [show (encodeDat V c).owesAt () t.succ = (encodeDat V c).owesAt () t.castSucc from rfl]
  rw [show (encodeDat V c).Φ t.succ = Pipeline.ΦA spec0 c from rfl, show (encodeDat V c).Φ t.castSucc = Pipeline.ΦA spec0 c from rfl, encodePhiA_eq]
  rw [show (encodeDat V c).leavesExact 0 t = owns (c : Thread nD τ) (encodeSt0 t) fullShare ((encodeDat V c).after 0 t) from by
    unfold Dat.leavesExact; rw [encode_live0 t], encodeDat_after0]
  rw [show (encodeDat V c).leavesExact 1 t = owns (c : Thread nD τ) (encodeSt1 t) fullShare ((encodeDat V c).after 1 t) from by
    unfold Dat.leavesExact; rw [encode_live1 t], encodeDat_after1]
  rw [show (encodeDat V c).leavesExact 2 t = owns (c : Thread nD τ) (encodeSt2 t) fullShare ((encodeDat V c).after 2 t) from by
    unfold Dat.leavesExact; rw [encode_live2 t], encodeDat_after2]
  rw [show (encodeDat V c).leavesExact 3 t = owns (c : Thread nD τ) (encodeSt3 t) fullShare ((encodeDat V c).after 3 t) from by
    unfold Dat.leavesExact; rw [encode_live3 t], encodeDat_after3]
  rw [show (encodeDat V c).leavesExact 4 t = owns (c : Thread nD τ) (encodeSt4 t) fullShare ((encodeDat V c).after 4 t) from by
    unfold Dat.leavesExact; rw [encode_live4 t], encodeDat_after4]
  rw [show (encodeDat V c).leavesExact 5 t = owns (c : Thread nD τ) (encodeSt5 t) fullShare ((encodeDat V c).after 5 t) from by
    unfold Dat.leavesExact; rw [encode_live5 t], encodeDat_after5]
  unfold encodeOut
  iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩⟩
  iapply (encode_body c Set.univ (grid0.coords t) _ _ _ _ _ _ _ _ _ _ _ _ _ _ (encodeFirst_all t) (encodeLast_all t)
    (encodeBlk V c 0 t) (encodeBlk V c 1 t) (encodeBlk V c 2 t) (encodeBlk V c 3 t) (encodeBlk V c 4 t) _ ds _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem encode_body_obligation (c : Dev nD) : BodyObligation (encodeDat (F := F) V c) (defs₀ (F := F)) Variants.none () Set.univ := fun t => by
  rw [bigSep_W0, bigSep_W0]
  exact encode_sound_body V c t

/-- What the launch hands the region is the invariant before the first point: the two are the same proposition. -/
theorem encode_hin (c : Dev nD) : Pipeline.ΦA spec0 c ⊢ (encodeDat V c).Φ 0 := by
  rw [show (encodeDat V c).Φ 0 = Pipeline.ΦA spec0 c from rfl]
  try exact Idealize.SL.BI.Entails.refl _

/-- After the last point the invariant is the class invariant again: the same proposition. -/
theorem encode_hout (c : Dev nD) : (encodeDat V c).Φ (Fin.last cfg0.N) ⊢ Pipeline.ΦA spec0 c := by
  rw [show (encodeDat V c).Φ (Fin.last cfg0.N) = Pipeline.ΦA spec0 c from rfl]
  try exact Idealize.SL.BI.Entails.refl _

end

end Cert.KernelIdeal.Net

end
-- ==== Proof.Net.RegEncode.lean ====
/-
  The first product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.Net.RunData
import proofs.«113703_j70265664962673_1_alg».proof.Proof.Net.EncodeSeg

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem encode_entry_arr (c : Dev nD) (w : Fin cfg0.W) :
    (encodeDat (VA m) c).A w = V5 m c (Pipeline.arrRef spec0 w) :=
  (encodeDat_A (VA m) c w).trans (congrFun (V5_outs m c).symm _)

/-- At the region's exit each of its arrays holds what the pipeline leaves: an input as entered, the output at the
    write-backs' fold. -/
theorem encode_exit_arr (c : Dev nD) (w : Fin cfg0.W) :
    (encodeDat (VA m) c).arrAt w cfg0.N = V6 m (outs m) c (Pipeline.arrRef spec0 w) := by
  by_cases hw : w = 5
  · subst hw
    exact ((Function.update_self (Proc.devRef .tc main_v22) (outs m 6 main_v22 c) (V5 m c)).trans (outs_v22 m c)).symm
  · have hin : (cfg0.win w).isOut = false := by revert hw; revert w; decide
    have hne : Pipeline.arrRef spec0 w ∉ ([main_v22] : List (Ref sig .tc)) := by revert hw; revert w; decide
    exact ((encodeDat (VA m) c).arrAt_in w hin _).trans ((encode_entry_arr m c w).trans (V6_of m (outs m) c _ hne).symm)

/-- Every other buffer is as the region found it. -/
theorem encode_exit_rest (c : Dev nD) :
    ∀ b, b ∉ Finset.univ.image (Pipeline.arrRef spec0) → V6 m (outs m) c b = V5 m c b :=
  fun b hb => V6_of m (outs m) c b (fun h => hb (by
    rw [List.mem_singleton] at h; subst h
    exact Finset.mem_image.mpr ⟨5, Finset.mem_univ _, rfl⟩))

-- a library lemma stated over the pinned configuration unifies with the printed one only when unification may unfold plain
-- definitions in a metavariable's type
set_option backward.isDefEq.respectTransparency.types false in
/-- The region over the thread state. -/
def regEncode : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (encode_body_obligation (VA m) c).loose
  hwaits := Pipeline.hwaits_of_owed_zero _ _ _ _ Lz lvz 0 fun _ _ => rfl
  pre c := iprop(StableHlo.held (c : Thread nD τ) (Pipeline.ucRefs τ sig) (V5 m c) ∗ Rz c)
  post c := iprop(StableHlo.held (c : Thread nD τ) (Pipeline.ucRefs τ sig) (V6 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) (encode_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := encode_hin (VA m) c
    iintro ⟨Hp, -, Hr⟩
    iapply h
    isplitl [Hr]; · iexact Hr
    iexact Hp
  hout c := by
    rw [Pipeline.ownSems0_none]
    have h : (pdats m 0 c).Φ (Fin.last cfg0.N) ⊢ (iprop(Pipeline.scopedRest spec0 c ∗ ∃ r, prngReg c r) : sProp 𝕄) := encode_hout (VA m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (encode_exit_arr m c) (encode_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Net

end
-- ==== Proof.Net.LatentSeg.lean ====
/-
  The body obligation of the second product's pipeline: at every grid point the kernel body, handed the invariant and
  each window's current staging buffer at what the pipeline put there, returns the invariant at the next position and
  each buffer at what the proof data say. The point's position modulo 8 selects the control case; the accumulator the
  invariant carries is what the previous point left (anything, before the first point).
-/
import proofs.«113703_j70265664962673_1_alg».proof.Proof.Net.LatentData

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def latentBodyPre (c : Dev nD) (t : Fin cfg1.N) : sProp 𝕄 :=
  iprop((latentDat V c).Φ t.castSucc ∗ (latentDat V c).owesAt () t.castSucc
    ∗ (∃ d, owns (c : Thread nD τ) (latentSt0 t) fullShare ((latentDat V c).before 0 t d))
    ∗ (∃ d, owns (c : Thread nD τ) (latentSt1 t) fullShare ((latentDat V c).before 1 t d))
    ∗ (∃ d, owns (c : Thread nD τ) (latentSt2 t) fullShare ((latentDat V c).before 2 t d))
    ∗ (∃ d, owns (c : Thread nD τ) (latentSt3 t) fullShare ((latentDat V c).before 3 t d)))

/-- and what it returns. -/
def latentBodyPost (c : Dev nD) (t : Fin cfg1.N) : sProp 𝕄 :=
  iprop((latentDat V c).Φ t.succ ∗ (latentDat V c).owesAt () t.succ
    ∗ (latentDat V c).leavesExact 0 t
    ∗ (latentDat V c).leavesExact 1 t
    ∗ (latentDat V c).leavesExact 2 t
    ∗ (latentDat V c).leavesExact 3 t)

set_option maxHeartbeats 4000000 in
/-- The body at any point. -/
theorem latent_sound_body (c : Dev nD) (t : Fin cfg1.N) :
    latentBodyPre V c t ⊢ wp frame (wpE (defs₀ (F := F)) Variants.none c none) Set.univ (bodyAt1 t) (fun _ => latentBodyPost V c t) := by
  unfold latentBodyPre latentBodyPost bodyAt1
  simp only [latent_before0, latent_before1, latent_before2]
  rw [show (latentDat V c).owesAt () t.succ = (latentDat V c).owesAt () t.castSucc from rfl]
  rw [show (latentDat V c).Φ t.succ = latentPhi V c (t.val + 1) t.isLt from rfl, latentPhi_succ]
  rw [show (latentDat V c).leavesExact 0 t = owns (c : Thread nD τ) (latentSt0 t) fullShare ((latentDat V c).after 0 t) from by
    unfold Dat.leavesExact; rw [latent_live0 t], latentDat_after0]
  rw [show (latentDat V c).leavesExact 1 t = owns (c : Thread nD τ) (latentSt1 t) fullShare ((latentDat V c).after 1 t) from by
    unfold Dat.leavesExact; rw [latent_live1 t], latentDat_after1]
  rw [show (latentDat V c).leavesExact 2 t = owns (c : Thread nD τ) (latentSt2 t) fullShare ((latentDat V c).after 2 t) from by
    unfold Dat.leavesExact; rw [latent_live2 t], latentDat_after2]
  have hN : t.val < 128 := lt_of_lt_of_eq t.isLt (show cfg1.N = 128 from N_1)
  by_cases h0 : t.val % 8 = 0
  · have hf : latentFirst (grid1.coords t) := (latentFirst_iff t).mpr h0
    have hl : ¬latentLast (grid1.coords t) := fun h => by have := (latentLast_iff t).mp h; omega
    rw [Dat.leavesExact_idle (latentDat V c) 3 t (latent_out_idle t hl) (latent_out_noflush t hl)]
    rw [latentAcc_first V c t h0]
    by_cases hz : t.val = 0
    · rw [latentDat_Phi_castSucc V c t, latentPhi_zero V c _ _ hz, latentPhiA_eq]
      iintro ⟨⟨⟨⟨%ds, HS⟩, Hrest⟩, Hg⟩, Ho, ⟨%d0, H0⟩, ⟨%d1, H1⟩, ⟨%d2, H2⟩, ⟨%d3, H3⟩⟩
      iapply (latent_first c Set.univ (grid1.coords t) _ _ _ _ _ _ _ _ _ _ hf hl (latentBlk V c 0 t) (latentBlk V c 1 t) (latentBlk V c 2 t) _ ds _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [latentDat_Phi_castSucc V c t, latentPhi_pos V c _ _ hz]
      iintro ⟨⟨⟨HS, Hrest⟩, Hg⟩, Ho, ⟨%d0, H0⟩, ⟨%d1, H1⟩, ⟨%d2, H2⟩, ⟨%d3, H3⟩⟩
      iapply (latent_first c Set.univ (grid1.coords t) _ _ _ _ _ _ _ _ _ _ hf hl (latentBlk V c 0 t) (latentBlk V c 1 t) (latentBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hf : ¬latentFirst (grid1.coords t) := fun h => h0 ((latentFirst_iff t).mp h)
    have hz : t.val ≠ 0 := fun h => h0 (by rw [h])
    rw [latentAcc_next V c t h0]
    rw [latentDat_Phi_castSucc V c t, latentPhi_pos V c _ _ hz]
    by_cases h7 : t.val % 8 = 7
    · have hl : latentLast (grid1.coords t) := (latentLast_iff t).mpr h7
      rw [show (latentDat V c).leavesExact 3 t = owns (c : Thread nD τ) (latentSt3 t) fullShare ((latentDat V c).after 3 t) from by
        unfold Dat.leavesExact; rw [latent_out_live t hl], latentDat_after3]
      unfold latentOut
      rw [latentAcc_next V c t h0]
      iintro ⟨⟨⟨HS, Hrest⟩, Hg⟩, Ho, ⟨%d0, H0⟩, ⟨%d1, H1⟩, ⟨%d2, H2⟩, ⟨%d3, H3⟩⟩
      iapply (latent_last c Set.univ (grid1.coords t) _ _ _ _ _ _ _ _ _ _ hf hl (latentBlk V c 0 t) (latentBlk V c 1 t) (latentBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hl : ¬latentLast (grid1.coords t) := fun h => h7 ((latentLast_iff t).mp h)
      rw [Dat.leavesExact_idle (latentDat V c) 3 t (latent_out_idle t hl) (latent_out_noflush t hl)]
      iintro ⟨⟨⟨HS, Hrest⟩, Hg⟩, Ho, ⟨%d0, H0⟩, ⟨%d1, H1⟩, ⟨%d2, H2⟩, ⟨%d3, H3⟩⟩
      iapply (latent_mid c Set.univ (grid1.coords t) _ _ _ _ _ _ _ _ _ _ hf hl (latentBlk V c 0 t) (latentBlk V c 1 t) (latentBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem latent_body_obligation (c : Dev nD) : BodyObligation (latentDat (F := F) V c) (defs₀ (F := F)) Variants.none () Set.univ := fun t => by
  rw [bigSep_W1, bigSep_W1]
  exact latent_sound_body V c t

/-- What the launch hands the region is the invariant before the first point. -/
theorem latent_hin (c : Dev nD) : Pipeline.ΦA spec1 c ⊢ (latentDat V c).Φ 0 := by
  rw [show (latentDat V c).Φ 0 = latentPhi V c 0 (Nat.zero_le _) from rfl, latentPhi_zero V c 0 _ rfl]
  try exact Idealize.SL.BI.Entails.refl _

/-- After the last point the invariant gives the class invariant back: the accumulator's contents are forgotten. -/
theorem latent_hout (c : Dev nD) : (latentDat V c).Φ (Fin.last cfg1.N) ⊢ Pipeline.ΦA spec1 c := by
  rw [show (latentDat V c).Φ (Fin.last cfg1.N) = latentPhi V c (Fin.last cfg1.N).val (Nat.le_of_lt_succ (Fin.last cfg1.N).isLt) from rfl,
    latentPhi_pos V c _ _ (by rw [Fin.val_last]; have : cfg1.N = 128 := N_1; omega), latentPhiA_eq]
  iintro ⟨⟨HS, Hrest⟩, Hg⟩
  isplitl [HS Hrest]
  · isplitl [HS]
    · iexists _; iexact HS
    iexact Hrest
  iexact Hg

end

end Cert.KernelIdeal.Net

end
-- ==== Proof.Net.RegLatent.lean ====
/-
  The second product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.Net.RunData
import proofs.«113703_j70265664962673_1_alg».proof.Proof.Net.LatentSeg

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem latent_entry_arr (c : Dev nD) (w : Fin cfg1.W) :
    (latentDat (VB m) c).A w = V7 m (outs m) c (Pipeline.arrRef spec1 w) :=
  (latentDat_A (VB m) c w).trans (congrFun (V7_outs m c).symm _)

/-- At the region's exit each of its arrays holds what the pipeline leaves: an input as entered, the output at the
    write-backs' fold. -/
theorem latent_exit_arr (c : Dev nD) (w : Fin cfg1.W) :
    (latentDat (VB m) c).arrAt w cfg1.N = V8 m (outs m) c (Pipeline.arrRef spec1 w) := by
  by_cases hw : w = 3
  · subst hw
    exact ((Function.update_self (Proc.devRef .tc main_v24) (outs m 8 main_v24 c) (V7 m (outs m) c)).trans (outs_v24 m c)).symm
  · have hin : (cfg1.win w).isOut = false := by revert hw; revert w; decide
    have hne : Pipeline.arrRef spec1 w ∉ ([main_v24] : List (Ref sig .tc)) := by revert hw; revert w; decide
    exact ((latentDat (VB m) c).arrAt_in w hin _).trans ((latent_entry_arr m c w).trans (V8_of m (outs m) c _ hne).symm)

/-- Every other buffer is as the region found it. -/
theorem latent_exit_rest (c : Dev nD) :
    ∀ b, b ∉ Finset.univ.image (Pipeline.arrRef spec1) → V8 m (outs m) c b = V7 m (outs m) c b :=
  fun b hb => V8_of m (outs m) c b (fun h => hb (by
    rw [List.mem_singleton] at h; subst h
    exact Finset.mem_image.mpr ⟨3, Finset.mem_univ _, rfl⟩))

-- a library lemma stated over the pinned configuration unifies with the printed one only when unification may unfold plain
-- definitions in a metavariable's type
set_option backward.isDefEq.respectTransparency.types false in
/-- The region over the thread state. -/
def regLatent : RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (latent_body_obligation (VB m) c).loose
  hwaits := Pipeline.hwaits_of_owed_zero _ _ _ _ Lz lvz 1 fun _ _ => rfl
  pre c := iprop(StableHlo.held (c : Thread nD τ) (Pipeline.ucRefs τ sig) (V7 m (outs m) c) ∗ Rz c)
  post c := iprop(StableHlo.held (c : Thread nD τ) (Pipeline.ucRefs τ sig) (V8 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) (latent_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := latent_hin (VB m) c
    iintro ⟨Hp, -, Hr⟩
    iapply h
    isplitl [Hr]; · iexact Hr
    iexact Hp
  hout c := by
    rw [Pipeline.ownSems0_none]
    have h : (pdats m 1 c).Φ (Fin.last cfg1.N) ⊢ (iprop(Pipeline.scopedRest spec1 c ∗ ∃ r, prngReg c r) : sProp 𝕄) := latent_hout (VB m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (latent_exit_arr m c) (latent_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Net

end
-- ==== Proof.Net.ExpandBody.lean ====
/-
  The body of the third product's kernel (the expansion `t = z · W₂ᵀ + d₁`) at one grid point, on whole staging
  buffers. The contracted axis is a single block, so the point does everything in one run: the accumulator is set to
  the zero block, then to zero plus the product of the first operand block with the transpose of the second, and the
  output block is that sum plus the bias row broadcast down the rows, rounded to bf16. The theorem says exactly what
  the accumulator and the output buffer hold afterwards, as the kernel's own pure terms of what the operand buffers
  held before; what the accumulator and the output buffer held before does not matter.
-/
import proofs.«113703_j70265664962673_1_alg».proof.Proof.Net.ExpandData

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

set_option maxHeartbeats 1000000 in
/-- Every point: whatever the accumulator and the output buffer held, the accumulator ends at `0 + a · bᵀ` and the
    output buffer at that plus the bias row, rounded to bf16; the operand buffers are untouched. -/
theorem expand_body (c : Dev nD) (E : Set ℕ) (i : grid2.Coords)
    (arg3 : Memref sig .tc .vmem S1024x2048 .bf16) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (hc0 : expandFirst i) (hc1 : expandLast i)
    (x0 x1 : Vec F S1024x2048 .bf16) (x2 : Vec F S1x1024 .f32) (xo : Vec F S1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 k2_pay1 x0 x1) x2) ∗ owns (c : Thread nD τ) arg7 fullShare (k2_pay2 k2_pay1 x0 x1)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    simp only [View.readAt_eq_ld, View.readCov_cons_toLoadRect, View.readCov_unit_zero (S := S1024x1024) _ off2_zero, harg7.read_unread, harg3.read_unread, harg4.read_unread, harg5.read_unread, harg6.read_unread, View.ld_unit_zero (S := S1024x1024) off2_zero, View.ld_unit_zero (S := S1024x2048) off2_zero, View.ld_unit_zero (S := S1x1024) off2_zero]
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg7.read_unread, harg3.read_unread, harg4.read_unread, harg5.read_unread, harg6.read_unread, View.ld_unit_zero (S := S1024x1024) off2_zero, View.ld_unit_zero (S := S1024x2048) off2_zero, View.ld_unit_zero (S := S1x1024) off2_zero]

end Cert.KernelIdeal.Net

end
-- ==== Proof.Net.ExpandSeg.lean ====
/-
  The body obligation of the third product's pipeline (the expansion `t = z · W₂ᵀ + d₁`): at every grid point the
  kernel body, handed the invariant and each window's current staging buffer at what the pipeline put there, returns
  the invariant and each buffer at what the proof data say. The contracted axis is one block, so there is a single
  control case and nothing is carried from point to point: the accumulator enters at whatever it held, is restarted,
  and is forgotten again afterwards; the output window's buffer ends at the zero block plus the product of the two
  operand blocks, plus the bias row, rounded to bf16.
-/
import proofs.«113703_j70265664962673_1_alg».proof.Proof.Net.ExpandBody

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def expandBodyPre (c : Dev nD) (t : Fin cfg2.N) : sProp 𝕄 :=
  iprop((expandDat V c).Φ t.castSucc ∗ (expandDat V c).owesAt () t.castSucc
    ∗ (∃ d, owns (c : Thread nD τ) (expandSt0 t) fullShare ((expandDat V c).before 0 t d))
    ∗ (∃ d, owns (c : Thread nD τ) (expandSt1 t) fullShare ((expandDat V c).before 1 t d))
    ∗ (∃ d, owns (c : Thread nD τ) (expandSt2 t) fullShare ((expandDat V c).before 2 t d))
    ∗ (∃ d, owns (c : Thread nD τ) (expandSt3 t) fullShare ((expandDat V c).before 3 t d)))

/-- and what it returns. -/
def expandBodyPost (c : Dev nD) (t : Fin cfg2.N) : sProp 𝕄 :=
  iprop((expandDat V c).Φ t.succ ∗ (expandDat V c).owesAt () t.succ
    ∗ (expandDat V c).leavesExact 0 t
    ∗ (expandDat V c).leavesExact 1 t
    ∗ (expandDat V c).leavesExact 2 t
    ∗ (expandDat V c).leavesExact 3 t)

set_option maxHeartbeats 4000000 in
/-- The body at any point: one control case, every window live. -/
theorem expand_sound_body (c : Dev nD) (t : Fin cfg2.N) :
    expandBodyPre V c t ⊢ wp frame (wpE (defs₀ (F := F)) Variants.none c none) Set.univ (bodyAt2 t) (fun _ => expandBodyPost V c t) := by
  unfold expandBodyPre expandBodyPost bodyAt2
  simp only [expand_before0, expand_before1, expand_before2]
  rw [show (expandDat V c).owesAt () t.succ = (expandDat V c).owesAt () t.castSucc from rfl]
  rw [show (expandDat V c).Φ t.succ = Pipeline.ΦA spec2 c from rfl, show (expandDat V c).Φ t.castSucc = Pipeline.ΦA spec2 c from rfl,
    expandPhiA_eq]
  rw [show (expandDat V c).leavesExact 0 t = owns (c : Thread nD τ) (expandSt0 t) fullShare ((expandDat V c).after 0 t) from by
    unfold Dat.leavesExact; rw [expand_live0 t], expandDat_after0]
  rw [show (expandDat V c).leavesExact 1 t = owns (c : Thread nD τ) (expandSt1 t) fullShare ((expandDat V c).after 1 t) from by
    unfold Dat.leavesExact; rw [expand_live1 t], expandDat_after1]
  rw [show (expandDat V c).leavesExact 2 t = owns (c : Thread nD τ) (expandSt2 t) fullShare ((expandDat V c).after 2 t) from by
    unfold Dat.leavesExact; rw [expand_live2 t], expandDat_after2]
  rw [show (expandDat V c).leavesExact 3 t = owns (c : Thread nD τ) (expandSt3 t) fullShare ((expandDat V c).after 3 t) from by
    unfold Dat.leavesExact; rw [expand_live3 t], expandDat_after3]
  unfold expandOut
  iintro ⟨⟨⟨⟨%ds, HS⟩, Hrest⟩, Hg⟩, Ho, ⟨%d0, H0⟩, ⟨%d1, H1⟩, ⟨%d2, H2⟩, ⟨%d3, H3⟩⟩
  iapply (expand_body c Set.univ (grid2.coords t) _ _ _ _ _ _ _ _ _ _ (expandFirst_all t) (expandLast_all t)
    (expandBlk V c 0 t) (expandBlk V c 1 t) (expandBlk V c 2 t) _ ds _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  iexact H3

/-- The library's body obligation, at every point. -/
theorem expand_body_obligation (c : Dev nD) : BodyObligation (expandDat (F := F) V c) (defs₀ (F := F)) Variants.none () Set.univ := fun t => by
  rw [bigSep_W2, bigSep_W2]
  exact expand_sound_body V c t

/-- What the launch hands the region is the invariant before the first point: the class invariant itself. -/
theorem expand_hin (c : Dev nD) : Pipeline.ΦA spec2 c ⊢ (expandDat V c).Φ 0 := by
  show Pipeline.ΦA spec2 c ⊢ Pipeline.ΦA spec2 c
  exact Idealize.SL.BI.Entails.refl _

/-- After the last point the invariant is the class invariant again. -/
theorem expand_hout (c : Dev nD) : (expandDat V c).Φ (Fin.last cfg2.N) ⊢ Pipeline.ΦA spec2 c := by
  show Pipeline.ΦA spec2 c ⊢ Pipeline.ΦA spec2 c
  exact Idealize.SL.BI.Entails.refl _

end

end Cert.KernelIdeal.Net

end
-- ==== Proof.Net.RegExpand.lean ====
/-
  The third product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.Net.RunData
import proofs.«113703_j70265664962673_1_alg».proof.Proof.Net.ExpandSeg

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem expand_entry_arr (c : Dev nD) (w : Fin cfg2.W) :
    (expandDat (VC m) c).A w = V9 m (outs m) c (Pipeline.arrRef spec2 w) :=
  (expandDat_A (VC m) c w).trans (congrFun (V9_outs m c).symm _)

/-- At the region's exit each of its arrays holds what the pipeline leaves: an input as entered, the output at the
    write-backs' fold. -/
theorem expand_exit_arr (c : Dev nD) (w : Fin cfg2.W) :
    (expandDat (VC m) c).arrAt w cfg2.N = V10 m (outs m) c (Pipeline.arrRef spec2 w) := by
  by_cases hw : w = 3
  · subst hw
    exact ((Function.update_self (Proc.devRef .tc main_v27) (outs m 10 main_v27 c) (V9 m (outs m) c)).trans (outs_v27 m c)).symm
  · have hin : (cfg2.win w).isOut = false := by revert hw; revert w; decide
    have hne : Pipeline.arrRef spec2 w ∉ ([main_v27] : List (Ref sig .tc)) := by revert hw; revert w; decide
    exact ((expandDat (VC m) c).arrAt_in w hin _).trans ((expand_entry_arr m c w).trans (V10_of m (outs m) c _ hne).symm)

/-- Every other buffer is as the region found it. -/
theorem expand_exit_rest (c : Dev nD) :
    ∀ b, b ∉ Finset.univ.image (Pipeline.arrRef spec2) → V10 m (outs m) c b = V9 m (outs m) c b :=
  fun b hb => V10_of m (outs m) c b (fun h => hb (by
    rw [List.mem_singleton] at h; subst h
    exact Finset.mem_image.mpr ⟨3, Finset.mem_univ _, rfl⟩))

-- a library lemma stated over the pinned configuration unifies with the printed one only when unification may unfold plain
-- definitions in a metavariable's type
set_option backward.isDefEq.respectTransparency.types false in
/-- The region over the thread state. -/
def regExpand : RegionSeg (pcfgs (F := F)) adm (pdats m) () defs₀ 𝒱₀ Lz lvz 2 where
  win := launch2.win.to₀
  block_pos := launch2.block_pos
  stage_whole := launch2.stage_whole
  K := PEmpty
  osem k := k.elim
  ho := Pipeline.OwnSemFacts.none _
  hbody c := (expand_body_obligation (VC m) c).loose
  hwaits := Pipeline.hwaits_of_owed_zero _ _ _ _ Lz lvz 2 fun _ _ => rfl
  pre c := iprop(StableHlo.held (c : Thread nD τ) (Pipeline.ucRefs τ sig) (V9 m (outs m) c) ∗ Rz c)
  post c := iprop(StableHlo.held (c : Thread nD τ) (Pipeline.ucRefs τ sig) (V10 m (outs m) c) ∗ Rz c)
  X c := iprop(∃ r, prngReg c r)
  Y c := iprop(∃ r, prngReg c r)
  Z c := Pipeline.unscopedRest (Ix := Unit) (Name := ℕ) (U := UR sig nD τ) (Lvl := ℕ) spec2 c (fun b => V9 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V9 m (outs m) c b) (expand_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec2 c ∗ ∃ r, prngReg c r) : sProp 𝕄) ⊢ (pdats m 2 c).Φ 0 := expand_hin (VC m) c
    iintro ⟨Hp, -, Hr⟩
    iapply h
    isplitl [Hr]; · iexact Hr
    iexact Hp
  hout c := by
    rw [Pipeline.ownSems0_none]
    have h : (pdats m 2 c).Φ (Fin.last cfg2.N) ⊢ (iprop(Pipeline.scopedRest spec2 c ∗ ∃ r, prngReg c r) : sProp 𝕄) := expand_hout (VC m) c
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V9 m (outs m) c b) (fun b => V10 m (outs m) c b) ((pdats m 2 c).arrAt · cfg2.N) (expand_exit_arr m c) (expand_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Net

end
-- ==== Proof.Net.ReconSeg.lean ====
/-
  The body obligation of the fourth product's pipeline: at every grid point the kernel body, handed the invariant and
  each window's current staging buffer at what the pipeline put there, returns the invariant at the next position and
  each buffer at what the proof data say. The point's position modulo 8 selects the control case; the accumulator the
  invariant carries is what the previous point left (anything, before the first point).
-/
import proofs.«113703_j70265664962673_1_alg».proof.Proof.Net.ReconData

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def reconBodyPre (c : Dev nD) (t : Fin cfg3.N) : sProp 𝕄 :=
  iprop((reconDat V c).Φ t.castSucc ∗ (reconDat V c).owesAt () t.castSucc
    ∗ (∃ d, owns (c : Thread nD τ) (reconSt0 t) fullShare ((reconDat V c).before 0 t d))
    ∗ (∃ d, owns (c : Thread nD τ) (reconSt1 t) fullShare ((reconDat V c).before 1 t d))
    ∗ (∃ d, owns (c : Thread nD τ) (reconSt2 t) fullShare ((reconDat V c).before 2 t d))
    ∗ (∃ d, owns (c : Thread nD τ) (reconSt3 t) fullShare ((reconDat V c).before 3 t d)))

/-- and what it returns. -/
def reconBodyPost (c : Dev nD) (t : Fin cfg3.N) : sProp 𝕄 :=
  iprop((reconDat V c).Φ t.succ ∗ (reconDat V c).owesAt () t.succ
    ∗ (reconDat V c).leavesExact 0 t
    ∗ (reconDat V c).leavesExact 1 t
    ∗ (reconDat V c).leavesExact 2 t
    ∗ (reconDat V c).leavesExact 3 t)

set_option maxHeartbeats 4000000 in
/-- The body at any point. -/
theorem recon_sound_body (c : Dev nD) (t : Fin cfg3.N) :
    reconBodyPre V c t ⊢ wp frame (wpE (defs₀ (F := F)) Variants.none c none) Set.univ (bodyAt3 t) (fun _ => reconBodyPost V c t) := by
  unfold reconBodyPre reconBodyPost bodyAt3
  simp only [recon_before0, recon_before1, recon_before2]
  rw [show (reconDat V c).owesAt () t.succ = (reconDat V c).owesAt () t.castSucc from rfl]
  rw [show (reconDat V c).Φ t.succ = reconPhi V c (t.val + 1) t.isLt from rfl, reconPhi_succ]
  rw [show (reconDat V c).leavesExact 0 t = owns (c : Thread nD τ) (reconSt0 t) fullShare ((reconDat V c).after 0 t) from by
    unfold Dat.leavesExact; rw [recon_live0 t], reconDat_after0]
  rw [show (reconDat V c).leavesExact 1 t = owns (c : Thread nD τ) (reconSt1 t) fullShare ((reconDat V c).after 1 t) from by
    unfold Dat.leavesExact; rw [recon_live1 t], reconDat_after1]
  rw [show (reconDat V c).leavesExact 2 t = owns (c : Thread nD τ) (reconSt2 t) fullShare ((reconDat V c).after 2 t) from by
    unfold Dat.leavesExact; rw [recon_live2 t], reconDat_after2]
  have hN : t.val < 128 := lt_of_lt_of_eq t.isLt (show cfg3.N = 128 from N_3)
  by_cases h0 : t.val % 8 = 0
  · have hf : reconFirst (grid3.coords t) := (reconFirst_iff t).mpr h0
    have hl : ¬reconLast (grid3.coords t) := fun h => by have := (reconLast_iff t).mp h; omega
    rw [Dat.leavesExact_idle (reconDat V c) 3 t (recon_out_idle t hl) (recon_out_noflush t hl)]
    rw [reconAcc_first V c t h0]
    by_cases hz : t.val = 0
    · rw [reconDat_Phi_castSucc V c t, reconPhi_zero V c _ _ hz, reconPhiA_eq]
      iintro ⟨⟨⟨⟨%ds, HS⟩, Hrest⟩, Hg⟩, Ho, ⟨%d0, H0⟩, ⟨%d1, H1⟩, ⟨%d2, H2⟩, ⟨%d3, H3⟩⟩
      iapply (recon_first c Set.univ (grid3.coords t) _ _ _ _ _ _ _ _ _ _ hf hl (reconBlk V c 0 t) (reconBlk V c 1 t) (reconBlk V c 2 t) _ ds _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [reconDat_Phi_castSucc V c t, reconPhi_pos V c _ _ hz]
      iintro ⟨⟨⟨HS, Hrest⟩, Hg⟩, Ho, ⟨%d0, H0⟩, ⟨%d1, H1⟩, ⟨%d2, H2⟩, ⟨%d3, H3⟩⟩
      iapply (recon_first c Set.univ (grid3.coords t) _ _ _ _ _ _ _ _ _ _ hf hl (reconBlk V c 0 t) (reconBlk V c 1 t) (reconBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hf : ¬reconFirst (grid3.coords t) := fun h => h0 ((reconFirst_iff t).mp h)
    have hz : t.val ≠ 0 := fun h => h0 (by rw [h])
    rw [reconAcc_next V c t h0]
    rw [reconDat_Phi_castSucc V c t, reconPhi_pos V c _ _ hz]
    by_cases h7 : t.val % 8 = 7
    · have hl : reconLast (grid3.coords t) := (reconLast_iff t).mpr h7
      rw [show (reconDat V c).leavesExact 3 t = owns (c : Thread nD τ) (reconSt3 t) fullShare ((reconDat V c).after 3 t) from by
        unfold Dat.leavesExact; rw [recon_out_live t hl], reconDat_after3]
      unfold reconOut
      rw [reconAcc_next V c t h0]
      iintro ⟨⟨⟨HS, Hrest⟩, Hg⟩, Ho, ⟨%d0, H0⟩, ⟨%d1, H1⟩, ⟨%d2, H2⟩, ⟨%d3, H3⟩⟩
      iapply (recon_last c Set.univ (grid3.coords t) _ _ _ _ _ _ _ _ _ _ hf hl (reconBlk V c 0 t) (reconBlk V c 1 t) (reconBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hl : ¬reconLast (grid3.coords t) := fun h => h7 ((reconLast_iff t).mp h)
      rw [Dat.leavesExact_idle (reconDat V c) 3 t (recon_out_idle t hl) (recon_out_noflush t hl)]
      iintro ⟨⟨⟨HS, Hrest⟩, Hg⟩, Ho, ⟨%d0, H0⟩, ⟨%d1, H1⟩, ⟨%d2, H2⟩, ⟨%d3, H3⟩⟩
      iapply (recon_mid c Set.univ (grid3.coords t) _ _ _ _ _ _ _ _ _ _ hf hl (reconBlk V c 0 t) (reconBlk V c 1 t) (reconBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem recon_body_obligation (c : Dev nD) : BodyObligation (reconDat (F := F) V c) (defs₀ (F := F)) Variants.none () Set.univ := fun t => by
  rw [bigSep_W3, bigSep_W3]
  exact recon_sound_body V c t

/-- What the launch hands the region is the invariant before the first point. -/
theorem recon_hin (c : Dev nD) : Pipeline.ΦA spec3 c ⊢ (reconDat V c).Φ 0 := by
  rw [show (reconDat V c).Φ 0 = reconPhi V c 0 (Nat.zero_le _) from rfl, reconPhi_zero V c 0 _ rfl]
  try exact Idealize.SL.BI.Entails.refl _

/-- After the last point the invariant gives the class invariant back: the accumulator's contents are forgotten. -/
theorem recon_hout (c : Dev nD) : (reconDat V c).Φ (Fin.last cfg3.N) ⊢ Pipeline.ΦA spec3 c := by
  rw [show (reconDat V c).Φ (Fin.last cfg3.N) = reconPhi V c (Fin.last cfg3.N).val (Nat.le_of_lt_succ (Fin.last cfg3.N).isLt) from rfl,
    reconPhi_pos V c _ _ (by rw [Fin.val_last]; have : cfg3.N = 128 := N_3; omega), reconPhiA_eq]
  iintro ⟨⟨HS, Hrest⟩, Hg⟩
  isplitl [HS Hrest]
  · isplitl [HS]
    · iexists _; iexact HS
    iexact Hrest
  iexact Hg

end

end Cert.KernelIdeal.Net

end
-- ==== Proof.Net.RegRecon.lean ====
/-
  The fourth product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.Net.RunData
import proofs.«113703_j70265664962673_1_alg».proof.Proof.Net.ReconSeg

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem recon_entry_arr (c : Dev nD) (w : Fin cfg3.W) :
    (reconDat (VD m) c).A w = V11 m (outs m) c (Pipeline.arrRef spec3 w) :=
  (reconDat_A (VD m) c w).trans (congrFun (V11_outs m c).symm _)

/-- At the region's exit each of its arrays holds what the pipeline leaves: an input as entered, the output at the
    write-backs' fold. -/
theorem recon_exit_arr (c : Dev nD) (w : Fin cfg3.W) :
    (reconDat (VD m) c).arrAt w cfg3.N = V12 m (outs m) c (Pipeline.arrRef spec3 w) := by
  by_cases hw : w = 3
  · subst hw
    exact ((Function.update_self (Proc.devRef .tc main_v29) (outs m 12 main_v29 c) (V11 m (outs m) c)).trans (outs_v29 m c)).symm
  · have hin : (cfg3.win w).isOut = false := by revert hw; revert w; decide
    have hne : Pipeline.arrRef spec3 w ∉ ([main_v29] : List (Ref sig .tc)) := by revert hw; revert w; decide
    exact ((reconDat (VD m) c).arrAt_in w hin _).trans ((recon_entry_arr m c w).trans (V12_of m (outs m) c _ hne).symm)

/-- Every other buffer is as the region found it. -/
theorem recon_exit_rest (c : Dev nD) :
    ∀ b, b ∉ Finset.univ.image (Pipeline.arrRef spec3) → V12 m (outs m) c b = V11 m (outs m) c b :=
  fun b hb => V12_of m (outs m) c b (fun h => hb (by
    rw [List.mem_singleton] at h; subst h
    exact Finset.mem_image.mpr ⟨3, Finset.mem_univ _, rfl⟩))

-- a library lemma stated over the pinned configuration unifies with the printed one only when unification may unfold plain
-- definitions in a metavariable's type
set_option backward.isDefEq.respectTransparency.types false in
/-- The region over the thread state. -/
def regRecon : RegionSeg (pcfgs (F := F)) adm (pdats m) () defs₀ 𝒱₀ Lz lvz 3 where
  win := launch3.win.to₀
  block_pos := launch3.block_pos
  stage_whole := launch3.stage_whole
  K := PEmpty
  osem k := k.elim
  ho := Pipeline.OwnSemFacts.none _
  hbody c := (recon_body_obligation (VD m) c).loose
  hwaits := Pipeline.hwaits_of_owed_zero _ _ _ _ Lz lvz 3 fun _ _ => rfl
  pre c := iprop(StableHlo.held (c : Thread nD τ) (Pipeline.ucRefs τ sig) (V11 m (outs m) c) ∗ Rz c)
  post c := iprop(StableHlo.held (c : Thread nD τ) (Pipeline.ucRefs τ sig) (V12 m (outs m) c) ∗ Rz c)
  X c := iprop(∃ r, prngReg c r)
  Y c := iprop(∃ r, prngReg c r)
  Z c := Pipeline.unscopedRest (Ix := Unit) (Name := ℕ) (U := UR sig nD τ) (Lvl := ℕ) spec3 c (fun b => V11 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V11 m (outs m) c b) (recon_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec3 c ∗ ∃ r, prngReg c r) : sProp 𝕄) ⊢ (pdats m 3 c).Φ 0 := recon_hin (VD m) c
    iintro ⟨Hp, -, Hr⟩
    iapply h
    isplitl [Hr]; · iexact Hr
    iexact Hp
  hout c := by
    rw [Pipeline.ownSems0_none]
    have h : (pdats m 3 c).Φ (Fin.last cfg3.N) ⊢ (iprop(Pipeline.scopedRest spec3 c ∗ ∃ r, prngReg c r) : sProp 𝕄) := recon_hout (VD m) c
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V11 m (outs m) c b) (fun b => V12 m (outs m) c b) ((pdats m 3 c).arrAt · cfg3.N) (recon_exit_arr m c) (recon_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Net

end
-- ==== Proof.Net.Run.lean ====
/-
  The whole program's run, with every region's record supplied: every weakly fair execution of @main terminates, the
  two results end at what the last boundary's valuation says (the fourth region's and the second region's write-backs
  folded), and every argument ends as launched. Nothing is owed between cores and no level is assigned; the generator
  register rides along at some state.
-/
import proofs.«113703_j70265664962673_1_alg».proof.Proof.Net.RunCond
import proofs.«113703_j70265664962673_1_alg».proof.Proof.Net.RegEncode
import proofs.«113703_j70265664962673_1_alg».proof.Proof.Net.RegLatent
import proofs.«113703_j70265664962673_1_alg».proof.Proof.Net.RegExpand
import proofs.«113703_j70265664962673_1_alg».proof.Proof.Net.RegRecon

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conditional run's implicit arguments are found by unifying its conclusion with this one, which takes unfolding
-- plain definitions in a metavariable's type
set_option backward.isDefEq.respectTransparency.types false in
theorem run_all : θ_run defs (onTc (τ := τ) (main (F := F))) ⟨m, fun _ => 0, ρ⟩ (fun r => ∀ c : Dev nD,
      r.2.mem ((c.tc : Thread nD τ).loc main_v29) = V12 m (outs m) c main_v29
      ∧ r.2.mem ((c.tc : Thread nD τ).loc main_v24) = V12 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m (Ix := Unit) (U := UR sig nD τ) (Lvl := ℕ) emb₁ () 𝒱₀ Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      refine Pipeline.initEach Lz lvz fun c => ?_
      iintro ⟨⟨-, HO, -, Hp, -⟩, -⟩
      imodintro
      isplitl [Hp]; · iexists _; iexact Hp
      iexists ∅; iexact HO)
    (hE4 := fun c => by
      iintro ⟨-, HO⟩
      iexact HO)
    (regEncode m) (fun _ => .rfl) (fun _ => .rfl)
    (regLatent m) (fun _ => .rfl) (fun _ => .rfl)
    (regExpand m) (fun _ => .rfl) (fun _ => .rfl)
    (regRecon m) (fun _ => .rfl) (fun _ => .rfl)

end Cert.KernelIdeal.Net

end
-- ==== Proof.NetBits.RunCond.lean ====
/-
  The whole program's run from one segment record per kernel region: every weakly fair execution of @main terminates,
  and the final memory holds the two result arrays at what the last region boundary's valuation says, and every
  argument array as launched. The regions' records are entered from and left at the thread states "every unscoped
  buffer at the boundary's contents, beside a rest of the certificate's choosing"; between two regions the host
  operations move the valuation along. The frame claims and the value claim are both read off this one run.
-/
import proofs.«113703_j70265664962673_1_alg».proof.Proof.Gen.Kernel.Regions

noncomputable section

namespace Cert.Kernel.Net

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the launch theorem's implicit arguments are found by unifying its conclusion with this one, which takes unfolding
-- plain definitions in a metavariable's type
set_option backward.isDefEq.respectTransparency.types false in
/-- GIVEN, per region, a segment record entered from the thread state before it and left at the one after it, every
    weakly fair execution of @main from memory `m` with zero counters terminates; the final memory has the two
    results at the last valuation and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c)) :
    θ_run defs (onTc (τ := τ) (main (F := F))) ⟨m, fun _ => 0, ρ⟩ (fun r => ∀ c : Dev nD,
      r.2.mem ((c.tc : Thread nD τ).loc main_v29) = V12 m outs c main_v29
      ∧ r.2.mem ((c.tc : Thread nD τ).loc main_v24) = V12 m outs c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V12 m outs c))
    (hch := fun c => ⟨.rfl, .rfl, .rfl, .rfl, .rfl, hpre0 c, hpost0 c, hpre1 c, hpost1 c, hpre2 c, hpost2 c, hpre3 c, (hpost3 c).trans (sep_mono .rfl (hE4 c))⟩)
    (hinit := ?_) (QY := fun c s => s.mem ((c.tc : Thread nD τ).loc main_v29) = V12 m outs c main_v29 ∧ s.mem ((c.tc : Thread nD τ).loc main_v24) = V12 m outs c main_v24 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V12 m outs c) s') $$ [Hh HSI]
    · isplitl [Hh] <;> iassumption
    icases Hr with ⟨%h, HSI⟩
    imodintro
    isplitr
    · ipureintro
      exact ⟨h (Proc.devRef .tc main_v29) (Finset.mem_filter.mpr ⟨StableHlo.devRef_mem_tcRefs main_v29, by decide⟩),
        h (Proc.devRef .tc main_v24) (Finset.mem_filter.mpr ⟨StableHlo.devRef_mem_tcRefs main_v24, by decide⟩),
        (h (Proc.devRef .tc main_arg0) (Finset.mem_filter.mpr ⟨StableHlo.devRef_mem_tcRefs main_arg0, by decide⟩)).trans (V12_main_arg0 m outs c),
        (h (Proc.devRef .tc main_arg1) (Finset.mem_filter.mpr ⟨StableHlo.devRef_mem_tcRefs main_arg1, by decide⟩)).trans (V12_main_arg1 m outs c),
        (h (Proc.devRef .tc main_arg2) (Finset.mem_filter.mpr ⟨StableHlo.devRef_mem_tcRefs main_arg2, by decide⟩)).trans (V12_main_arg2 m outs c),
        (h (Proc.devRef .tc main_arg3) (Finset.mem_filter.mpr ⟨StableHlo.devRef_mem_tcRefs main_arg3, by decide⟩)).trans (V12_main_arg3 m outs c),
        (h (Proc.devRef .tc main_arg4) (Finset.mem_filter.mpr ⟨StableHlo.devRef_mem_tcRefs main_arg4, by decide⟩)).trans (V12_main_arg4 m outs c),
        (h (Proc.devRef .tc main_arg5) (Finset.mem_filter.mpr ⟨StableHlo.devRef_mem_tcRefs main_arg5, by decide⟩)).trans (V12_main_arg5 m outs c),
        (h (Proc.devRef .tc main_arg6) (Finset.mem_filter.mpr ⟨StableHlo.devRef_mem_tcRefs main_arg6, by decide⟩)).trans (V12_main_arg6 m outs c),
        (h (Proc.devRef .tc main_arg7) (Finset.mem_filter.mpr ⟨StableHlo.devRef_mem_tcRefs main_arg7, by decide⟩)).trans (V12_main_arg7 m outs c),
        (h (Proc.devRef .tc main_arg8) (Finset.mem_filter.mpr ⟨StableHlo.devRef_mem_tcRefs main_arg8, by decide⟩)).trans (V12_main_arg8 m outs c),
        (h (Proc.devRef .tc main_arg9) (Finset.mem_filter.mpr ⟨StableHlo.devRef_mem_tcRefs main_arg9, by decide⟩)).trans (V12_main_arg9 m outs c),
        (h (Proc.devRef .tc main_arg10) (Finset.mem_filter.mpr ⟨StableHlo.devRef_mem_tcRefs main_arg10, by decide⟩)).trans (V12_main_arg10 m outs c),
        (h (Proc.devRef .tc main_arg11) (Finset.mem_filter.mpr ⟨StableHlo.devRef_mem_tcRefs main_arg11, by decide⟩)).trans (V12_main_arg11 m outs c),
        (h (Proc.devRef .tc main_arg12) (Finset.mem_filter.mpr ⟨StableHlo.devRef_mem_tcRefs main_arg12, by decide⟩)).trans (V12_main_arg12 m outs c),
        (h (Proc.devRef .tc main_arg13) (Finset.mem_filter.mpr ⟨StableHlo.devRef_mem_tcRefs main_arg13, by decide⟩)).trans (V12_main_arg13 m outs c),
        (h (Proc.devRef .tc main_arg14) (Finset.mem_filter.mpr ⟨StableHlo.devRef_mem_tcRefs main_arg14, by decide⟩)).trans (V12_main_arg14 m outs c)⟩
    · iexact HSI

end Cert.Kernel.Net

end
-- ==== Proof.NetBits.LatentBody.lean ====
/-
  The body of the second product's kernel (the latent code `z = h · W₂ + b₂`, accumulated over eight blocks of the
  contracted axis) at one grid point, on whole staging buffers. The grid's last coordinate `k` selects one of three
  control cases: at `k = 0` the accumulator is zeroed and then takes the first partial product; at `0 < k < 7` it
  takes one more partial product; at `k = 7` it takes the last one and the output block is the accumulator plus the
  bias row. Each case says exactly what the accumulator and the output buffer hold afterwards, as the kernel's own
  pure terms of what the buffers held before.
-/
import proofs.«113703_j70265664962673_1_alg».proof.Proof.Gen.Kernel.Skeleton
import proofs.«113703_j70265664962673_1_alg».proof.Proof.Gen.Kernel.Launch
import proofs.«113703_j70265664962673_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The whole-buffer rectangle's offsets are zero. -/
theorem off2_zero : (![0, 0] : Fin 2 → ℕ) = fun _ => 0 := by funext a; fin_cases a <;> rfl

/-- `k = 0`: the branch that zeroes the accumulator is taken. -/
abbrev latentFirst (i : grid1.Coords) : Prop := (Scalar.cmpi .ne (Scalar.extui (Scalar.cmpi .eq (BitVec.ofNat 32 (i 2).val) 0#32)) 0#32) = 1#1
/-- `k = 7`: the branch that adds the bias and stores the output block is taken. -/
abbrev latentLast (i : grid1.Coords) : Prop := k1_cond2 i = 1#1

set_option maxHeartbeats 1000000 in
/-- `k = 0`: whatever the accumulator held, it ends at `0 + a · b`; the output buffer is untouched. -/
theorem latent_first (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : latentFirst i) (hc1 : ¬latentLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 k1_pay1 x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `0 < k < 7`: the accumulator `s` ends at `s + a · b`; the output buffer is untouched. -/
theorem latent_mid (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬latentFirst i) (hc1 : ¬latentLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 xs x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `k = 7`: the accumulator `s` ends at `s + a · b`, and the output buffer, whatever it held, at that plus the bias row. -/
theorem latent_last (c : Dev nD) (E : Set ℕ) (i : grid1.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬latentFirst i) (hc1 : latentLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 (k1_pay2 xs x0 x1) x2) ∗ owns (c : Thread nD τ) arg7 fullShare (k1_pay2 xs x0 x1)) -∗ K ⟨⟩))
      ⊢ wp frame (wpE (defs₀ (F := F)) Variants.none c none) E (cc1_kernel i arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]
  iexists _; isplitr
  swap; · iexact HS
  ipureintro
  sl_unfold_words
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

end Cert.Kernel.Net

end
-- ==== Proof.NetBits.EncodeData.lean ====
/-
  The first product's kernel over its whole grid (the hidden code `h = act (x · W₁ + b₁)`): 8 row blocks × 8 column
  blocks, the contracted axis in ONE block, so every point zeroes the accumulator, adds the whole product and
  finishes its output block with the bias row and the activation. What the pipeline hands the body at each point and
  what the body leaves.
-/
import proofs.«113703_j70265664962673_1_alg».proof.Proof.NetBits.LatentBody

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-! ## The branches and the windows over the grid: the contracted axis is one block, so at every point both branches
    are taken and no window is idle — decided over the 64 points -/

/-- `k = 0`: the branch that zeroes the accumulator. -/
abbrev encodeFirst (i : grid0.Coords) : Prop := (Scalar.cmpi .ne (Scalar.extui (Scalar.cmpi .eq (BitVec.ofNat 32 (i 2).val) 0#32)) 0#32) = 1#1
/-- `k` is the last block: the branch that finishes the output block. -/
abbrev encodeLast (i : grid0.Coords) : Prop := k0_cond2 i = 1#1
theorem encodeFirst_all : ∀ t : Fin cfg0.N, encodeFirst (grid0.coords t) :=
  (by decide +kernel : ∀ t : Fin grid0.N, encodeFirst (grid0.coords t))
theorem encodeLast_all : ∀ t : Fin cfg0.N, encodeLast (grid0.coords t) :=
  (by decide +kernel : ∀ t : Fin grid0.N, encodeLast (grid0.coords t))
theorem encode_live0 : ∀ t : Fin cfg0.N, cfg0.idle 0 (grid0.coords t) = false := by decide +kernel
theorem encode_live1 : ∀ t : Fin cfg0.N, cfg0.idle 1 (grid0.coords t) = false := by decide +kernel
theorem encode_live2 : ∀ t : Fin cfg0.N, cfg0.idle 2 (grid0.coords t) = false := by decide +kernel
theorem encode_live3 : ∀ t : Fin cfg0.N, cfg0.idle 3 (grid0.coords t) = false := by decide +kernel
theorem encode_live4 : ∀ t : Fin cfg0.N, cfg0.idle 4 (grid0.coords t) = false := by decide +kernel
theorem encode_live5 : ∀ t : Fin cfg0.N, cfg0.idle 5 (grid0.coords t) = false := by decide +kernel

/-- Each window's current staging buffer at point `t`, as the pipeline passes it to the body. -/
abbrev encodeSt0 (t : Fin cfg0.N) : Memref sig .tc .vmem S1024x2048 .bf16 := win0_0.stage (cfg0.slots t 0)
abbrev encodeSt1 (t : Fin cfg0.N) : Memref sig .tc .vmem S2048x1024 .bf16 := win0_1.stage (cfg0.slots t 1)
abbrev encodeSt2 (t : Fin cfg0.N) : Memref sig .tc .vmem S1x1024 .f32 := win0_2.stage (cfg0.slots t 2)
abbrev encodeSt3 (t : Fin cfg0.N) : Memref sig .tc .vmem S1x1024 .f32 := win0_3.stage (cfg0.slots t 3)
abbrev encodeSt4 (t : Fin cfg0.N) : Memref sig .tc .vmem S1x1024 .f32 := win0_4.stage (cfg0.slots t 4)
abbrev encodeSt5 (t : Fin cfg0.N) : Memref sig .tc .vmem S1024x1024 .bf16 := win0_5.stage (cfg0.slots t 5)
/-- The accumulator: a whole scoped buffer of the kernel's own. -/
abbrev encodeScratch : Memref sig .tc .vmem S1024x1024 .f32 := Memref.whole cc0_scratch0

section
-- the TensorCore's buffer contents when the region is entered
variable (V : (c : Dev nD) → (b : Ref sig .tc) → Buf (Elt F) ((c : Thread nD τ).loc b))

/-- Window `w`'s block at point `t`, read off its array as the region finds it. -/
def encodeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the
    block index has not moved. -/
theorem encode_before0_of {c : Dev nD} (dat : Dat τ (Elt F) Unit ℕ (UR sig nD τ) ℕ cfg0 c) (hA : dat.A 0 = V c (Pipeline.arrRef spec0 0))
    (hafter : ∀ t, dat.after 0 t = encodeBlk V c 0 t) (t : Fin cfg0.N) (d) : dat.before 0 t d = encodeBlk V c 0 t :=
  (dat.before_in_eq_fetched 0 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before1_of {c : Dev nD} (dat : Dat τ (Elt F) Unit ℕ (UR sig nD τ) ℕ cfg0 c) (hA : dat.A 1 = V c (Pipeline.arrRef spec0 1))
    (hafter : ∀ t, dat.after 1 t = encodeBlk V c 1 t) (t : Fin cfg0.N) (d) : dat.before 1 t d = encodeBlk V c 1 t :=
  (dat.before_in_eq_fetched 1 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before2_of {c : Dev nD} (dat : Dat τ (Elt F) Unit ℕ (UR sig nD τ) ℕ cfg0 c) (hA : dat.A 2 = V c (Pipeline.arrRef spec0 2))
    (hafter : ∀ t, dat.after 2 t = encodeBlk V c 2 t) (t : Fin cfg0.N) (d) : dat.before 2 t d = encodeBlk V c 2 t :=
  (dat.before_in_eq_fetched 2 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before3_of {c : Dev nD} (dat : Dat τ (Elt F) Unit ℕ (UR sig nD τ) ℕ cfg0 c) (hA : dat.A 3 = V c (Pipeline.arrRef spec0 3))
    (hafter : ∀ t, dat.after 3 t = encodeBlk V c 3 t) (t : Fin cfg0.N) (d) : dat.before 3 t d = encodeBlk V c 3 t :=
  (dat.before_in_eq_fetched 3 rfl (fun _ => rfl) (fun _ _ _ => rfl) (fun t => by rw [hafter]; unfold Dat.blockOf encodeBlk; rw [hA]; try rfl) t d).trans
    (by unfold Dat.fetched Dat.blockOf encodeBlk; rw [hA]; try rfl)
theorem encode_before4_of {c : Dev nD} (dat : Dat τ (Elt F) Unit ℕ (UR sig nD τ) ℕ cfg0 c) (hA : dat.A 4 = V c (Pipeline.arrRef spec0 4))
    (hafter : ∀ t, dat.after 4 t = encodeBlk V c 4 t) (t : Fin cfg0.N) (d) : dat.before 4 t d = encodeBlk V c 4 t :=
  (dat.before_in_eq_fetched 4 rfl (fun _ => rfl) (fun _ _ _ => rfl) (fun t => by rw [hafter]; unfold Dat.blockOf encodeBlk; rw [hA]; try rfl) t d).trans
    (by unfold Dat.fetched Dat.blockOf encodeBlk; rw [hA]; try rfl)

/-- What the body leaves in the output window's staging buffer at point `t`: the kernel's terms composed — the zero
    block, plus the product of the two operand blocks, then the closing term over the row blocks. -/
def encodeOut (c : Dev nD) (t : Fin cfg0.N) : Vec F S1024x1024 .bf16 :=
  k0_pay3 (k0_pay2 k0_pay1 (encodeBlk V c 0 t) (encodeBlk V c 1 t)) (encodeBlk V c 2 t) (encodeBlk V c 3 t) (encodeBlk V c 4 t)

/-- The class invariant with the accumulator split off as a whole buffer owned at some contents. -/
theorem encodePhiA_eq (c : Dev nD) :
    (Pipeline.ΦA spec0 c : sProp 𝕄)
      = iprop(iprop(iprop((∃ d, owns (c : Thread nD τ) encodeScratch fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [encodeScratch, owns_whole]; try rfl

/-- The proof data of this pipeline on core `c`: the arrays as the region finds them; after the body each input's
    buffer at its block and the output's at `encodeOut`; the invariant the class's (the accumulator at anything between
    points: every point restarts it); nothing owed; full shares. -/
def encodeDat (c : Dev nD) : Dat τ (Elt F) Unit ℕ (UR sig nD τ) ℕ cfg0 c where
  A w := V c (Pipeline.arrRef spec0 w)
  after w t := match w with
    | ⟨0, _⟩ => encodeBlk V c 0 t
    | ⟨1, _⟩ => encodeBlk V c 1 t
    | ⟨2, _⟩ => encodeBlk V c 2 t
    | ⟨3, _⟩ => encodeBlk V c 3 t
    | ⟨4, _⟩ => encodeBlk V c 4 t
    | ⟨5, _⟩ => encodeOut V c t
  Φ _ := Pipeline.ΦA spec0 c
  q _ := fullShare
  owed _ := 0

theorem encodeDat_A (c : Dev nD) (w : Fin cfg0.W) : (encodeDat V c).A w = V c (Pipeline.arrRef spec0 w) := by
  dsimp only [encodeDat]
theorem encodeDat_after0 (c : Dev nD) (t : Fin cfg0.N) : (encodeDat V c).after 0 t = encodeBlk V c 0 t := by dsimp only [encodeDat]
theorem encodeDat_after1 (c : Dev nD) (t : Fin cfg0.N) : (encodeDat V c).after 1 t = encodeBlk V c 1 t := by dsimp only [encodeDat]
theorem encodeDat_after2 (c : Dev nD) (t : Fin cfg0.N) : (encodeDat V c).after 2 t = encodeBlk V c 2 t := by dsimp only [encodeDat]
theorem encodeDat_after3 (c : Dev nD) (t : Fin cfg0.N) : (encodeDat V c).after 3 t = encodeBlk V c 3 t := by dsimp only [encodeDat]
theorem encodeDat_after4 (c : Dev nD) (t : Fin cfg0.N) : (encodeDat V c).after 4 t = encodeBlk V c 4 t := by dsimp only [encodeDat]
theorem encodeDat_after5 (c : Dev nD) (t : Fin cfg0.N) : (encodeDat V c).after 5 t = encodeOut V c t := by dsimp only [encodeDat]
theorem encode_before0 (c : Dev nD) (t : Fin cfg0.N) (d) : (encodeDat V c).before 0 t d = encodeBlk V c 0 t :=
  encode_before0_of V (encodeDat V c) (encodeDat_A V c 0) (encodeDat_after0 V c) t d
theorem encode_before1 (c : Dev nD) (t : Fin cfg0.N) (d) : (encodeDat V c).before 1 t d = encodeBlk V c 1 t :=
  encode_before1_of V (encodeDat V c) (encodeDat_A V c 1) (encodeDat_after1 V c) t d
theorem encode_before2 (c : Dev nD) (t : Fin cfg0.N) (d) : (encodeDat V c).before 2 t d = encodeBlk V c 2 t :=
  encode_before2_of V (encodeDat V c) (encodeDat_A V c 2) (encodeDat_after2 V c) t d
theorem encode_before3 (c : Dev nD) (t : Fin cfg0.N) (d) : (encodeDat V c).before 3 t d = encodeBlk V c 3 t :=
  encode_before3_of V (encodeDat V c) (encodeDat_A V c 3) (encodeDat_after3 V c) t d
theorem encode_before4 (c : Dev nD) (t : Fin cfg0.N) (d) : (encodeDat V c).before 4 t d = encodeBlk V c 4 t :=
  encode_before4_of V (encodeDat V c) (encodeDat_A V c 4) (encodeDat_after4 V c) t d

end

end Cert.Kernel.Net

end
-- ==== Proof.NetBits.LatentData.lean ====
/-
  The second product's kernel over its whole grid: what the pipeline hands the body at each point and what the body
  leaves. The grid is (8 row blocks) × (2 column blocks) × (8 blocks of the contracted axis), the contracted axis
  fastest, so position `n` has `k = n % 8`. The accumulator after position `n` is, by recursion on `n`, the kernel's
  own update term: restarted from the zero block where `k = 0`, otherwise the previous accumulator plus this point's
  partial product. The output window is written at `k = 7` only (the accumulator plus the bias row) and idle elsewhere.
-/
import proofs.«113703_j70265664962673_1_alg».proof.Proof.NetBits.LatentBody

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-! ## Where the branches are taken, and where the output window is idle: decided over the 128 points -/

theorem latentFirst_iff : ∀ t : Fin cfg1.N, latentFirst (grid1.coords t) ↔ t.val % 8 = 0 :=
  (by decide +kernel : ∀ t : Fin grid1.N, latentFirst (grid1.coords t) ↔ t.val % 8 = 0)
theorem latentLast_iff : ∀ t : Fin cfg1.N, latentLast (grid1.coords t) ↔ t.val % 8 = 7 :=
  (by decide +kernel : ∀ t : Fin grid1.N, latentLast (grid1.coords t) ↔ t.val % 8 = 7)
theorem latent_live0 : ∀ t : Fin cfg1.N, cfg1.idle 0 (grid1.coords t) = false := by decide +kernel
theorem latent_live1 : ∀ t : Fin cfg1.N, cfg1.idle 1 (grid1.coords t) = false := by decide +kernel
theorem latent_live2 : ∀ t : Fin cfg1.N, cfg1.idle 2 (grid1.coords t) = false := by decide +kernel
theorem latent_out_idle : ∀ t : Fin cfg1.N, ¬latentLast (grid1.coords t) → cfg1.idle 3 (grid1.coords t) = true := by decide +kernel
theorem latent_out_noflush : ∀ t : Fin cfg1.N, ¬latentLast (grid1.coords t) → (cfg1.win 3).flush t = false := by decide +kernel
theorem latent_out_live : ∀ t : Fin cfg1.N, latentLast (grid1.coords t) → cfg1.idle 3 (grid1.coords t) = false := by decide +kernel

/-- Each window's current staging buffer at point `t`, as the pipeline passes it to the body. -/
abbrev latentSt0 (t : Fin cfg1.N) : Memref sig .tc .vmem S1024x1024 .bf16 := win1_0.stage (cfg1.slots t 0)
abbrev latentSt1 (t : Fin cfg1.N) : Memref sig .tc .vmem S1024x1024 .bf16 := win1_1.stage (cfg1.slots t 1)
abbrev latentSt2 (t : Fin cfg1.N) : Memref sig .tc .vmem S1x1024 .f32 := win1_2.stage (cfg1.slots t 2)
abbrev latentSt3 (t : Fin cfg1.N) : Memref sig .tc .vmem S1024x1024 .f32 := win1_3.stage (cfg1.slots t 3)
/-- The accumulator: a whole scoped buffer of the kernel's own. -/
abbrev latentScratch : Memref sig .tc .vmem S1024x1024 .f32 := Memref.whole cc1_scratch0

section
-- the TensorCore's buffer contents when the region is entered
variable (V : (c : Dev nD) → (b : Ref sig .tc) → Buf (Elt F) ((c : Thread nD τ).loc b))

/-- Window `w`'s block at point `t`, read off its array as the region finds it. -/
def latentBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved. -/
theorem latent_before0_of {c : Dev nD} (dat : Dat τ (Elt F) Unit ℕ (UR sig nD τ) ℕ cfg1 c) (hA : dat.A 0 = V c (Pipeline.arrRef spec1 0))
    (hafter : ∀ t, dat.after 0 t = latentBlk V c 0 t) (t : Fin cfg1.N) (d) : dat.before 0 t d = latentBlk V c 0 t :=
  (dat.before_in_eq_fetched 0 rfl (fun _ => rfl) (fun _ _ _ => rfl) (fun t => by rw [hafter]; unfold Dat.blockOf latentBlk; rw [hA]; try rfl) t d).trans
    (by unfold Dat.fetched Dat.blockOf latentBlk; rw [hA]; try rfl)
theorem latent_before1_of {c : Dev nD} (dat : Dat τ (Elt F) Unit ℕ (UR sig nD τ) ℕ cfg1 c) (hA : dat.A 1 = V c (Pipeline.arrRef spec1 1))
    (hafter : ∀ t, dat.after 1 t = latentBlk V c 1 t) (t : Fin cfg1.N) (d) : dat.before 1 t d = latentBlk V c 1 t :=
  (dat.before_in_eq_fetched 1 rfl (fun _ => rfl) (fun _ _ _ => rfl) (fun t => by rw [hafter]; unfold Dat.blockOf latentBlk; rw [hA]; try rfl) t d).trans
    (by unfold Dat.fetched Dat.blockOf latentBlk; rw [hA]; try rfl)
theorem latent_before2_of {c : Dev nD} (dat : Dat τ (Elt F) Unit ℕ (UR sig nD τ) ℕ cfg1 c) (hA : dat.A 2 = V c (Pipeline.arrRef spec1 2))
    (hafter : ∀ t, dat.after 2 t = latentBlk V c 2 t) (t : Fin cfg1.N) (d) : dat.before 2 t d = latentBlk V c 2 t :=
  (dat.before_in_eq_fetched 2 rfl (fun _ => rfl) (fun _ _ _ => rfl) (fun t => by rw [hafter]; unfold Dat.blockOf latentBlk; rw [hA]; try rfl) t d).trans
    (by unfold Dat.fetched Dat.blockOf latentBlk; rw [hA]; try rfl)

/-! ## The accumulator, position by position -/

/-- What the accumulator holds after the body at position `n`: the kernel's update term, restarted from the zero
    block where `n % 8 = 0`, otherwise over what position `n - 1` left. -/
def latentAcc (c : Dev nD) : (n : ℕ) → n < cfg1.N → Vec F S1024x1024 .f32
  | 0, hn => k1_pay2 k1_pay1 (latentBlk V c 0 ⟨0, hn⟩) (latentBlk V c 1 ⟨0, hn⟩)
  | n + 1, hn =>
    if (n + 1) % 8 = 0 then k1_pay2 k1_pay1 (latentBlk V c 0 ⟨n + 1, hn⟩) (latentBlk V c 1 ⟨n + 1, hn⟩)
    else k1_pay2 (latentAcc c n (Nat.lt_of_succ_lt hn)) (latentBlk V c 0 ⟨n + 1, hn⟩) (latentBlk V c 1 ⟨n + 1, hn⟩)

theorem latentAcc_first (c : Dev nD) (t : Fin cfg1.N) (h : t.val % 8 = 0) :
    latentAcc V c t.val t.isLt = k1_pay2 k1_pay1 (latentBlk V c 0 t) (latentBlk V c 1 t) := by
  obtain ⟨n, hn⟩ := t
  cases n with
  | zero => rfl
  | succ n => exact if_pos h

theorem latentAcc_next (c : Dev nD) (t : Fin cfg1.N) (h : ¬t.val % 8 = 0) :
    latentAcc V c t.val t.isLt
      = k1_pay2 (latentAcc V c (t.val - 1) (Nat.lt_of_le_of_lt (Nat.sub_le _ _) t.isLt)) (latentBlk V c 0 t) (latentBlk V c 1 t) := by
  obtain ⟨n, hn⟩ := t
  cases n with
  | zero => exact absurd (Nat.zero_mod _) h
  | succ n => exact if_neg h

/-- What the body leaves in the output window's staging buffer at a point with `k = 7`: the accumulator plus the bias row. -/
def latentOut (c : Dev nD) (t : Fin cfg1.N) : Vec F S1024x1024 .f32 :=
  k1_pay3 (latentAcc V c t.val t.isLt) (latentBlk V c 2 t)

/-! ## The invariant between points -/

/-- Before the first point the kernel's scoped buffers are at anything; after position `n` the accumulator holds
    `latentAcc … n`. The other scoped buffers and the generator register ride along untouched. -/
def latentPhi (c : Dev nD) : (n : ℕ) → n ≤ cfg1.N → sProp 𝕄
  | 0, _ => Pipeline.ΦA spec1 c
  | n + 1, hn => iprop(iprop(owns (c : Thread nD τ) latentScratch fullShare (latentAcc V c n hn)
      ∗ Pipeline.scopedRestBut (Ix := Unit) (Name := ℕ) (U := UR sig nD τ) (Lvl := ℕ) (Val := Elt F) spec1 c [cc1_scratch0]) ∗ (∃ r, prngReg c r))

theorem latentPhi_zero (c : Dev nD) (n : ℕ) (h : n ≤ cfg1.N) (hz : n = 0) : latentPhi V c n h = Pipeline.ΦA spec1 c := by
  subst hz; rfl

theorem latentPhi_succ (c : Dev nD) (n : ℕ) (hn : n < cfg1.N) :
    latentPhi V c (n + 1) hn = iprop(iprop(owns (c : Thread nD τ) latentScratch fullShare (latentAcc V c n hn)
      ∗ Pipeline.scopedRestBut (Ix := Unit) (Name := ℕ) (U := UR sig nD τ) (Lvl := ℕ) (Val := Elt F) spec1 c [cc1_scratch0]) ∗ (∃ r, prngReg c r)) := rfl

theorem latentPhi_pos (c : Dev nD) (n : ℕ) (h : n ≤ cfg1.N) (hz : n ≠ 0) :
    latentPhi V c n h = iprop(iprop(owns (c : Thread nD τ) latentScratch fullShare (latentAcc V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The class invariant with the accumulator split off as a whole buffer owned at some contents. -/
theorem latentPhiA_eq (c : Dev nD) :
    (Pipeline.ΦA spec1 c : sProp 𝕄)
      = iprop(iprop(iprop((∃ d, owns (c : Thread nD τ) latentScratch fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [latentScratch, owns_whole]; try rfl

/-! ## The proof data -/

/-- The proof data of the second product's pipeline on core `c`: the arrays as the region finds them; after the body
    each input's buffer at its block, the output's at the accumulator plus the bias row (consulted only where
    `k = 7`); the invariant above; nothing owed; full shares. -/
def latentDat (c : Dev nD) : Dat τ (Elt F) Unit ℕ (UR sig nD τ) ℕ cfg1 c where
  A w := V c (Pipeline.arrRef spec1 w)
  after w t := match w with
    | ⟨0, _⟩ => latentBlk V c 0 t
    | ⟨1, _⟩ => latentBlk V c 1 t
    | ⟨2, _⟩ => latentBlk V c 2 t
    | ⟨3, _⟩ => latentOut V c t
  Φ t := latentPhi V c t.val (Nat.le_of_lt_succ t.isLt)
  q _ := fullShare
  owed _ := 0

theorem latentDat_A (c : Dev nD) (w : Fin cfg1.W) : (latentDat V c).A w = V c (Pipeline.arrRef spec1 w) := by
  dsimp only [latentDat]
theorem latentDat_after0 (c : Dev nD) (t : Fin cfg1.N) : (latentDat V c).after 0 t = latentBlk V c 0 t := by dsimp only [latentDat]
theorem latentDat_after1 (c : Dev nD) (t : Fin cfg1.N) : (latentDat V c).after 1 t = latentBlk V c 1 t := by dsimp only [latentDat]
theorem latentDat_after2 (c : Dev nD) (t : Fin cfg1.N) : (latentDat V c).after 2 t = latentBlk V c 2 t := by dsimp only [latentDat]
theorem latentDat_after3 (c : Dev nD) (t : Fin cfg1.N) : (latentDat V c).after 3 t = latentOut V c t := by dsimp only [latentDat]
theorem latentDat_Phi_castSucc (c : Dev nD) (t : Fin cfg1.N) :
    (latentDat V c).Φ t.castSucc = latentPhi V c t.val (Nat.le_of_lt t.isLt) := by
  dsimp only [latentDat]; simp only [Fin.coe_castSucc]

theorem latent_before0 (c : Dev nD) (t : Fin cfg1.N) (d) : (latentDat V c).before 0 t d = latentBlk V c 0 t :=
  latent_before0_of V (latentDat V c) (latentDat_A V c 0) (latentDat_after0 V c) t d
theorem latent_before1 (c : Dev nD) (t : Fin cfg1.N) (d) : (latentDat V c).before 1 t d = latentBlk V c 1 t :=
  latent_before1_of V (latentDat V c) (latentDat_A V c 1) (latentDat_after1 V c) t d
theorem latent_before2 (c : Dev nD) (t : Fin cfg1.N) (d) : (latentDat V c).before 2 t d = latentBlk V c 2 t :=
  latent_before2_of V (latentDat V c) (latentDat_A V c 2) (latentDat_after2 V c) t d

end

end Cert.Kernel.Net

end
-- ==== Proof.NetBits.ExpandData.lean ====
/-
  The third product's kernel over its whole grid (the expansion `t = z · W₂ᵀ + d₁`): 8 row blocks × 8 column blocks,
  the contracted axis in ONE block, so every point zeroes the accumulator, adds the whole product (the second operand
  block transposed) and finishes its output block with the bias row. What the pipeline hands the body at each point
  and what the body leaves.
-/
import proofs.«113703_j70265664962673_1_alg».proof.Proof.NetBits.LatentBody

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-! ## The branches and the windows over the grid: the contracted axis is one block, so at every point both branches
    are taken and no window is idle — decided over the 64 points -/

/-- `k = 0`: the branch that zeroes the accumulator. -/
abbrev expandFirst (i : grid2.Coords) : Prop := (Scalar.cmpi .ne (Scalar.extui (Scalar.cmpi .eq (BitVec.ofNat 32 (i 2).val) 0#32)) 0#32) = 1#1
/-- `k` is the last block: the branch that finishes the output block. -/
abbrev expandLast (i : grid2.Coords) : Prop := k2_cond2 i = 1#1
theorem expandFirst_all : ∀ t : Fin cfg2.N, expandFirst (grid2.coords t) :=
  (by decide +kernel : ∀ t : Fin grid2.N, expandFirst (grid2.coords t))
theorem expandLast_all : ∀ t : Fin cfg2.N, expandLast (grid2.coords t) :=
  (by decide +kernel : ∀ t : Fin grid2.N, expandLast (grid2.coords t))
theorem expand_live0 : ∀ t : Fin cfg2.N, cfg2.idle 0 (grid2.coords t) = false := by decide +kernel
theorem expand_live1 : ∀ t : Fin cfg2.N, cfg2.idle 1 (grid2.coords t) = false := by decide +kernel
theorem expand_live2 : ∀ t : Fin cfg2.N, cfg2.idle 2 (grid2.coords t) = false := by decide +kernel
theorem expand_live3 : ∀ t : Fin cfg2.N, cfg2.idle 3 (grid2.coords t) = false := by decide +kernel

/-- Each window's current staging buffer at point `t`, as the pipeline passes it to the body. -/
abbrev expandSt0 (t : Fin cfg2.N) : Memref sig .tc .vmem S1024x2048 .bf16 := win2_0.stage (cfg2.slots t 0)
abbrev expandSt1 (t : Fin cfg2.N) : Memref sig .tc .vmem S1024x2048 .bf16 := win2_1.stage (cfg2.slots t 1)
abbrev expandSt2 (t : Fin cfg2.N) : Memref sig .tc .vmem S1x1024 .f32 := win2_2.stage (cfg2.slots t 2)
abbrev expandSt3 (t : Fin cfg2.N) : Memref sig .tc .vmem S1024x1024 .bf16 := win2_3.stage (cfg2.slots t 3)
/-- The accumulator: a whole scoped buffer of the kernel's own. -/
abbrev expandScratch : Memref sig .tc .vmem S1024x1024 .f32 := Memref.whole cc2_scratch0

section
-- the TensorCore's buffer contents when the region is entered
variable (V : (c : Dev nD) → (b : Ref sig .tc) → Buf (Elt F) ((c : Thread nD τ).loc b))

/-- Window `w`'s block at point `t`, read off its array as the region finds it. -/
def expandBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: unfetched, the
    block index has not moved. -/
theorem expand_before0_of {c : Dev nD} (dat : Dat τ (Elt F) Unit ℕ (UR sig nD τ) ℕ cfg2 c) (hA : dat.A 0 = V c (Pipeline.arrRef spec2 0))
    (hafter : ∀ t, dat.after 0 t = expandBlk V c 0 t) (t : Fin cfg2.N) (d) : dat.before 0 t d = expandBlk V c 0 t :=
  (dat.before_in_eq_fetched 0 rfl (fun _ => rfl) (fun _ _ _ => rfl) (fun t => by rw [hafter]; unfold Dat.blockOf expandBlk; rw [hA]; try rfl) t d).trans
    (by unfold Dat.fetched Dat.blockOf expandBlk; rw [hA]; try rfl)
theorem expand_before1_of {c : Dev nD} (dat : Dat τ (Elt F) Unit ℕ (UR sig nD τ) ℕ cfg2 c) (hA : dat.A 1 = V c (Pipeline.arrRef spec2 1))
    (hafter : ∀ t, dat.after 1 t = expandBlk V c 1 t) (t : Fin cfg2.N) (d) : dat.before 1 t d = expandBlk V c 1 t :=
  (dat.before_in_eq_fetched 1 rfl (fun _ => rfl) (fun _ _ _ => rfl) (fun t => by rw [hafter]; unfold Dat.blockOf expandBlk; rw [hA]; try rfl) t d).trans
    (by unfold Dat.fetched Dat.blockOf expandBlk; rw [hA]; try rfl)
theorem expand_before2_of {c : Dev nD} (dat : Dat τ (Elt F) Unit ℕ (UR sig nD τ) ℕ cfg2 c) (hA : dat.A 2 = V c (Pipeline.arrRef spec2 2))
    (hafter : ∀ t, dat.after 2 t = expandBlk V c 2 t) (t : Fin cfg2.N) (d) : dat.before 2 t d = expandBlk V c 2 t :=
  (dat.before_in_eq_fetched 2 rfl (fun _ => rfl) (fun _ _ _ => rfl) (fun t => by rw [hafter]; unfold Dat.blockOf expandBlk; rw [hA]; try rfl) t d).trans
    (by unfold Dat.fetched Dat.blockOf expandBlk; rw [hA]; try rfl)

/-- What the body leaves in the output window's staging buffer at point `t`: the kernel's terms composed — the zero
    block, plus the product of the two operand blocks, then the closing term over the row blocks. -/
def expandOut (c : Dev nD) (t : Fin cfg2.N) : Vec F S1024x1024 .bf16 :=
  k2_pay3 (k2_pay2 k2_pay1 (expandBlk V c 0 t) (expandBlk V c 1 t)) (expandBlk V c 2 t)

/-- The class invariant with the accumulator split off as a whole buffer owned at some contents. -/
theorem expandPhiA_eq (c : Dev nD) :
    (Pipeline.ΦA spec2 c : sProp 𝕄)
      = iprop(iprop(iprop((∃ d, owns (c : Thread nD τ) expandScratch fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [expandScratch, owns_whole]; try rfl

/-- The proof data of this pipeline on core `c`: the arrays as the region finds them; after the body each input's
    buffer at its block and the output's at `expandOut`; the invariant the class's (the accumulator at anything between
    points: every point restarts it); nothing owed; full shares. -/
def expandDat (c : Dev nD) : Dat τ (Elt F) Unit ℕ (UR sig nD τ) ℕ cfg2 c where
  A w := V c (Pipeline.arrRef spec2 w)
  after w t := match w with
    | ⟨0, _⟩ => expandBlk V c 0 t
    | ⟨1, _⟩ => expandBlk V c 1 t
    | ⟨2, _⟩ => expandBlk V c 2 t
    | ⟨3, _⟩ => expandOut V c t
  Φ _ := Pipeline.ΦA spec2 c
  q _ := fullShare
  owed _ := 0

theorem expandDat_A (c : Dev nD) (w : Fin cfg2.W) : (expandDat V c).A w = V c (Pipeline.arrRef spec2 w) := by
  dsimp only [expandDat]
theorem expandDat_after0 (c : Dev nD) (t : Fin cfg2.N) : (expandDat V c).after 0 t = expandBlk V c 0 t := by dsimp only [expandDat]
theorem expandDat_after1 (c : Dev nD) (t : Fin cfg2.N) : (expandDat V c).after 1 t = expandBlk V c 1 t := by dsimp only [expandDat]
theorem expandDat_after2 (c : Dev nD) (t : Fin cfg2.N) : (expandDat V c).after 2 t = expandBlk V c 2 t := by dsimp only [expandDat]
theorem expandDat_after3 (c : Dev nD) (t : Fin cfg2.N) : (expandDat V c).after 3 t = expandOut V c t := by dsimp only [expandDat]
theorem expand_before0 (c : Dev nD) (t : Fin cfg2.N) (d) : (expandDat V c).before 0 t d = expandBlk V c 0 t :=
  expand_before0_of V (expandDat V c) (expandDat_A V c 0) (expandDat_after0 V c) t d
theorem expand_before1 (c : Dev nD) (t : Fin cfg2.N) (d) : (expandDat V c).before 1 t d = expandBlk V c 1 t :=
  expand_before1_of V (expandDat V c) (expandDat_A V c 1) (expandDat_after1 V c) t d
theorem expand_before2 (c : Dev nD) (t : Fin cfg2.N) (d) : (expandDat V c).before 2 t d = expandBlk V c 2 t :=
  expand_before2_of V (expandDat V c) (expandDat_A V c 2) (expandDat_after2 V c) t d

end

end Cert.Kernel.Net

end
-- ==== Proof.NetBits.ReconBody.lean ====
/-
  The body of the fourth product's kernel (the reconstruction `r = t · W₁ᵀ + d₂`, the second operand block transposed, accumulated over eight blocks of the
  contracted axis) at one grid point, on whole staging buffers. The grid's last coordinate `k` selects one of three
  control cases: at `k = 0` the accumulator is zeroed and then takes the first partial product; at `0 < k < 7` it
  takes one more partial product; at `k = 7` it takes the last one and the output block is the accumulator plus the
  bias row. Each case says exactly what the accumulator and the output buffer hold afterwards, as the kernel's own
  pure terms of what the buffers held before.
-/
import proofs.«113703_j70265664962673_1_alg».proof.Proof.Gen.Kernel.Skeleton
import proofs.«113703_j70265664962673_1_alg».proof.Proof.Gen.Kernel.Launch
import proofs.«113703_j70265664962673_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-- The whole-buffer rectangle's offsets are zero. -/
theorem off2_zero : (![0, 0] : Fin 2 → ℕ) = fun _ => 0 := by funext a; fin_cases a <;> rfl

/-- `k = 0`: the branch that zeroes the accumulator is taken. -/
abbrev reconFirst (i : grid3.Coords) : Prop := (Scalar.cmpi .ne (Scalar.extui (Scalar.cmpi .eq (BitVec.ofNat 32 (i 2).val) 0#32)) 0#32) = 1#1
/-- `k = 7`: the branch that adds the bias and stores the output block is taken. -/
abbrev reconLast (i : grid3.Coords) : Prop := k3_cond2 i = 1#1

set_option maxHeartbeats 1000000 in
/-- `k = 0`: whatever the accumulator held, it ends at `0 + a · b`; the output buffer is untouched. -/
theorem recon_first (c : Dev nD) (E : Set ℕ) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : reconFirst i) (hc1 : ¬reconLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k3_pay2 k3_pay1 x0 x1)) -∗ K ⟨⟩))
      ⊢ wp frame (wpE (defs₀ (F := F)) Variants.none c none) E (cc3_kernel i arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `0 < k < 7`: the accumulator `s` ends at `s + a · b`; the output buffer is untouched. -/
theorem recon_mid (c : Dev nD) (E : Set ℕ) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬reconFirst i) (hc1 : ¬reconLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k3_pay2 xs x0 x1)) -∗ K ⟨⟩))
      ⊢ wp frame (wpE (defs₀ (F := F)) Variants.none c none) E (cc3_kernel i arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr; · ipureintro; exact harg6.read_unread _
    iexact HO
  iexists _; isplitr
  swap; · iexact HS
  ipureintro
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

set_option maxHeartbeats 1000000 in
/-- `k = 7`: the accumulator `s` ends at `s + a · b`, and the output buffer, whatever it held, at that plus the bias row. -/
theorem recon_last (c : Dev nD) (E : Set ℕ) (i : grid3.Coords)
    (arg3 : Memref sig .tc .vmem S1024x1024 .bf16) (harg3 : arg3.IsWhole) (arg4 : Memref sig .tc .vmem S1024x1024 .bf16) (harg4 : arg4.IsWhole)
    (arg5 : Memref sig .tc .vmem S1x1024 .f32) (harg5 : arg5.IsWhole) (arg6 : Memref sig .tc .vmem S1024x1024 .f32) (harg6 : arg6.IsWhole)
    (arg7 : Memref sig .tc .vmem S1024x1024 .f32) (harg7 : arg7.IsWhole)
    (hc0 : ¬reconFirst i) (hc1 : reconLast i)
    (x0 x1 : Vec F S1024x1024 .bf16) (x2 : Vec F S1x1024 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k3_pay3 (k3_pay2 xs x0 x1) x2) ∗ owns (c : Thread nD τ) arg7 fullShare (k3_pay2 xs x0 x1)) -∗ K ⟨⟩))
      ⊢ wp frame (wpE (defs₀ (F := F)) Variants.none c none) E (cc3_kernel i arg3 harg3 arg4 harg4 arg5 harg5 arg6 harg6 arg7 harg7) K := by
  simp only [cc3_kernel_eq_skeleton]; unfold cc3_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]
  iexists _; isplitr
  swap; · iexact HS
  ipureintro
  sl_unfold_words
  rw [View.read_writes_eq_canon _ _ _ (fun y => ⟨_, List.mem_singleton_self _, View.mem_set_unit_zero off2_zero inb_S1024x1024_S1024x1024_0_0 y⟩),
    View.canon_unit_zero off2_zero]
  simp only [View.readAt_eq_ld, View.readCov_unit_zero (S := S1024x1024) _ off2_zero, harg7.read_unread, harg3.read_unread, harg4.read_unread, harg5.read_unread, View.ld_unit_zero (S := S1024x1024) off2_zero, View.ld_unit_zero (S := S1x1024) off2_zero]

end Cert.Kernel.Net

end
-- ==== Proof.NetBits.ReconData.lean ====
/-
  The fourth product's kernel over its whole grid: what the pipeline hands the body at each point and what the body
  leaves. The grid is (8 row blocks) × (2 column blocks) × (8 blocks of the contracted axis), the contracted axis
  fastest, so position `n` has `k = n % 8`. The accumulator after position `n` is, by recursion on `n`, the kernel's
  own update term: restarted from the zero block where `k = 0`, otherwise the previous accumulator plus this point's
  partial product. The output window is written at `k = 7` only (the accumulator plus the bias row) and idle elsewhere.
-/
import proofs.«113703_j70265664962673_1_alg».proof.Proof.NetBits.ReconBody

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

/-! ## Where the branches are taken, and where the output window is idle: decided over the 128 points -/

theorem reconFirst_iff : ∀ t : Fin cfg3.N, reconFirst (grid3.coords t) ↔ t.val % 8 = 0 :=
  (by decide +kernel : ∀ t : Fin grid3.N, reconFirst (grid3.coords t) ↔ t.val % 8 = 0)
theorem reconLast_iff : ∀ t : Fin cfg3.N, reconLast (grid3.coords t) ↔ t.val % 8 = 7 :=
  (by decide +kernel : ∀ t : Fin grid3.N, reconLast (grid3.coords t) ↔ t.val % 8 = 7)
theorem recon_live0 : ∀ t : Fin cfg3.N, cfg3.idle 0 (grid3.coords t) = false := by decide +kernel
theorem recon_live1 : ∀ t : Fin cfg3.N, cfg3.idle 1 (grid3.coords t) = false := by decide +kernel
theorem recon_live2 : ∀ t : Fin cfg3.N, cfg3.idle 2 (grid3.coords t) = false := by decide +kernel
theorem recon_out_idle : ∀ t : Fin cfg3.N, ¬reconLast (grid3.coords t) → cfg3.idle 3 (grid3.coords t) = true := by decide +kernel
theorem recon_out_noflush : ∀ t : Fin cfg3.N, ¬reconLast (grid3.coords t) → (cfg3.win 3).flush t = false := by decide +kernel
theorem recon_out_live : ∀ t : Fin cfg3.N, reconLast (grid3.coords t) → cfg3.idle 3 (grid3.coords t) = false := by decide +kernel

/-- Each window's current staging buffer at point `t`, as the pipeline passes it to the body. -/
abbrev reconSt0 (t : Fin cfg3.N) : Memref sig .tc .vmem S1024x1024 .bf16 := win3_0.stage (cfg3.slots t 0)
abbrev reconSt1 (t : Fin cfg3.N) : Memref sig .tc .vmem S1024x1024 .bf16 := win3_1.stage (cfg3.slots t 1)
abbrev reconSt2 (t : Fin cfg3.N) : Memref sig .tc .vmem S1x1024 .f32 := win3_2.stage (cfg3.slots t 2)
abbrev reconSt3 (t : Fin cfg3.N) : Memref sig .tc .vmem S1024x1024 .f32 := win3_3.stage (cfg3.slots t 3)
/-- The accumulator: a whole scoped buffer of the kernel's own. -/
abbrev reconScratch : Memref sig .tc .vmem S1024x1024 .f32 := Memref.whole cc3_scratch0

section
-- the TensorCore's buffer contents when the region is entered
variable (V : (c : Dev nD) → (b : Ref sig .tc) → Buf (Elt F) ((c : Thread nD τ).loc b))

/-- Window `w`'s block at point `t`, read off its array as the region finds it. -/
def reconBlk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: unfetched, the
    block index has not moved. -/
theorem recon_before0_of {c : Dev nD} (dat : Dat τ (Elt F) Unit ℕ (UR sig nD τ) ℕ cfg3 c) (hA : dat.A 0 = V c (Pipeline.arrRef spec3 0))
    (hafter : ∀ t, dat.after 0 t = reconBlk V c 0 t) (t : Fin cfg3.N) (d) : dat.before 0 t d = reconBlk V c 0 t :=
  (dat.before_in_eq_fetched 0 rfl (fun _ => rfl) (fun _ _ _ => rfl) (fun t => by rw [hafter]; unfold Dat.blockOf reconBlk; rw [hA]; try rfl) t d).trans
    (by unfold Dat.fetched Dat.blockOf reconBlk; rw [hA]; try rfl)
theorem recon_before1_of {c : Dev nD} (dat : Dat τ (Elt F) Unit ℕ (UR sig nD τ) ℕ cfg3 c) (hA : dat.A 1 = V c (Pipeline.arrRef spec3 1))
    (hafter : ∀ t, dat.after 1 t = reconBlk V c 1 t) (t : Fin cfg3.N) (d) : dat.before 1 t d = reconBlk V c 1 t :=
  (dat.before_in_eq_fetched 1 rfl (fun _ => rfl) (fun _ _ _ => rfl) (fun t => by rw [hafter]; unfold Dat.blockOf reconBlk; rw [hA]; try rfl) t d).trans
    (by unfold Dat.fetched Dat.blockOf reconBlk; rw [hA]; try rfl)
theorem recon_before2_of {c : Dev nD} (dat : Dat τ (Elt F) Unit ℕ (UR sig nD τ) ℕ cfg3 c) (hA : dat.A 2 = V c (Pipeline.arrRef spec3 2))
    (hafter : ∀ t, dat.after 2 t = reconBlk V c 2 t) (t : Fin cfg3.N) (d) : dat.before 2 t d = reconBlk V c 2 t :=
  (dat.before_in_eq_fetched 2 rfl (fun _ => rfl) (fun _ _ _ => rfl) (fun t => by rw [hafter]; unfold Dat.blockOf reconBlk; rw [hA]; try rfl) t d).trans
    (by unfold Dat.fetched Dat.blockOf reconBlk; rw [hA]; try rfl)

/-! ## The accumulator, position by position -/

/-- What the accumulator holds after the body at position `n`: the kernel's update term, restarted from the zero
    block where `n % 8 = 0`, otherwise over what position `n - 1` left. -/
def reconAcc (c : Dev nD) : (n : ℕ) → n < cfg3.N → Vec F S1024x1024 .f32
  | 0, hn => k3_pay2 k3_pay1 (reconBlk V c 0 ⟨0, hn⟩) (reconBlk V c 1 ⟨0, hn⟩)
  | n + 1, hn =>
    if (n + 1) % 8 = 0 then k3_pay2 k3_pay1 (reconBlk V c 0 ⟨n + 1, hn⟩) (reconBlk V c 1 ⟨n + 1, hn⟩)
    else k3_pay2 (reconAcc c n (Nat.lt_of_succ_lt hn)) (reconBlk V c 0 ⟨n + 1, hn⟩) (reconBlk V c 1 ⟨n + 1, hn⟩)

theorem reconAcc_first (c : Dev nD) (t : Fin cfg3.N) (h : t.val % 8 = 0) :
    reconAcc V c t.val t.isLt = k3_pay2 k3_pay1 (reconBlk V c 0 t) (reconBlk V c 1 t) := by
  obtain ⟨n, hn⟩ := t
  cases n with
  | zero => rfl
  | succ n => exact if_pos h

theorem reconAcc_next (c : Dev nD) (t : Fin cfg3.N) (h : ¬t.val % 8 = 0) :
    reconAcc V c t.val t.isLt
      = k3_pay2 (reconAcc V c (t.val - 1) (Nat.lt_of_le_of_lt (Nat.sub_le _ _) t.isLt)) (reconBlk V c 0 t) (reconBlk V c 1 t) := by
  obtain ⟨n, hn⟩ := t
  cases n with
  | zero => exact absurd (Nat.zero_mod _) h
  | succ n => exact if_neg h

/-- What the body leaves in the output window's staging buffer at a point with `k = 7`: the accumulator plus the bias row. -/
def reconOut (c : Dev nD) (t : Fin cfg3.N) : Vec F S1024x1024 .f32 :=
  k3_pay3 (reconAcc V c t.val t.isLt) (reconBlk V c 2 t)

/-! ## The invariant between points -/

/-- Before the first point the kernel's scoped buffers are at anything; after position `n` the accumulator holds
    `reconAcc … n`. The other scoped buffers and the generator register ride along untouched. -/
def reconPhi (c : Dev nD) : (n : ℕ) → n ≤ cfg3.N → sProp 𝕄
  | 0, _ => Pipeline.ΦA spec3 c
  | n + 1, hn => iprop(iprop(owns (c : Thread nD τ) reconScratch fullShare (reconAcc V c n hn)
      ∗ Pipeline.scopedRestBut (Ix := Unit) (Name := ℕ) (U := UR sig nD τ) (Lvl := ℕ) (Val := Elt F) spec3 c [cc3_scratch0]) ∗ (∃ r, prngReg c r))

theorem reconPhi_zero (c : Dev nD) (n : ℕ) (h : n ≤ cfg3.N) (hz : n = 0) : reconPhi V c n h = Pipeline.ΦA spec3 c := by
  subst hz; rfl

theorem reconPhi_succ (c : Dev nD) (n : ℕ) (hn : n < cfg3.N) :
    reconPhi V c (n + 1) hn = iprop(iprop(owns (c : Thread nD τ) reconScratch fullShare (reconAcc V c n hn)
      ∗ Pipeline.scopedRestBut (Ix := Unit) (Name := ℕ) (U := UR sig nD τ) (Lvl := ℕ) (Val := Elt F) spec3 c [cc3_scratch0]) ∗ (∃ r, prngReg c r)) := rfl

theorem reconPhi_pos (c : Dev nD) (n : ℕ) (h : n ≤ cfg3.N) (hz : n ≠ 0) :
    reconPhi V c n h = iprop(iprop(owns (c : Thread nD τ) reconScratch fullShare (reconAcc V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The class invariant with the accumulator split off as a whole buffer owned at some contents. -/
theorem reconPhiA_eq (c : Dev nD) :
    (Pipeline.ΦA spec3 c : sProp 𝕄)
      = iprop(iprop(iprop((∃ d, owns (c : Thread nD τ) reconScratch fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [reconScratch, owns_whole]; try rfl

/-! ## The proof data -/

/-- The proof data of the fourth product's pipeline on core `c`: the arrays as the region finds them; after the body
    each input's buffer at its block, the output's at the accumulator plus the bias row (consulted only where
    `k = 7`); the invariant above; nothing owed; full shares. -/
def reconDat (c : Dev nD) : Dat τ (Elt F) Unit ℕ (UR sig nD τ) ℕ cfg3 c where
  A w := V c (Pipeline.arrRef spec3 w)
  after w t := match w with
    | ⟨0, _⟩ => reconBlk V c 0 t
    | ⟨1, _⟩ => reconBlk V c 1 t
    | ⟨2, _⟩ => reconBlk V c 2 t
    | ⟨3, _⟩ => reconOut V c t
  Φ t := reconPhi V c t.val (Nat.le_of_lt_succ t.isLt)
  q _ := fullShare
  owed _ := 0

theorem reconDat_A (c : Dev nD) (w : Fin cfg3.W) : (reconDat V c).A w = V c (Pipeline.arrRef spec3 w) := by
  dsimp only [reconDat]
theorem reconDat_after0 (c : Dev nD) (t : Fin cfg3.N) : (reconDat V c).after 0 t = reconBlk V c 0 t := by dsimp only [reconDat]
theorem reconDat_after1 (c : Dev nD) (t : Fin cfg3.N) : (reconDat V c).after 1 t = reconBlk V c 1 t := by dsimp only [reconDat]
theorem reconDat_after2 (c : Dev nD) (t : Fin cfg3.N) : (reconDat V c).after 2 t = reconBlk V c 2 t := by dsimp only [reconDat]
theorem reconDat_after3 (c : Dev nD) (t : Fin cfg3.N) : (reconDat V c).after 3 t = reconOut V c t := by dsimp only [reconDat]
theorem reconDat_Phi_castSucc (c : Dev nD) (t : Fin cfg3.N) :
    (reconDat V c).Φ t.castSucc = reconPhi V c t.val (Nat.le_of_lt t.isLt) := by
  dsimp only [reconDat]; simp only [Fin.coe_castSucc]

theorem recon_before0 (c : Dev nD) (t : Fin cfg3.N) (d) : (reconDat V c).before 0 t d = reconBlk V c 0 t :=
  recon_before0_of V (reconDat V c) (reconDat_A V c 0) (reconDat_after0 V c) t d
theorem recon_before1 (c : Dev nD) (t : Fin cfg3.N) (d) : (reconDat V c).before 1 t d = reconBlk V c 1 t :=
  recon_before1_of V (reconDat V c) (reconDat_A V c 1) (reconDat_after1 V c) t d
theorem recon_before2 (c : Dev nD) (t : Fin cfg3.N) (d) : (reconDat V c).before 2 t d = reconBlk V c 2 t :=
  recon_before2_of V (reconDat V c) (reconDat_A V c 2) (reconDat_after2 V c) t d

end

end Cert.Kernel.Net

end
-- ==== Proof.NetBits.RunData.lean ====
/-
  The buffer contents at every boundary of @main, each region's proof data at its own entry contents, and the thread
  state that rides between the segments.

  The contents a region leaves in its output array are what its pipeline's write-backs fold to (`Dat.arrAt … N`), and
  each later boundary is computed from the earlier ones; so the contents are fixed region by region: `outsA` knows
  what the first region leaves, `outsB` also what the second leaves given `outsA`, and so on up to `outs`.
-/
import proofs.«113703_j70265664962673_1_alg».proof.Proof.Gen.Kernel.Regions
import proofs.«113703_j70265664962673_1_alg».proof.Proof.NetBits.EncodeData
import proofs.«113703_j70265664962673_1_alg».proof.Proof.NetBits.LatentData
import proofs.«113703_j70265664962673_1_alg».proof.Proof.NetBits.ExpandData
import proofs.«113703_j70265664962673_1_alg».proof.Proof.NetBits.ReconData
import Idealize.ShloMosaic.Lib.Pipeline.RegionsLoop
import Idealize.ShloMosaic.Lib.Pipeline.FrameSuffix

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-! ## What each region leaves, fixed one region after the other -/

/-- The first region's entry contents, read at the TensorCore's references. -/
abbrev VA (c : Dev nD) (b : Ref sig .tc) : Buf (Elt F) ((c : Thread nD τ).loc b) := V5 m c b
/-- After the first region: its arrays at what its write-backs fold to. -/
def outsA : Outs (F := F) := fun _ r c =>
  Pipeline.withArrays spec0 c (V5 m c) (fun w => (encodeDat (VA m) c).arrAt w cfg0.N) (Proc.devRef .tc r)

/-- The second region's entry contents. -/
abbrev VB (c : Dev nD) (b : Ref sig .tc) : Buf (Elt F) ((c : Thread nD τ).loc b) := V7 m (outsA m) c b
def outsB : Outs (F := F) := fun J r c =>
  if J = 6 then outsA m J r c
  else Pipeline.withArrays spec1 c (V7 m (outsA m) c) (fun w => (latentDat (VB m) c).arrAt w cfg1.N) (Proc.devRef .tc r)

/-- The third region's entry contents. -/
abbrev VC (c : Dev nD) (b : Ref sig .tc) : Buf (Elt F) ((c : Thread nD τ).loc b) := V9 m (outsB m) c b
def outsC : Outs (F := F) := fun J r c =>
  if J = 6 ∨ J = 8 then outsB m J r c
  else Pipeline.withArrays spec2 c (V9 m (outsB m) c) (fun w => (expandDat (VC m) c).arrAt w cfg2.N) (Proc.devRef .tc r)

/-- The fourth region's entry contents. -/
abbrev VD (c : Dev nD) (b : Ref sig .tc) : Buf (Elt F) ((c : Thread nD τ).loc b) := V11 m (outsC m) c b
/-- What every region leaves. -/
def outs : Outs (F := F) := fun J r c =>
  if J = 6 ∨ J = 8 ∨ J = 10 then outsC m J r c
  else Pipeline.withArrays spec3 c (V11 m (outsC m) c) (fun w => (reconDat (VD m) c).arrAt w cfg3.N) (Proc.devRef .tc r)

/-- The later stages agree with the earlier ones on what the earlier regions leave. -/
theorem outsB_six (r : Ref sig .tc) (c : Dev nD) : outsB m 6 r c = outsA m 6 r c := by
  unfold outsB; rw [if_pos rfl]
theorem outsC_six (r : Ref sig .tc) (c : Dev nD) : outsC m 6 r c = outsA m 6 r c := by
  unfold outsC; rw [if_pos (Or.inl rfl), outsB_six]
theorem outsC_eight (r : Ref sig .tc) (c : Dev nD) : outsC m 8 r c = outsB m 8 r c := by
  unfold outsC; rw [if_pos (Or.inr rfl)]
theorem outs_six (r : Ref sig .tc) (c : Dev nD) : outs m 6 r c = outsA m 6 r c := by
  unfold outs; rw [if_pos (Or.inl rfl), outsC_six]
theorem outs_eight (r : Ref sig .tc) (c : Dev nD) : outs m 8 r c = outsB m 8 r c := by
  unfold outs; rw [if_pos (Or.inr (Or.inl rfl)), outsC_eight]
theorem outs_ten (r : Ref sig .tc) (c : Dev nD) : outs m 10 r c = outsC m 10 r c := by
  unfold outs; rw [if_pos (Or.inr (Or.inr rfl))]

/-- A boundary's valuation depends on `outs` only through what the regions before it leave. -/
theorem V7_congr (o o' : Outs (F := F)) (c : Dev nD) (h6 : o 6 main_v22 c = o' 6 main_v22 c) : V7 m o c = V7 m o' c := by
  show StableHlo.after hostOps1 (Function.update (V5 m c) (Proc.devRef .tc main_v22) (o 6 main_v22 c))
    = StableHlo.after hostOps1 (Function.update (V5 m c) (Proc.devRef .tc main_v22) (o' 6 main_v22 c))
  rw [h6]
theorem V9_congr (o o' : Outs (F := F)) (c : Dev nD) (h6 : o 6 main_v22 c = o' 6 main_v22 c) (h8 : o 8 main_v24 c = o' 8 main_v24 c) :
    V9 m o c = V9 m o' c := by
  show StableHlo.after hostOps2 (Function.update (V7 m o c) (Proc.devRef .tc main_v24) (o 8 main_v24 c))
    = StableHlo.after hostOps2 (Function.update (V7 m o' c) (Proc.devRef .tc main_v24) (o' 8 main_v24 c))
  rw [h8, V7_congr m o o' c h6]
theorem V11_congr (o o' : Outs (F := F)) (c : Dev nD) (h6 : o 6 main_v22 c = o' 6 main_v22 c) (h8 : o 8 main_v24 c = o' 8 main_v24 c)
    (h10 : o 10 main_v27 c = o' 10 main_v27 c) : V11 m o c = V11 m o' c := by
  show StableHlo.after hostOps3 (Function.update (V9 m o c) (Proc.devRef .tc main_v27) (o 10 main_v27 c))
    = StableHlo.after hostOps3 (Function.update (V9 m o' c) (Proc.devRef .tc main_v27) (o' 10 main_v27 c))
  rw [h10, V9_congr m o o' c h6 h8]

/-- The boundaries computed with the final `outs` are the ones each region was fixed at. -/
theorem V5_outs (c : Dev nD) : V5 m c = V5 m c := rfl
theorem V7_outs (c : Dev nD) : V7 m (outs m) c = V7 m (outsA m) c := V7_congr m _ _ c (outs_six m _ c)
theorem V9_outs (c : Dev nD) : V9 m (outs m) c = V9 m (outsB m) c :=
  V9_congr m _ _ c ((outs_six m _ c).trans (outsB_six m _ c).symm) (outs_eight m _ c)
theorem V11_outs (c : Dev nD) : V11 m (outs m) c = V11 m (outsC m) c :=
  V11_congr m _ _ c ((outs_six m _ c).trans (outsC_six m _ c).symm) ((outs_eight m _ c).trans (outsC_eight m _ c).symm) (outs_ten m _ c)

/-- Each region's output array after the region is what its write-backs fold to. -/
theorem outs_v22 (c : Dev nD) : outs m 6 main_v22 c = (encodeDat (VA m) c).arrAt 5 cfg0.N :=
  (outs_six m main_v22 c).trans (by unfold outsA; exact Pipeline.withArrays_arr spec0 launch0.win.arr_inj c _ _ 5)
theorem outs_v24 (c : Dev nD) : outs m 8 main_v24 c = (latentDat (VB m) c).arrAt 3 cfg1.N :=
  (outs_eight m main_v24 c).trans (by unfold outsB; rw [if_neg (by decide)]; exact Pipeline.withArrays_arr spec1 launch1.win.arr_inj c _ _ 3)
theorem outs_v27 (c : Dev nD) : outs m 10 main_v27 c = (expandDat (VC m) c).arrAt 3 cfg2.N :=
  (outs_ten m main_v27 c).trans (by unfold outsC; rw [if_neg (by decide)]; exact Pipeline.withArrays_arr spec2 launch2.win.arr_inj c _ _ 3)
theorem outs_v29 (c : Dev nD) : outs m 12 main_v29 c = (reconDat (VD m) c).arrAt 3 cfg3.N := by
  unfold outs; rw [if_neg (by decide)]; exact Pipeline.withArrays_arr spec3 launch3.win.arr_inj c _ _ 3

/-! ## The proof data family and what rides between the segments -/

/-- Every pipeline's proof data, each at its region's entry contents: a literal match on the pipeline's index. -/
def pdats : (p : Fin 4) → (c : Dev nD) → Dat τ (Elt F) Unit ℕ (UR sig nD τ) ℕ (cfgs p) c
  | ⟨0, _⟩ => fun c => encodeDat (VA m) c
  | ⟨1, _⟩ => fun c => latentDat (VB m) c
  | ⟨2, _⟩ => fun c => expandDat (VC m) c
  | ⟨3, _⟩ => fun c => reconDat (VD m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the generator register at some state and the core's
    `owes`, at nothing. -/
abbrev Rz (c : Dev nD) : sProp 𝕄 := iprop((∃ r, prngReg c r) ∗ ∃ W, owes (c : Thread nD τ) (0 : CellTallies nD τ sig Unit) W)

end Cert.Kernel.Net

end
-- ==== Proof.NetBits.EncodeBody.lean ====
/-
  The body of the first product's kernel (the hidden code `h = act (x · W₁ + b₁)`) at one grid point, on whole
  staging buffers. The contracted axis is a single block, so one run of the body does everything: the accumulator,
  whatever it held, is overwritten with the zero block; it is read back and the whole product of the row block of `x`
  with the column block of `W₁` is added to it; and, since this is also the last block of the contracted axis, the
  accumulator is read once more, the bias row is added, the activation (built from the two remaining parameter rows)
  is applied, the result is rounded to half precision and stored as the output block. The theorem says exactly what
  the accumulator and the output buffer hold afterwards, as the kernel's own pure terms of what the operand buffers
  held before; the operand buffers themselves are returned unchanged.
-/
import proofs.«113703_j70265664962673_1_alg».proof.Proof.NetBits.EncodeData

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

set_option maxHeartbeats 1000000 in
/-- Both branches taken: whatever the accumulator and the output buffer held, the accumulator ends at `0 + a · b` and
    the output buffer at the closing term over that and the three parameter rows. -/
theorem encode_body (c : Dev nD) (E : Set ℕ) (i : grid0.Coords)
    (arg3 : Memref sig .tc .vmem S1024x2048 .bf16) (harg3 : arg3.IsWhole) (arg4 : Memref sig .tc .vmem S2048x1024 .bf16) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1024x1024 .bf16) (harg8 : arg8.IsWhole)
    (arg9 : Memref sig .tc .vmem S1024x1024 .f32) (harg9 : arg9.IsWhole)
    (hc0 : encodeFirst i) (hc1 : encodeLast i)
    (x0 : Vec F S1024x2048 .bf16) (x1 : Vec F S2048x1024 .bf16) (x2 x3 x4 : Vec F S1x1024 .f32) (xo : Vec F S1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ owns (c : Thread nD τ) arg7 fullShare x4 ∗ owns (c : Thread nD τ) arg8 fullShare xo ∗ owns (c : Thread nD τ) arg9 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare x4 ∗ owns (c : Thread nD τ) arg8 fullShare (k0_pay3 (k0_pay2 k0_pay1 x0 x1) x2 x3 x4)
            ∗ owns (c : Thread nD τ) arg9 fullShare (k0_pay2 k0_pay1 x0 x1)) -∗ K ⟨⟩))
      ⊢ wp frame (wpE (defs₀ (F := F)) Variants.none c none) E (cc0_kernel i arg3 harg3 arg4 harg4 arg5 harg5 arg6 harg6 arg7 harg7 arg8 harg8 arg9 harg9) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hf4
  obtain rfl := harg8.eq_unread hfo; obtain rfl := harg9.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    rw [View.readCov_eq_canon_ld _ _ _ (fun y => ⟨_, List.mem_cons.mpr (Or.inl rfl), View.mem_set_unit_zero off2_zero inb_S1024x1024_S1024x1024_0_0 y⟩),
      View.canon_cons_unit_zero off2_zero]
    simp only [View.readAt_eq_ld, View.readCov_unit_zero (S := S1024x1024) _ off2_zero, harg3.read_unread, harg4.read_unread, harg5.read_unread, harg6.read_unread, harg7.read_unread,
      View.ld_unit_zero (S := S1024x1024) off2_zero, View.ld_unit_zero (S := S1024x2048) off2_zero, View.ld_unit_zero (S := S2048x1024) off2_zero, View.ld_unit_zero (S := S1x1024) off2_zero]
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg3.read_unread, harg4.read_unread,
    View.ld_unit_zero (S := S1024x2048) off2_zero, View.ld_unit_zero (S := S2048x1024) off2_zero]

end Cert.Kernel.Net

end
-- ==== Proof.NetBits.EncodeSeg.lean ====
/-
  The body obligation of the first product's pipeline (the hidden code `h = act (x · W₁ + b₁)`): at every grid point
  the kernel body, handed the invariant and each window's current staging buffer at what the pipeline put there,
  returns the invariant and each buffer at what the proof data say. The contracted axis is one block, so there is a
  single control case: every window is live at every point, the accumulator is taken at whatever the invariant holds
  for it (the body overwrites it before reading it) and handed back at whatever the body left, and the output
  window's buffer ends at the closing term over the point's operand blocks.
-/
import proofs.«113703_j70265664962673_1_alg».proof.Proof.NetBits.EncodeBody

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def encodeBodyPre (c : Dev nD) (t : Fin cfg0.N) : sProp 𝕄 :=
  iprop((encodeDat V c).Φ t.castSucc ∗ (encodeDat V c).owesAt () t.castSucc
    ∗ (∃ d, owns (c : Thread nD τ) (encodeSt0 t) fullShare ((encodeDat V c).before 0 t d))
    ∗ (∃ d, owns (c : Thread nD τ) (encodeSt1 t) fullShare ((encodeDat V c).before 1 t d))
    ∗ (∃ d, owns (c : Thread nD τ) (encodeSt2 t) fullShare ((encodeDat V c).before 2 t d))
    ∗ (∃ d, owns (c : Thread nD τ) (encodeSt3 t) fullShare ((encodeDat V c).before 3 t d))
    ∗ (∃ d, owns (c : Thread nD τ) (encodeSt4 t) fullShare ((encodeDat V c).before 4 t d))
    ∗ (∃ d, owns (c : Thread nD τ) (encodeSt5 t) fullShare ((encodeDat V c).before 5 t d)))

/-- and what it returns. -/
def encodeBodyPost (c : Dev nD) (t : Fin cfg0.N) : sProp 𝕄 :=
  iprop((encodeDat V c).Φ t.succ ∗ (encodeDat V c).owesAt () t.succ
    ∗ (encodeDat V c).leavesExact 0 t
    ∗ (encodeDat V c).leavesExact 1 t
    ∗ (encodeDat V c).leavesExact 2 t
    ∗ (encodeDat V c).leavesExact 3 t
    ∗ (encodeDat V c).leavesExact 4 t
    ∗ (encodeDat V c).leavesExact 5 t)

set_option maxHeartbeats 4000000 in
/-- The body at any point. -/
theorem encode_sound_body (c : Dev nD) (t : Fin cfg0.N) :
    encodeBodyPre V c t ⊢ wp frame (wpE (defs₀ (F := F)) Variants.none c none) Set.univ (bodyAt0 t) (fun _ => encodeBodyPost V c t) := by
  unfold encodeBodyPre encodeBodyPost bodyAt0
  simp only [encode_before0, encode_before1, encode_before2, encode_before3, encode_before4]
  rw [show (encodeDat V c).owesAt () t.succ = (encodeDat V c).owesAt () t.castSucc from rfl]
  rw [show (encodeDat V c).Φ t.succ = Pipeline.ΦA spec0 c from rfl, show (encodeDat V c).Φ t.castSucc = Pipeline.ΦA spec0 c from rfl, encodePhiA_eq]
  rw [show (encodeDat V c).leavesExact 0 t = owns (c : Thread nD τ) (encodeSt0 t) fullShare ((encodeDat V c).after 0 t) from by
    unfold Dat.leavesExact; rw [encode_live0 t], encodeDat_after0]
  rw [show (encodeDat V c).leavesExact 1 t = owns (c : Thread nD τ) (encodeSt1 t) fullShare ((encodeDat V c).after 1 t) from by
    unfold Dat.leavesExact; rw [encode_live1 t], encodeDat_after1]
  rw [show (encodeDat V c).leavesExact 2 t = owns (c : Thread nD τ) (encodeSt2 t) fullShare ((encodeDat V c).after 2 t) from by
    unfold Dat.leavesExact; rw [encode_live2 t], encodeDat_after2]
  rw [show (encodeDat V c).leavesExact 3 t = owns (c : Thread nD τ) (encodeSt3 t) fullShare ((encodeDat V c).after 3 t) from by
    unfold Dat.leavesExact; rw [encode_live3 t], encodeDat_after3]
  rw [show (encodeDat V c).leavesExact 4 t = owns (c : Thread nD τ) (encodeSt4 t) fullShare ((encodeDat V c).after 4 t) from by
    unfold Dat.leavesExact; rw [encode_live4 t], encodeDat_after4]
  rw [show (encodeDat V c).leavesExact 5 t = owns (c : Thread nD τ) (encodeSt5 t) fullShare ((encodeDat V c).after 5 t) from by
    unfold Dat.leavesExact; rw [encode_live5 t], encodeDat_after5]
  unfold encodeOut
  iintro ⟨⟨⟨⟨%ds, HS⟩, Hrest⟩, Hg⟩, Ho, ⟨%d0, H0⟩, ⟨%d1, H1⟩, ⟨%d2, H2⟩, ⟨%d3, H3⟩, ⟨%d4, H4⟩, ⟨%d5, H5⟩⟩
  iapply (encode_body c Set.univ (grid0.coords t) _ _ _ _ _ _ _ _ _ _ _ _ _ _ (encodeFirst_all t) (encodeLast_all t)
    (encodeBlk V c 0 t) (encodeBlk V c 1 t) (encodeBlk V c 2 t) (encodeBlk V c 3 t) (encodeBlk V c 4 t) _ ds _)
  isplitl [H0]; · iexact H0
  isplitl [H1]; · iexact H1
  isplitl [H2]; · iexact H2
  isplitl [H3]; · iexact H3
  isplitl [H4]; · iexact H4
  isplitl [H5]; · iexact H5
  isplitl [HS]; · iexact HS
  iintro ⟨H0, H1, H2, H3, H4, H5, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem encode_body_obligation (c : Dev nD) : BodyObligation (encodeDat (F := F) V c) (defs₀ (F := F)) Variants.none () Set.univ := fun t => by
  rw [bigSep_W0, bigSep_W0]
  exact encode_sound_body V c t

/-- What the launch hands the region is the invariant before the first point: the two are the same proposition. -/
theorem encode_hin (c : Dev nD) : Pipeline.ΦA spec0 c ⊢ (encodeDat V c).Φ 0 := by
  rw [show (encodeDat V c).Φ 0 = Pipeline.ΦA spec0 c from rfl]
  try exact Idealize.SL.BI.Entails.refl _

/-- After the last point the invariant is the class invariant again: the same proposition. -/
theorem encode_hout (c : Dev nD) : (encodeDat V c).Φ (Fin.last cfg0.N) ⊢ Pipeline.ΦA spec0 c := by
  rw [show (encodeDat V c).Φ (Fin.last cfg0.N) = Pipeline.ΦA spec0 c from rfl]
  try exact Idealize.SL.BI.Entails.refl _

end

end Cert.Kernel.Net

end
-- ==== Proof.NetBits.RegEncode.lean ====
/-
  The first product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.NetBits.RunData
import proofs.«113703_j70265664962673_1_alg».proof.Proof.NetBits.EncodeSeg

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem encode_entry_arr (c : Dev nD) (w : Fin cfg0.W) :
    (encodeDat (VA m) c).A w = V5 m c (Pipeline.arrRef spec0 w) :=
  (encodeDat_A (VA m) c w).trans (congrFun (V5_outs m c).symm _)

/-- At the region's exit each of its arrays holds what the pipeline leaves: an input as entered, the output at the
    write-backs' fold. -/
theorem encode_exit_arr (c : Dev nD) (w : Fin cfg0.W) :
    (encodeDat (VA m) c).arrAt w cfg0.N = V6 m (outs m) c (Pipeline.arrRef spec0 w) := by
  by_cases hw : w = 5
  · subst hw
    exact ((Function.update_self (Proc.devRef .tc main_v22) (outs m 6 main_v22 c) (V5 m c)).trans (outs_v22 m c)).symm
  · have hin : (cfg0.win w).isOut = false := by revert hw; revert w; decide
    have hne : Pipeline.arrRef spec0 w ∉ ([main_v22] : List (Ref sig .tc)) := by revert hw; revert w; decide
    exact ((encodeDat (VA m) c).arrAt_in w hin _).trans ((encode_entry_arr m c w).trans (V6_of m (outs m) c _ hne).symm)

/-- Every other buffer is as the region found it. -/
theorem encode_exit_rest (c : Dev nD) :
    ∀ b, b ∉ Finset.univ.image (Pipeline.arrRef spec0) → V6 m (outs m) c b = V5 m c b :=
  fun b hb => V6_of m (outs m) c b (fun h => hb (by
    rw [List.mem_singleton] at h; subst h
    exact Finset.mem_image.mpr ⟨5, Finset.mem_univ _, rfl⟩))

-- a library lemma stated over the pinned configuration unifies with the printed one only when unification may unfold plain
-- definitions in a metavariable's type
set_option backward.isDefEq.respectTransparency.types false in
/-- The region over the thread state. -/
def regEncode : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (encode_body_obligation (VA m) c).loose
  hwaits := Pipeline.hwaits_of_owed_zero _ _ _ _ Lz lvz 0 fun _ _ => rfl
  pre c := iprop(StableHlo.held (c : Thread nD τ) (Pipeline.ucRefs τ sig) (V5 m c) ∗ Rz c)
  post c := iprop(StableHlo.held (c : Thread nD τ) (Pipeline.ucRefs τ sig) (V6 m (outs m) c) ∗ Rz c)
  X c := iprop(∃ r, prngReg c r)
  Y c := iprop(∃ r, prngReg c r)
  Z c := Pipeline.unscopedRest (Ix := Unit) (Name := ℕ) (U := UR sig nD τ) (Lvl := ℕ) spec0 c (fun b => V5 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => V5 m c b) (encode_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m 0 c).Φ 0 := encode_hin (VA m) c
    iintro ⟨Hp, -, Hr⟩
    iapply h
    isplitl [Hr]; · iexact Hr
    iexact Hp
  hout c := by
    rw [Pipeline.ownSems0_none]
    have h : (pdats m 0 c).Φ (Fin.last cfg0.N) ⊢ (iprop(Pipeline.scopedRest spec0 c ∗ ∃ r, prngReg c r) : sProp 𝕄) := encode_hout (VA m) c
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V5 m c b) (fun b => V6 m (outs m) c b) ((pdats m 0 c).arrAt · cfg0.N) (encode_exit_arr m c) (encode_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Net

end
-- ==== Proof.NetBits.LatentSeg.lean ====
/-
  The body obligation of the second product's pipeline: at every grid point the kernel body, handed the invariant and
  each window's current staging buffer at what the pipeline put there, returns the invariant at the next position and
  each buffer at what the proof data say. The point's position modulo 8 selects the control case; the accumulator the
  invariant carries is what the previous point left (anything, before the first point).
-/
import proofs.«113703_j70265664962673_1_alg».proof.Proof.NetBits.LatentData

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def latentBodyPre (c : Dev nD) (t : Fin cfg1.N) : sProp 𝕄 :=
  iprop((latentDat V c).Φ t.castSucc ∗ (latentDat V c).owesAt () t.castSucc
    ∗ (∃ d, owns (c : Thread nD τ) (latentSt0 t) fullShare ((latentDat V c).before 0 t d))
    ∗ (∃ d, owns (c : Thread nD τ) (latentSt1 t) fullShare ((latentDat V c).before 1 t d))
    ∗ (∃ d, owns (c : Thread nD τ) (latentSt2 t) fullShare ((latentDat V c).before 2 t d))
    ∗ (∃ d, owns (c : Thread nD τ) (latentSt3 t) fullShare ((latentDat V c).before 3 t d)))

/-- and what it returns. -/
def latentBodyPost (c : Dev nD) (t : Fin cfg1.N) : sProp 𝕄 :=
  iprop((latentDat V c).Φ t.succ ∗ (latentDat V c).owesAt () t.succ
    ∗ (latentDat V c).leavesExact 0 t
    ∗ (latentDat V c).leavesExact 1 t
    ∗ (latentDat V c).leavesExact 2 t
    ∗ (latentDat V c).leavesExact 3 t)

set_option maxHeartbeats 4000000 in
/-- The body at any point. -/
theorem latent_sound_body (c : Dev nD) (t : Fin cfg1.N) :
    latentBodyPre V c t ⊢ wp frame (wpE (defs₀ (F := F)) Variants.none c none) Set.univ (bodyAt1 t) (fun _ => latentBodyPost V c t) := by
  unfold latentBodyPre latentBodyPost bodyAt1
  simp only [latent_before0, latent_before1, latent_before2]
  rw [show (latentDat V c).owesAt () t.succ = (latentDat V c).owesAt () t.castSucc from rfl]
  rw [show (latentDat V c).Φ t.succ = latentPhi V c (t.val + 1) t.isLt from rfl, latentPhi_succ]
  rw [show (latentDat V c).leavesExact 0 t = owns (c : Thread nD τ) (latentSt0 t) fullShare ((latentDat V c).after 0 t) from by
    unfold Dat.leavesExact; rw [latent_live0 t], latentDat_after0]
  rw [show (latentDat V c).leavesExact 1 t = owns (c : Thread nD τ) (latentSt1 t) fullShare ((latentDat V c).after 1 t) from by
    unfold Dat.leavesExact; rw [latent_live1 t], latentDat_after1]
  rw [show (latentDat V c).leavesExact 2 t = owns (c : Thread nD τ) (latentSt2 t) fullShare ((latentDat V c).after 2 t) from by
    unfold Dat.leavesExact; rw [latent_live2 t], latentDat_after2]
  have hN : t.val < 128 := lt_of_lt_of_eq t.isLt (show cfg1.N = 128 from N_1)
  by_cases h0 : t.val % 8 = 0
  · have hf : latentFirst (grid1.coords t) := (latentFirst_iff t).mpr h0
    have hl : ¬latentLast (grid1.coords t) := fun h => by have := (latentLast_iff t).mp h; omega
    rw [Dat.leavesExact_idle (latentDat V c) 3 t (latent_out_idle t hl) (latent_out_noflush t hl)]
    rw [latentAcc_first V c t h0]
    by_cases hz : t.val = 0
    · rw [latentDat_Phi_castSucc V c t, latentPhi_zero V c _ _ hz, latentPhiA_eq]
      iintro ⟨⟨⟨⟨%ds, HS⟩, Hrest⟩, Hg⟩, Ho, ⟨%d0, H0⟩, ⟨%d1, H1⟩, ⟨%d2, H2⟩, ⟨%d3, H3⟩⟩
      iapply (latent_first c Set.univ (grid1.coords t) _ _ _ _ _ _ _ _ _ _ hf hl (latentBlk V c 0 t) (latentBlk V c 1 t) (latentBlk V c 2 t) _ ds _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [latentDat_Phi_castSucc V c t, latentPhi_pos V c _ _ hz]
      iintro ⟨⟨⟨HS, Hrest⟩, Hg⟩, Ho, ⟨%d0, H0⟩, ⟨%d1, H1⟩, ⟨%d2, H2⟩, ⟨%d3, H3⟩⟩
      iapply (latent_first c Set.univ (grid1.coords t) _ _ _ _ _ _ _ _ _ _ hf hl (latentBlk V c 0 t) (latentBlk V c 1 t) (latentBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hf : ¬latentFirst (grid1.coords t) := fun h => h0 ((latentFirst_iff t).mp h)
    have hz : t.val ≠ 0 := fun h => h0 (by rw [h])
    rw [latentAcc_next V c t h0]
    rw [latentDat_Phi_castSucc V c t, latentPhi_pos V c _ _ hz]
    by_cases h7 : t.val % 8 = 7
    · have hl : latentLast (grid1.coords t) := (latentLast_iff t).mpr h7
      rw [show (latentDat V c).leavesExact 3 t = owns (c : Thread nD τ) (latentSt3 t) fullShare ((latentDat V c).after 3 t) from by
        unfold Dat.leavesExact; rw [latent_out_live t hl], latentDat_after3]
      unfold latentOut
      rw [latentAcc_next V c t h0]
      iintro ⟨⟨⟨HS, Hrest⟩, Hg⟩, Ho, ⟨%d0, H0⟩, ⟨%d1, H1⟩, ⟨%d2, H2⟩, ⟨%d3, H3⟩⟩
      iapply (latent_last c Set.univ (grid1.coords t) _ _ _ _ _ _ _ _ _ _ hf hl (latentBlk V c 0 t) (latentBlk V c 1 t) (latentBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hl : ¬latentLast (grid1.coords t) := fun h => h7 ((latentLast_iff t).mp h)
      rw [Dat.leavesExact_idle (latentDat V c) 3 t (latent_out_idle t hl) (latent_out_noflush t hl)]
      iintro ⟨⟨⟨HS, Hrest⟩, Hg⟩, Ho, ⟨%d0, H0⟩, ⟨%d1, H1⟩, ⟨%d2, H2⟩, ⟨%d3, H3⟩⟩
      iapply (latent_mid c Set.univ (grid1.coords t) _ _ _ _ _ _ _ _ _ _ hf hl (latentBlk V c 0 t) (latentBlk V c 1 t) (latentBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem latent_body_obligation (c : Dev nD) : BodyObligation (latentDat (F := F) V c) (defs₀ (F := F)) Variants.none () Set.univ := fun t => by
  rw [bigSep_W1, bigSep_W1]
  exact latent_sound_body V c t

/-- What the launch hands the region is the invariant before the first point. -/
theorem latent_hin (c : Dev nD) : Pipeline.ΦA spec1 c ⊢ (latentDat V c).Φ 0 := by
  rw [show (latentDat V c).Φ 0 = latentPhi V c 0 (Nat.zero_le _) from rfl, latentPhi_zero V c 0 _ rfl]
  try exact Idealize.SL.BI.Entails.refl _

/-- After the last point the invariant gives the class invariant back: the accumulator's contents are forgotten. -/
theorem latent_hout (c : Dev nD) : (latentDat V c).Φ (Fin.last cfg1.N) ⊢ Pipeline.ΦA spec1 c := by
  rw [show (latentDat V c).Φ (Fin.last cfg1.N) = latentPhi V c (Fin.last cfg1.N).val (Nat.le_of_lt_succ (Fin.last cfg1.N).isLt) from rfl,
    latentPhi_pos V c _ _ (by rw [Fin.val_last]; have : cfg1.N = 128 := N_1; omega), latentPhiA_eq]
  iintro ⟨⟨HS, Hrest⟩, Hg⟩
  isplitl [HS Hrest]
  · isplitl [HS]
    · iexists _; iexact HS
    iexact Hrest
  iexact Hg

end

end Cert.Kernel.Net

end
-- ==== Proof.NetBits.RegLatent.lean ====
/-
  The second product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.NetBits.RunData
import proofs.«113703_j70265664962673_1_alg».proof.Proof.NetBits.LatentSeg

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem latent_entry_arr (c : Dev nD) (w : Fin cfg1.W) :
    (latentDat (VB m) c).A w = V7 m (outs m) c (Pipeline.arrRef spec1 w) :=
  (latentDat_A (VB m) c w).trans (congrFun (V7_outs m c).symm _)

/-- At the region's exit each of its arrays holds what the pipeline leaves: an input as entered, the output at the
    write-backs' fold. -/
theorem latent_exit_arr (c : Dev nD) (w : Fin cfg1.W) :
    (latentDat (VB m) c).arrAt w cfg1.N = V8 m (outs m) c (Pipeline.arrRef spec1 w) := by
  by_cases hw : w = 3
  · subst hw
    exact ((Function.update_self (Proc.devRef .tc main_v24) (outs m 8 main_v24 c) (V7 m (outs m) c)).trans (outs_v24 m c)).symm
  · have hin : (cfg1.win w).isOut = false := by revert hw; revert w; decide
    have hne : Pipeline.arrRef spec1 w ∉ ([main_v24] : List (Ref sig .tc)) := by revert hw; revert w; decide
    exact ((latentDat (VB m) c).arrAt_in w hin _).trans ((latent_entry_arr m c w).trans (V8_of m (outs m) c _ hne).symm)

/-- Every other buffer is as the region found it. -/
theorem latent_exit_rest (c : Dev nD) :
    ∀ b, b ∉ Finset.univ.image (Pipeline.arrRef spec1) → V8 m (outs m) c b = V7 m (outs m) c b :=
  fun b hb => V8_of m (outs m) c b (fun h => hb (by
    rw [List.mem_singleton] at h; subst h
    exact Finset.mem_image.mpr ⟨3, Finset.mem_univ _, rfl⟩))

-- a library lemma stated over the pinned configuration unifies with the printed one only when unification may unfold plain
-- definitions in a metavariable's type
set_option backward.isDefEq.respectTransparency.types false in
/-- The region over the thread state. -/
def regLatent : RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (latent_body_obligation (VB m) c).loose
  hwaits := Pipeline.hwaits_of_owed_zero _ _ _ _ Lz lvz 1 fun _ _ => rfl
  pre c := iprop(StableHlo.held (c : Thread nD τ) (Pipeline.ucRefs τ sig) (V7 m (outs m) c) ∗ Rz c)
  post c := iprop(StableHlo.held (c : Thread nD τ) (Pipeline.ucRefs τ sig) (V8 m (outs m) c) ∗ Rz c)
  X c := iprop(∃ r, prngReg c r)
  Y c := iprop(∃ r, prngReg c r)
  Z c := Pipeline.unscopedRest (Ix := Unit) (Name := ℕ) (U := UR sig nD τ) (Lvl := ℕ) spec1 c (fun b => V7 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V7 m (outs m) c b) (latent_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m 1 c).Φ 0 := latent_hin (VB m) c
    iintro ⟨Hp, -, Hr⟩
    iapply h
    isplitl [Hr]; · iexact Hr
    iexact Hp
  hout c := by
    rw [Pipeline.ownSems0_none]
    have h : (pdats m 1 c).Φ (Fin.last cfg1.N) ⊢ (iprop(Pipeline.scopedRest spec1 c ∗ ∃ r, prngReg c r) : sProp 𝕄) := latent_hout (VB m) c
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V7 m (outs m) c b) (fun b => V8 m (outs m) c b) ((pdats m 1 c).arrAt · cfg1.N) (latent_exit_arr m c) (latent_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Net

end
-- ==== Proof.NetBits.ExpandBody.lean ====
/-
  The body of the third product's kernel (the expansion `t = z · W₂ᵀ + d₁`) at one grid point, on whole staging
  buffers. The contracted axis is a single block, so the point does everything in one run: the accumulator is set to
  the zero block, then to zero plus the product of the first operand block with the transpose of the second, and the
  output block is that sum plus the bias row broadcast down the rows, rounded to bf16. The theorem says exactly what
  the accumulator and the output buffer hold afterwards, as the kernel's own pure terms of what the operand buffers
  held before; what the accumulator and the output buffer held before does not matter.
-/
import proofs.«113703_j70265664962673_1_alg».proof.Proof.NetBits.ExpandData

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

set_option maxHeartbeats 1000000 in
/-- Every point: whatever the accumulator and the output buffer held, the accumulator ends at `0 + a · bᵀ` and the
    output buffer at that plus the bias row, rounded to bf16; the operand buffers are untouched. -/
theorem expand_body (c : Dev nD) (E : Set ℕ) (i : grid2.Coords)
    (arg3 : Memref sig .tc .vmem S1024x2048 .bf16) (harg3 : arg3.IsWhole) (arg4 : Memref sig .tc .vmem S1024x2048 .bf16) (harg4 : arg4.IsWhole)
    (arg5 : Memref sig .tc .vmem S1x1024 .f32) (harg5 : arg5.IsWhole) (arg6 : Memref sig .tc .vmem S1024x1024 .bf16) (harg6 : arg6.IsWhole)
    (arg7 : Memref sig .tc .vmem S1024x1024 .f32) (harg7 : arg7.IsWhole)
    (hc0 : expandFirst i) (hc1 : expandLast i)
    (x0 x1 : Vec F S1024x2048 .bf16) (x2 : Vec F S1x1024 .f32) (xo : Vec F S1024x1024 .bf16) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k2_pay3 (k2_pay2 k2_pay1 x0 x1) x2) ∗ owns (c : Thread nD τ) arg7 fullShare (k2_pay2 k2_pay1 x0 x1)) -∗ K ⟨⟩))
      ⊢ wp frame (wpE (defs₀ (F := F)) Variants.none c none) E (cc2_kernel i arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  obtain rfl := harg3.eq_unread hf0; obtain rfl := harg4.eq_unread hf1; obtain rfl := harg5.eq_unread hf2
  obtain rfl := harg6.eq_unread hfo; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [HO]
  · iexists _; isplitr
    swap; · iexact HO
    ipureintro
    sl_unfold_words
    rw [View.read_writes_eq_canon _ _ _ (fun y => ⟨_, List.mem_singleton_self _, View.mem_set_unit_zero off2_zero inb_S1024x1024_S1024x1024_0_0 y⟩),
      View.canon_unit_zero off2_zero]
    simp only [View.readAt_eq_ld, View.readCov_cons_toLoadRect, View.readCov_unit_zero (S := S1024x1024) _ off2_zero, harg7.read_unread, harg3.read_unread, harg4.read_unread, harg5.read_unread, harg6.read_unread, View.ld_unit_zero (S := S1024x1024) off2_zero, View.ld_unit_zero (S := S1024x2048) off2_zero, View.ld_unit_zero (S := S1x1024) off2_zero]
  iexists _; isplitr
  swap; · iexact HS
  ipureintro
  sl_unfold_words
  rw [View.read_writes_eq_canon _ _ _ (fun y => ⟨_, List.mem_cons.mpr (Or.inl rfl), View.mem_set_unit_zero off2_zero inb_S1024x1024_S1024x1024_0_0 y⟩),
    View.canon_cons_unit_zero off2_zero]
  simp only [View.readAt_eq_ld, View.readCov_unit_zero (S := S1024x1024) _ off2_zero, harg7.read_unread, harg3.read_unread, harg4.read_unread, harg5.read_unread, harg6.read_unread, View.ld_unit_zero (S := S1024x1024) off2_zero, View.ld_unit_zero (S := S1024x2048) off2_zero, View.ld_unit_zero (S := S1x1024) off2_zero]

end Cert.Kernel.Net

end
-- ==== Proof.NetBits.ExpandSeg.lean ====
/-
  The body obligation of the third product's pipeline (the expansion `t = z · W₂ᵀ + d₁`): at every grid point the
  kernel body, handed the invariant and each window's current staging buffer at what the pipeline put there, returns
  the invariant and each buffer at what the proof data say. The contracted axis is one block, so there is a single
  control case and nothing is carried from point to point: the accumulator enters at whatever it held, is restarted,
  and is forgotten again afterwards; the output window's buffer ends at the zero block plus the product of the two
  operand blocks, plus the bias row, rounded to bf16.
-/
import proofs.«113703_j70265664962673_1_alg».proof.Proof.NetBits.ExpandBody

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def expandBodyPre (c : Dev nD) (t : Fin cfg2.N) : sProp 𝕄 :=
  iprop((expandDat V c).Φ t.castSucc ∗ (expandDat V c).owesAt () t.castSucc
    ∗ (∃ d, owns (c : Thread nD τ) (expandSt0 t) fullShare ((expandDat V c).before 0 t d))
    ∗ (∃ d, owns (c : Thread nD τ) (expandSt1 t) fullShare ((expandDat V c).before 1 t d))
    ∗ (∃ d, owns (c : Thread nD τ) (expandSt2 t) fullShare ((expandDat V c).before 2 t d))
    ∗ (∃ d, owns (c : Thread nD τ) (expandSt3 t) fullShare ((expandDat V c).before 3 t d)))

/-- and what it returns. -/
def expandBodyPost (c : Dev nD) (t : Fin cfg2.N) : sProp 𝕄 :=
  iprop((expandDat V c).Φ t.succ ∗ (expandDat V c).owesAt () t.succ
    ∗ (expandDat V c).leavesExact 0 t
    ∗ (expandDat V c).leavesExact 1 t
    ∗ (expandDat V c).leavesExact 2 t
    ∗ (expandDat V c).leavesExact 3 t)

set_option maxHeartbeats 4000000 in
/-- The body at any point: one control case, every window live. -/
theorem expand_sound_body (c : Dev nD) (t : Fin cfg2.N) :
    expandBodyPre V c t ⊢ wp frame (wpE (defs₀ (F := F)) Variants.none c none) Set.univ (bodyAt2 t) (fun _ => expandBodyPost V c t) := by
  unfold expandBodyPre expandBodyPost bodyAt2
  simp only [expand_before0, expand_before1, expand_before2]
  rw [show (expandDat V c).owesAt () t.succ = (expandDat V c).owesAt () t.castSucc from rfl]
  rw [show (expandDat V c).Φ t.succ = Pipeline.ΦA spec2 c from rfl, show (expandDat V c).Φ t.castSucc = Pipeline.ΦA spec2 c from rfl,
    expandPhiA_eq]
  rw [show (expandDat V c).leavesExact 0 t = owns (c : Thread nD τ) (expandSt0 t) fullShare ((expandDat V c).after 0 t) from by
    unfold Dat.leavesExact; rw [expand_live0 t], expandDat_after0]
  rw [show (expandDat V c).leavesExact 1 t = owns (c : Thread nD τ) (expandSt1 t) fullShare ((expandDat V c).after 1 t) from by
    unfold Dat.leavesExact; rw [expand_live1 t], expandDat_after1]
  rw [show (expandDat V c).leavesExact 2 t = owns (c : Thread nD τ) (expandSt2 t) fullShare ((expandDat V c).after 2 t) from by
    unfold Dat.leavesExact; rw [expand_live2 t], expandDat_after2]
  rw [show (expandDat V c).leavesExact 3 t = owns (c : Thread nD τ) (expandSt3 t) fullShare ((expandDat V c).after 3 t) from by
    unfold Dat.leavesExact; rw [expand_live3 t], expandDat_after3]
  unfold expandOut
  iintro ⟨⟨⟨⟨%ds, HS⟩, Hrest⟩, Hg⟩, Ho, ⟨%d0, H0⟩, ⟨%d1, H1⟩, ⟨%d2, H2⟩, ⟨%d3, H3⟩⟩
  iapply (expand_body c Set.univ (grid2.coords t) _ _ _ _ _ _ _ _ _ _ (expandFirst_all t) (expandLast_all t)
    (expandBlk V c 0 t) (expandBlk V c 1 t) (expandBlk V c 2 t) _ ds _)
  isplitl [H0]; · iexact H0
  isplitl [H1]; · iexact H1
  isplitl [H2]; · iexact H2
  isplitl [H3]; · iexact H3
  isplitl [HS]; · iexact HS
  iintro ⟨H0, H1, H2, H3, HS⟩
  isplitl [HS Hrest Hg]
  · isplitl [HS Hrest]
    · isplitl [HS]; · iexists _; iexact HS
      iexact Hrest
    iexact Hg
  isplitl [Ho]; · iexact Ho
  isplitl [H0]; · iexact H0
  isplitl [H1]; · iexact H1
  isplitl [H2]; · iexact H2
  iexact H3

/-- The library's body obligation, at every point. -/
theorem expand_body_obligation (c : Dev nD) : BodyObligation (expandDat (F := F) V c) (defs₀ (F := F)) Variants.none () Set.univ := fun t => by
  rw [bigSep_W2, bigSep_W2]
  exact expand_sound_body V c t

/-- What the launch hands the region is the invariant before the first point: the class invariant itself. -/
theorem expand_hin (c : Dev nD) : Pipeline.ΦA spec2 c ⊢ (expandDat V c).Φ 0 := by
  show Pipeline.ΦA spec2 c ⊢ Pipeline.ΦA spec2 c
  exact Idealize.SL.BI.Entails.refl _

/-- After the last point the invariant is the class invariant again. -/
theorem expand_hout (c : Dev nD) : (expandDat V c).Φ (Fin.last cfg2.N) ⊢ Pipeline.ΦA spec2 c := by
  show Pipeline.ΦA spec2 c ⊢ Pipeline.ΦA spec2 c
  exact Idealize.SL.BI.Entails.refl _

end

end Cert.Kernel.Net

end
-- ==== Proof.NetBits.RegExpand.lean ====
/-
  The third product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.NetBits.RunData
import proofs.«113703_j70265664962673_1_alg».proof.Proof.NetBits.ExpandSeg

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem expand_entry_arr (c : Dev nD) (w : Fin cfg2.W) :
    (expandDat (VC m) c).A w = V9 m (outs m) c (Pipeline.arrRef spec2 w) :=
  (expandDat_A (VC m) c w).trans (congrFun (V9_outs m c).symm _)

/-- At the region's exit each of its arrays holds what the pipeline leaves: an input as entered, the output at the
    write-backs' fold. -/
theorem expand_exit_arr (c : Dev nD) (w : Fin cfg2.W) :
    (expandDat (VC m) c).arrAt w cfg2.N = V10 m (outs m) c (Pipeline.arrRef spec2 w) := by
  by_cases hw : w = 3
  · subst hw
    exact ((Function.update_self (Proc.devRef .tc main_v27) (outs m 10 main_v27 c) (V9 m (outs m) c)).trans (outs_v27 m c)).symm
  · have hin : (cfg2.win w).isOut = false := by revert hw; revert w; decide
    have hne : Pipeline.arrRef spec2 w ∉ ([main_v27] : List (Ref sig .tc)) := by revert hw; revert w; decide
    exact ((expandDat (VC m) c).arrAt_in w hin _).trans ((expand_entry_arr m c w).trans (V10_of m (outs m) c _ hne).symm)

/-- Every other buffer is as the region found it. -/
theorem expand_exit_rest (c : Dev nD) :
    ∀ b, b ∉ Finset.univ.image (Pipeline.arrRef spec2) → V10 m (outs m) c b = V9 m (outs m) c b :=
  fun b hb => V10_of m (outs m) c b (fun h => hb (by
    rw [List.mem_singleton] at h; subst h
    exact Finset.mem_image.mpr ⟨3, Finset.mem_univ _, rfl⟩))

-- a library lemma stated over the pinned configuration unifies with the printed one only when unification may unfold plain
-- definitions in a metavariable's type
set_option backward.isDefEq.respectTransparency.types false in
/-- The region over the thread state. -/
def regExpand : RegionSeg (pcfgs (F := F)) adm (pdats m) () defs₀ 𝒱₀ Lz lvz 2 where
  win := launch2.win.to₀
  block_pos := launch2.block_pos
  stage_whole := launch2.stage_whole
  K := PEmpty
  osem k := k.elim
  ho := Pipeline.OwnSemFacts.none _
  hbody c := (expand_body_obligation (VC m) c).loose
  hwaits := Pipeline.hwaits_of_owed_zero _ _ _ _ Lz lvz 2 fun _ _ => rfl
  pre c := iprop(StableHlo.held (c : Thread nD τ) (Pipeline.ucRefs τ sig) (V9 m (outs m) c) ∗ Rz c)
  post c := iprop(StableHlo.held (c : Thread nD τ) (Pipeline.ucRefs τ sig) (V10 m (outs m) c) ∗ Rz c)
  X c := iprop(∃ r, prngReg c r)
  Y c := iprop(∃ r, prngReg c r)
  Z c := Pipeline.unscopedRest (Ix := Unit) (Name := ℕ) (U := UR sig nD τ) (Lvl := ℕ) spec2 c (fun b => V9 m (outs m) c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b => V9 m (outs m) c b) (expand_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec2 c ∗ ∃ r, prngReg c r) : sProp 𝕄) ⊢ (pdats m 2 c).Φ 0 := expand_hin (VC m) c
    iintro ⟨Hp, -, Hr⟩
    iapply h
    isplitl [Hr]; · iexact Hr
    iexact Hp
  hout c := by
    rw [Pipeline.ownSems0_none]
    have h : (pdats m 2 c).Φ (Fin.last cfg2.N) ⊢ (iprop(Pipeline.scopedRest spec2 c ∗ ∃ r, prngReg c r) : sProp 𝕄) := expand_hout (VC m) c
    iintro H
    ihave H' := h $$ H
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b => V9 m (outs m) c b) (fun b => V10 m (outs m) c b) ((pdats m 2 c).arrAt · cfg2.N) (expand_exit_arr m c) (expand_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Net

end
-- ==== Proof.NetBits.ReconSeg.lean ====
/-
  The body obligation of the fourth product's pipeline: at every grid point the kernel body, handed the invariant and
  each window's current staging buffer at what the pipeline put there, returns the invariant at the next position and
  each buffer at what the proof data say. The point's position modulo 8 selects the control case; the accumulator the
  invariant carries is what the previous point left (anything, before the first point).
-/
import proofs.«113703_j70265664962673_1_alg».proof.Proof.NetBits.ReconData

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def reconBodyPre (c : Dev nD) (t : Fin cfg3.N) : sProp 𝕄 :=
  iprop((reconDat V c).Φ t.castSucc ∗ (reconDat V c).owesAt () t.castSucc
    ∗ (∃ d, owns (c : Thread nD τ) (reconSt0 t) fullShare ((reconDat V c).before 0 t d))
    ∗ (∃ d, owns (c : Thread nD τ) (reconSt1 t) fullShare ((reconDat V c).before 1 t d))
    ∗ (∃ d, owns (c : Thread nD τ) (reconSt2 t) fullShare ((reconDat V c).before 2 t d))
    ∗ (∃ d, owns (c : Thread nD τ) (reconSt3 t) fullShare ((reconDat V c).before 3 t d)))

/-- and what it returns. -/
def reconBodyPost (c : Dev nD) (t : Fin cfg3.N) : sProp 𝕄 :=
  iprop((reconDat V c).Φ t.succ ∗ (reconDat V c).owesAt () t.succ
    ∗ (reconDat V c).leavesExact 0 t
    ∗ (reconDat V c).leavesExact 1 t
    ∗ (reconDat V c).leavesExact 2 t
    ∗ (reconDat V c).leavesExact 3 t)

set_option maxHeartbeats 4000000 in
/-- The body at any point. -/
theorem recon_sound_body (c : Dev nD) (t : Fin cfg3.N) :
    reconBodyPre V c t ⊢ wp frame (wpE (defs₀ (F := F)) Variants.none c none) Set.univ (bodyAt3 t) (fun _ => reconBodyPost V c t) := by
  unfold reconBodyPre reconBodyPost bodyAt3
  simp only [recon_before0, recon_before1, recon_before2]
  rw [show (reconDat V c).owesAt () t.succ = (reconDat V c).owesAt () t.castSucc from rfl]
  rw [show (reconDat V c).Φ t.succ = reconPhi V c (t.val + 1) t.isLt from rfl, reconPhi_succ]
  rw [show (reconDat V c).leavesExact 0 t = owns (c : Thread nD τ) (reconSt0 t) fullShare ((reconDat V c).after 0 t) from by
    unfold Dat.leavesExact; rw [recon_live0 t], reconDat_after0]
  rw [show (reconDat V c).leavesExact 1 t = owns (c : Thread nD τ) (reconSt1 t) fullShare ((reconDat V c).after 1 t) from by
    unfold Dat.leavesExact; rw [recon_live1 t], reconDat_after1]
  rw [show (reconDat V c).leavesExact 2 t = owns (c : Thread nD τ) (reconSt2 t) fullShare ((reconDat V c).after 2 t) from by
    unfold Dat.leavesExact; rw [recon_live2 t], reconDat_after2]
  have hN : t.val < 128 := lt_of_lt_of_eq t.isLt (show cfg3.N = 128 from N_3)
  by_cases h0 : t.val % 8 = 0
  · have hf : reconFirst (grid3.coords t) := (reconFirst_iff t).mpr h0
    have hl : ¬reconLast (grid3.coords t) := fun h => by have := (reconLast_iff t).mp h; omega
    rw [Dat.leavesExact_idle (reconDat V c) 3 t (recon_out_idle t hl) (recon_out_noflush t hl)]
    rw [reconAcc_first V c t h0]
    by_cases hz : t.val = 0
    · rw [reconDat_Phi_castSucc V c t, reconPhi_zero V c _ _ hz, reconPhiA_eq]
      iintro ⟨⟨⟨⟨%ds, HS⟩, Hrest⟩, Hg⟩, Ho, ⟨%d0, H0⟩, ⟨%d1, H1⟩, ⟨%d2, H2⟩, ⟨%d3, H3⟩⟩
      iapply (recon_first c Set.univ (grid3.coords t) _ _ _ _ _ _ _ _ _ _ hf hl (reconBlk V c 0 t) (reconBlk V c 1 t) (reconBlk V c 2 t) _ ds _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [reconDat_Phi_castSucc V c t, reconPhi_pos V c _ _ hz]
      iintro ⟨⟨⟨HS, Hrest⟩, Hg⟩, Ho, ⟨%d0, H0⟩, ⟨%d1, H1⟩, ⟨%d2, H2⟩, ⟨%d3, H3⟩⟩
      iapply (recon_first c Set.univ (grid3.coords t) _ _ _ _ _ _ _ _ _ _ hf hl (reconBlk V c 0 t) (reconBlk V c 1 t) (reconBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hf : ¬reconFirst (grid3.coords t) := fun h => h0 ((reconFirst_iff t).mp h)
    have hz : t.val ≠ 0 := fun h => h0 (by rw [h])
    rw [reconAcc_next V c t h0]
    rw [reconDat_Phi_castSucc V c t, reconPhi_pos V c _ _ hz]
    by_cases h7 : t.val % 8 = 7
    · have hl : reconLast (grid3.coords t) := (reconLast_iff t).mpr h7
      rw [show (reconDat V c).leavesExact 3 t = owns (c : Thread nD τ) (reconSt3 t) fullShare ((reconDat V c).after 3 t) from by
        unfold Dat.leavesExact; rw [recon_out_live t hl], reconDat_after3]
      unfold reconOut
      rw [reconAcc_next V c t h0]
      iintro ⟨⟨⟨HS, Hrest⟩, Hg⟩, Ho, ⟨%d0, H0⟩, ⟨%d1, H1⟩, ⟨%d2, H2⟩, ⟨%d3, H3⟩⟩
      iapply (recon_last c Set.univ (grid3.coords t) _ _ _ _ _ _ _ _ _ _ hf hl (reconBlk V c 0 t) (reconBlk V c 1 t) (reconBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hl : ¬reconLast (grid3.coords t) := fun h => h7 ((reconLast_iff t).mp h)
      rw [Dat.leavesExact_idle (reconDat V c) 3 t (recon_out_idle t hl) (recon_out_noflush t hl)]
      iintro ⟨⟨⟨HS, Hrest⟩, Hg⟩, Ho, ⟨%d0, H0⟩, ⟨%d1, H1⟩, ⟨%d2, H2⟩, ⟨%d3, H3⟩⟩
      iapply (recon_mid c Set.univ (grid3.coords t) _ _ _ _ _ _ _ _ _ _ hf hl (reconBlk V c 0 t) (reconBlk V c 1 t) (reconBlk V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem recon_body_obligation (c : Dev nD) : BodyObligation (reconDat (F := F) V c) (defs₀ (F := F)) Variants.none () Set.univ := fun t => by
  rw [bigSep_W3, bigSep_W3]
  exact recon_sound_body V c t

/-- What the launch hands the region is the invariant before the first point. -/
theorem recon_hin (c : Dev nD) : Pipeline.ΦA spec3 c ⊢ (reconDat V c).Φ 0 := by
  rw [show (reconDat V c).Φ 0 = reconPhi V c 0 (Nat.zero_le _) from rfl, reconPhi_zero V c 0 _ rfl]
  try exact Idealize.SL.BI.Entails.refl _

/-- After the last point the invariant gives the class invariant back: the accumulator's contents are forgotten. -/
theorem recon_hout (c : Dev nD) : (reconDat V c).Φ (Fin.last cfg3.N) ⊢ Pipeline.ΦA spec3 c := by
  rw [show (reconDat V c).Φ (Fin.last cfg3.N) = reconPhi V c (Fin.last cfg3.N).val (Nat.le_of_lt_succ (Fin.last cfg3.N).isLt) from rfl,
    reconPhi_pos V c _ _ (by rw [Fin.val_last]; have : cfg3.N = 128 := N_3; omega), reconPhiA_eq]
  iintro ⟨⟨HS, Hrest⟩, Hg⟩
  isplitl [HS Hrest]
  · isplitl [HS]
    · iexists _; iexact HS
    iexact Hrest
  iexact Hg

end

end Cert.Kernel.Net

end
-- ==== Proof.NetBits.RegRecon.lean ====
/-
  The fourth product's region as a segment of @main: entered with every unscoped buffer at the contents the host
  operations before it leave, left with its output array at what its write-backs fold to and every other buffer as
  entered. Its arrays are split out of the unscoped buffers on entry and put back on exit; the generator register
  goes into the kernel's invariant and comes back; the core owes nothing; the kernel has no semaphore of its own.
-/
import proofs.«113703_j70265664962673_1_alg».proof.Proof.NetBits.RunData
import proofs.«113703_j70265664962673_1_alg».proof.Proof.NetBits.ReconSeg

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ)

/-- The region's proof data take the arrays at the contents the region is entered with. -/
theorem recon_entry_arr (c : Dev nD) (w : Fin cfg3.W) :
    (reconDat (VD m) c).A w = V11 m (outs m) c (Pipeline.arrRef spec3 w) :=
  (reconDat_A (VD m) c w).trans (congrFun (V11_outs m c).symm _)

/-- At the region's exit each of its arrays holds what the pipeline leaves: an input as entered, the output at the
    write-backs' fold. -/
theorem recon_exit_arr (c : Dev nD) (w : Fin cfg3.W) :
    (reconDat (VD m) c).arrAt w cfg3.N = V12 m (outs m) c (Pipeline.arrRef spec3 w) := by
  by_cases hw : w = 3
  · subst hw
    exact ((Function.update_self (Proc.devRef .tc main_v29) (outs m 12 main_v29 c) (V11 m (outs m) c)).trans (outs_v29 m c)).symm
  · have hin : (cfg3.win w).isOut = false := by revert hw; revert w; decide
    have hne : Pipeline.arrRef spec3 w ∉ ([main_v29] : List (Ref sig .tc)) := by revert hw; revert w; decide
    exact ((reconDat (VD m) c).arrAt_in w hin _).trans ((recon_entry_arr m c w).trans (V12_of m (outs m) c _ hne).symm)

/-- Every other buffer is as the region found it. -/
theorem recon_exit_rest (c : Dev nD) :
    ∀ b, b ∉ Finset.univ.image (Pipeline.arrRef spec3) → V12 m (outs m) c b = V11 m (outs m) c b :=
  fun b hb => V12_of m (outs m) c b (fun h => hb (by
    rw [List.mem_singleton] at h; subst h
    exact Finset.mem_image.mpr ⟨3, Finset.mem_univ _, rfl⟩))

-- a library lemma stated over the pinned configuration unifies with the printed one only when unification may unfold plain
-- definitions in a metavariable's type
set_option backward.isDefEq.respectTransparency.types false in
/-- The region over the thread state. -/
def regRecon : RegionSeg (pcfgs (F := F)) adm (pdats m) () defs₀ 𝒱₀ Lz lvz 3 where
  win := launch3.win.to₀
  block_pos := launch3.block_pos
  stage_whole := launch3.stage_whole
  K := PEmpty
  osem k := k.elim
  ho := Pipeline.OwnSemFacts.none _
  hbody c := (recon_body_obligation (VD m) c).loose
  hwaits := Pipeline.hwaits_of_owed_zero _ _ _ _ Lz lvz 3 fun _ _ => rfl
  pre c := iprop(StableHlo.held (c : Thread nD τ) (Pipeline.ucRefs τ sig) (V11 m (outs m) c) ∗ Rz c)
  post c := iprop(StableHlo.held (c : Thread nD τ) (Pipeline.ucRefs τ sig) (V12 m (outs m) c) ∗ Rz c)
  X c := iprop(∃ r, prngReg c r)
  Y c := iprop(∃ r, prngReg c r)
  Z c := Pipeline.unscopedRest (Ix := Unit) (Name := ℕ) (U := UR sig nD τ) (Lvl := ℕ) spec3 c (fun b => V11 m (outs m) c b)
  hentry c := by
    rw [Pipeline.ownSems0_none]
    have hsplit := Pipeline.arrays_of_unscopedBufs (p := 3) (pcfgs (F := F)) adm (pdats m) launch3.win launch3.arr_whole c
      ((pdats m 3 c).share_full fun _ => rfl) (fun b => V11 m (outs m) c b) (recon_entry_arr m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec3 c ∗ ∃ r, prngReg c r) : sProp 𝕄) ⊢ (pdats m 3 c).Φ 0 := recon_hin (VD m) c
    iintro ⟨Hp, -, Hr⟩
    iapply h
    isplitl [Hr]; · iexact Hr
    iexact Hp
  hout c := by
    rw [Pipeline.ownSems0_none]
    have h : (pdats m 3 c).Φ (Fin.last cfg3.N) ⊢ (iprop(Pipeline.scopedRest spec3 c ∗ ∃ r, prngReg c r) : sProp 𝕄) := recon_hout (VD m) c
    iintro H
    ihave H' := h $$ H
    icases H' with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (fun b => V11 m (outs m) c b) (fun b => V12 m (outs m) c b) ((pdats m 3 c).arrAt · cfg3.N) (recon_exit_arr m c) (recon_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Net

end
-- ==== Proof.NetBits.Run.lean ====
/-
  The whole program's run, with every region's record supplied: every weakly fair execution of @main terminates, the
  two results end at what the last boundary's valuation says (the fourth region's and the second region's write-backs
  folded), and every argument ends as launched. Nothing is owed between cores and no level is assigned; the generator
  register rides along at some state.
-/
import proofs.«113703_j70265664962673_1_alg».proof.Proof.NetBits.RunCond
import proofs.«113703_j70265664962673_1_alg».proof.Proof.NetBits.RegEncode
import proofs.«113703_j70265664962673_1_alg».proof.Proof.NetBits.RegLatent
import proofs.«113703_j70265664962673_1_alg».proof.Proof.NetBits.RegExpand
import proofs.«113703_j70265664962673_1_alg».proof.Proof.NetBits.RegRecon

set_option maxRecDepth 16384

noncomputable section

namespace Cert.Kernel.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Idealize.ShloMosaic.Pipeline (Seg HostSeg RegionSeg)
variable {F : FTy → Type} [FloatOps F]

local notation "𝕄" => MT nD τ sig Unit (Elt F) ℕ (UR sig nD τ) ℕ

variable (m : (ℓ : Loc nD τ sig) → Buf (Elt F) ℓ) (ρ : Dev nD → PrngReg)

-- the conditional run's implicit arguments are found by unifying its conclusion with this one, which takes unfolding
-- plain definitions in a metavariable's type
set_option backward.isDefEq.respectTransparency.types false in
theorem run_all : θ_run defs (onTc (τ := τ) (main (F := F))) ⟨m, fun _ => 0, ρ⟩ (fun r => ∀ c : Dev nD,
      r.2.mem ((c.tc : Thread nD τ).loc main_v29) = V12 m (outs m) c main_v29
      ∧ r.2.mem ((c.tc : Thread nD τ).loc main_v24) = V12 m (outs m) c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond m (Ix := Unit) (U := UR sig nD τ) (Lvl := ℕ) emb₁ () 𝒱₀ Lz lvz (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rz c)
    (hE0 := by
      refine Pipeline.initEach Lz lvz fun c => ?_
      iintro ⟨⟨-, HO, -, Hp, -⟩, -⟩
      imodintro
      isplitl [Hp]; · iexists _; iexact Hp
      iexists ∅; iexact HO)
    (hE4 := fun c => by
      iintro ⟨-, HO⟩
      iexact HO)
    (regEncode m) (fun _ => .rfl) (fun _ => .rfl)
    (regLatent m) (fun _ => .rfl) (fun _ => .rfl)
    (regExpand m) (fun _ => .rfl) (fun _ => .rfl)
    (regRecon m) (fun _ => .rfl) (fun _ => .rfl)

end Cert.Kernel.Net

end
-- ==== Proof.Net.Spec.lean ====
/-
  The network both programs compute, as functions of whole arrays over the extended reals, entry by entry.

  Four stages: `h = act (x · W₁ + b₁)`, `z = h · W₂ + b₂`, `t = z · W₂ᵀ + d₁`, `r = t · W₁ᵀ + d₂`. A product is the plain
  sum over the contracted axis; nothing of a block structure or of an order of accumulation is left in it. The
  activation at one unit, with `c = softplus c_raw` and `ρ = logistic ρ_raw`, is `ρ · y + ((1 - ρ) · c) · tanh (y / c)`;
  `softplus` is kept in the stable form both programs evaluate, `max x 0 + log1p (exp (0 - |x - 0|))`, under the
  comparison that at these values never holds.
-/
import Idealize.ShloMosaic.PureOps.Ideal
import Idealize.ShloMosaic.PureOps.Vector
import Idealize.ShloMosaic.Lib.ValueIdx

noncomputable section

namespace Cert.Net

open Idealize.ShloMosaic Idealize.ShloMosaic.ValueIdx

/-- The words of `0.0` and `1.0` at the ideal values. -/
abbrev zero32 : Ideal .f32 := FloatOps.ofBits .f32 0x00000000#32
abbrev one32 : Ideal .f32 := FloatOps.ofBits .f32 0x3F800000#32

/-- `log (1 + eˣ)` in the stable form, with the programs' guard on `x - 0` differing from itself. -/
def softplus (x : Ideal .f32) : Ideal .f32 :=
  Scalar.select (FloatOps.cmpf .one (FloatOps.subf x zero32) (FloatOps.subf x zero32)) (FloatOps.addf x zero32)
    (FloatOps.addf (FloatOps.maximumf x zero32)
      (FloatOps.log1p (FloatOps.exp (FloatOps.subf zero32 (FloatOps.absf (FloatOps.subf x zero32))))))

/-- The activation at one unit with raw parameters `cr`, `rr`, applied to `y`. -/
def act (cr rr y : Ideal .f32) : Ideal .f32 :=
  FloatOps.addf (FloatOps.mulf (FloatOps.logistic rr) y)
    (FloatOps.mulf (FloatOps.mulf (FloatOps.subf one32 (FloatOps.logistic rr)) (softplus cr))
      (FloatOps.tanh (FloatOps.divf y (softplus cr))))

/-- A rank-2 array of extended reals. -/
abbrev Arr (a b : ℕ) : Type := (⟨2, ![a, b]⟩ : Shape).Idx → EReal

variable {M K N : ℕ}

/-- Rows of `A` against columns of `B`. -/
def dotAt (A : Arr M K) (B : Arr K N) (p : Fin M) (q : Fin N) : EReal := ∑ k : Fin K, A (ix2 p k) * B (ix2 k q)
/-- Rows of `A` against rows of `B`. -/
def dotTAt (A : Arr M K) (B : Arr N K) (p : Fin M) (q : Fin N) : EReal := ∑ k : Fin K, A (ix2 p k) * B (ix2 q k)

/-- `A · B + b`, the bias a row. -/
def affine (A : Arr M K) (B : Arr K N) (b : Arr 1 N) : Arr M N :=
  fun i => dotAt A B (i 0) (i 1) + b (ix2 0 (i 1))
/-- `A · Bᵀ + b`. -/
def affineT (A : Arr M K) (B : Arr N K) (b : Arr 1 N) : Arr M N :=
  fun i => dotTAt A B (i 0) (i 1) + b (ix2 0 (i 1))
/-- `act (A · B + b)`, the activation's raw parameters rows. -/
def encode (A : Arr M K) (B : Arr K N) (b cr rr : Arr 1 N) : Arr M N :=
  fun i => act (cr (ix2 0 (i 1))) (rr (ix2 0 (i 1))) (dotAt A B (i 0) (i 1) + b (ix2 0 (i 1)))

/-- A vector as a one-row array. -/
def row (x : (⟨1, ![N]⟩ : Shape).Idx → EReal) : Arr 1 N := fun i => x (ix1 (i 1))

theorem affine_apply (A : Arr M K) (B : Arr K N) (b : Arr 1 N) (p : Fin M) (q : Fin N) :
    affine A B b (ix2 p q) = dotAt A B p q + b (ix2 0 q) := rfl
theorem affineT_apply (A : Arr M K) (B : Arr N K) (b : Arr 1 N) (p : Fin M) (q : Fin N) :
    affineT A B b (ix2 p q) = dotTAt A B p q + b (ix2 0 q) := rfl
theorem encode_apply (A : Arr M K) (B : Arr K N) (b cr rr : Arr 1 N) (p : Fin M) (q : Fin N) :
    encode A B b cr rr (ix2 p q) = act (cr (ix2 0 q)) (rr (ix2 0 q)) (dotAt A B p q + b (ix2 0 q)) := rfl
theorem row_apply (x : (⟨1, ![N]⟩ : Shape).Idx → EReal) (q : Fin N) : row x (ix2 0 q) = x (ix1 q) := rfl

end Cert.Net

end
-- ==== Proof.RefRead.lean ====
/-
  The reference program read one operation at a time (the generated run and its read-at-an-index lemmas), gathered
  under one import for the modules that compare it with the kernel's network.
-/
import proofs.«113703_j70265664962673_1_alg».proof.Proof.Gen.ReferenceIdeal.Read
-- ==== Proof.Net.HostReads.lean ====
/-
  What the host operations around the regions leave in the buffers the kernels read, at the ideal instance, in terms of
  the launch memory: the effective weights (the codebook gather under the frozen mask, else the dense weights — the
  reference's own stage), the operands' changes of float format (the identity on extended reals), the bias and
  activation vectors as one-row arrays, and every buffer a later region reads unchanged since an earlier boundary.
-/
import proofs.«113703_j70265664962673_1_alg».proof.Proof.Net.RunData
import proofs.«113703_j70265664962673_1_alg».proof.Proof.Net.Spec
import proofs.«113703_j70265664962673_1_alg».proof.Proof.RefRead
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

variable (m : (ℓ : Loc nD τ sig) → Buf (Elt Ideal) ℓ) (c : Dev nD)

/-! ## Tools -/

/-- A change of float format to a narrower one is the identity on extended reals. -/
theorem truncf_ideal {s : Shape} {φ ψ : FTy} (x : FVec Ideal s φ) (h : ψ.bits < φ.bits) :
    (truncf ψ x h : s.Idx → EReal) = x := rfl

/-- A vector reshaped to a one-row array is the vector as a row. -/
theorem reshape_row {N : ℕ} (x : (⟨1, ![N]⟩ : Shape).Idx → EReal) (h : (⟨1, ![N]⟩ : Shape).ShapeCasts ⟨2, ![1, N]⟩) :
    shapeCast ⟨2, ![1, N]⟩ x h = Cert.Net.row x := by
  funext i
  obtain ⟨u, q, rfl⟩ : ∃ u q, i = ix2 u q := ⟨i 0, i 1, eq_ix2 i⟩
  rw [shapeCast_a_1a_apply]
  rfl

/-- A reference that none of the stretches before the first region writes holds its launch contents there. -/
theorem V4_launch (r : Ref sig .tc) (h0 : r ∉ hostOps0_W) (h1 : r ∉ hostOps0_1_W) (h2 : r ∉ hostOps0_2_W) (h3 : r ∉ hostOps0_3_W) :
    V4 m c r = m ((c : Thread nD τ).loc r) :=
  (V4_of m c r h3).trans <| (V3_of m c r h2).trans <| (V2_of m c r h1).trans <| (V1_of m c r h0).trans rfl
theorem V5_launch (r : Ref sig .tc) (h0 : r ∉ hostOps0_W) (h1 : r ∉ hostOps0_1_W) (h2 : r ∉ hostOps0_2_W) (h3 : r ∉ hostOps0_3_W)
    (h4 : r ∉ hostOps0_4_W) : V5 m c r = m ((c : Thread nD τ).loc r) :=
  (V5_of m c r h4).trans (V4_launch m c r h0 h1 h2 h3)

/-- Right after a region its output array holds what the region leaves. -/
theorem V6_self (o : Outs (F := Ideal)) : V6 m o c main_v22 = o 6 main_v22 c := Function.update_self ..
theorem V8_self (o : Outs (F := Ideal)) : V8 m o c main_v24 = o 8 main_v24 c := Function.update_self ..
theorem V10_self (o : Outs (F := Ideal)) : V10 m o c main_v27 = o 10 main_v27 c := Function.update_self ..
theorem V12_self (o : Outs (F := Ideal)) : V12 m o c main_v29 = o 12 main_v29 c := Function.update_self ..

/-! ## Before the first region -/

/-- The first operand: the input batch, its change of format the identity. -/
theorem VA_v16 : VA m c main_v16 = (m ((c : Thread nD τ).loc main_arg0)) := by
  show StableHlo.after hostOps0_4 (V4 m c) (Proc.devRef .tc main_v16) = _
  generalize hW : V4 m c = W
  after_results
  subst hW
  rw [V4_launch m c main_arg0 (by decide) (by decide) (by decide) (by decide)]
  rfl

/-- The gathered codebook entries of the first weight matrix are the reference's. -/
theorem V1_v6 : V1 m c main_v6
    = Cert.ReferenceIdeal.Read.val_main_v6 (F := Ideal) (m ((c : Thread nD τ).loc main_arg1)) (m ((c : Thread nD τ).loc main_arg11)) := by
  show StableHlo.after hostOps0 (V0 m c) (Proc.devRef .tc main_v6) = _
  generalize hW : V0 m c = W
  after_results
  subst hW
  rfl
/-- The first effective weight matrix, before its change of format, is the reference's. -/
theorem V2_v7 : V2 m c main_v7
    = Cert.ReferenceIdeal.Read.val_main_v7 (F := Ideal) (m ((c : Thread nD τ).loc main_arg1)) (m ((c : Thread nD τ).loc main_arg3)) (m ((c : Thread nD τ).loc main_arg11)) (m ((c : Thread nD τ).loc main_arg13)) := by
  show StableHlo.after hostOps0_1 (V1 m c) (Proc.devRef .tc main_v7) = _
  generalize hW : V1 m c = W
  after_results
  subst hW
  rw [V1_v6, V1_of m c main_arg13 (by decide), V1_of m c main_arg3 (by decide)]
  rfl
/-- The first effective weight matrix is the reference's. -/
theorem VA_v17 : VA m c main_v17
    = Cert.ReferenceIdeal.Read.val_main_v7 (F := Ideal) (m ((c : Thread nD τ).loc main_arg1)) (m ((c : Thread nD τ).loc main_arg3)) (m ((c : Thread nD τ).loc main_arg11)) (m ((c : Thread nD τ).loc main_arg13)) := by
  show StableHlo.after hostOps0_4 (V4 m c) (Proc.devRef .tc main_v17) = _
  generalize hW : V4 m c = W
  after_results
  subst hW
  rw [V4_of m c main_v7 (by decide), V3_of m c main_v7 (by decide), V2_v7]
  rfl
/-- The gathered codebook entries of the second weight matrix are the reference's. -/
theorem V3_v14 : V3 m c main_v14
    = Cert.ReferenceIdeal.Read.val_main_v14 (F := Ideal) (m ((c : Thread nD τ).loc main_arg2)) (m ((c : Thread nD τ).loc main_arg12)) := by
  show StableHlo.after hostOps0_2 (V2 m c) (Proc.devRef .tc main_v14) = _
  generalize hW : V2 m c = W
  after_results
  subst hW
  rw [V2_of m c main_arg2 (by decide), V1_of m c main_arg2 (by decide), V2_of m c main_arg12 (by decide), V1_of m c main_arg12 (by decide)]
  rfl
/-- The second effective weight matrix, before its change of format, is the reference's. -/
theorem V4_v15 : V4 m c main_v15
    = Cert.ReferenceIdeal.Read.val_main_v15 (F := Ideal) (m ((c : Thread nD τ).loc main_arg2)) (m ((c : Thread nD τ).loc main_arg4)) (m ((c : Thread nD τ).loc main_arg12)) (m ((c : Thread nD τ).loc main_arg14)) := by
  show StableHlo.after hostOps0_3 (V3 m c) (Proc.devRef .tc main_v15) = _
  generalize hW : V3 m c = W
  after_results
  subst hW
  rw [V3_v14, V3_of m c main_arg14 (by decide), V2_of m c main_arg14 (by decide), V1_of m c main_arg14 (by decide),
    V3_of m c main_arg4 (by decide), V2_of m c main_arg4 (by decide), V1_of m c main_arg4 (by decide)]
  rfl
/-- The second effective weight matrix is the reference's. -/
theorem VA_v18 : VA m c main_v18
    = Cert.ReferenceIdeal.Read.val_main_v15 (F := Ideal) (m ((c : Thread nD τ).loc main_arg2)) (m ((c : Thread nD τ).loc main_arg4)) (m ((c : Thread nD τ).loc main_arg12)) (m ((c : Thread nD τ).loc main_arg14)) := by
  show StableHlo.after hostOps0_4 (V4 m c) (Proc.devRef .tc main_v18) = _
  generalize hW : V4 m c = W
  after_results
  subst hW
  rw [V4_v15]
  rfl
/-- The first bias and the activation's two raw parameter vectors, as rows. -/
theorem VA_v19 : VA m c main_v19 = Cert.Net.row (N := 8192) (m ((c : Thread nD τ).loc main_arg5)) := by
  show StableHlo.after hostOps0_4 (V4 m c) (Proc.devRef .tc main_v19) = _
  generalize hW : V4 m c = W
  after_results
  subst hW
  rw [V4_launch m c main_arg5 (by decide) (by decide) (by decide) (by decide)]
  exact reshape_row (N := 8192) _ _
theorem VA_v20 : VA m c main_v20 = Cert.Net.row (N := 8192) (m ((c : Thread nD τ).loc main_arg9)) := by
  show StableHlo.after hostOps0_4 (V4 m c) (Proc.devRef .tc main_v20) = _
  generalize hW : V4 m c = W
  after_results
  subst hW
  rw [V4_launch m c main_arg9 (by decide) (by decide) (by decide) (by decide)]
  exact reshape_row (N := 8192) _ _
theorem VA_v21 : VA m c main_v21 = Cert.Net.row (N := 8192) (m ((c : Thread nD τ).loc main_arg10)) := by
  show StableHlo.after hostOps0_4 (V4 m c) (Proc.devRef .tc main_v21) = _
  generalize hW : V4 m c = W
  after_results
  subst hW
  rw [V4_launch m c main_arg10 (by decide) (by decide) (by decide) (by decide)]
  exact reshape_row (N := 8192) _ _

/-! ## Before the second region -/

theorem VB_v22 : VB m c main_v22 = outs m 6 main_v22 c := by
  rw [outs_six]
  exact (V7_of m (outsA m) c main_v22 (by decide)).trans (V6_self m c (outsA m))
theorem VB_v18 : VB m c main_v18 = VA m c main_v18 :=
  (V7_of m (outsA m) c main_v18 (by decide)).trans (V6_of m (outsA m) c main_v18 (by decide))
theorem VB_v23 : VB m c main_v23 = Cert.Net.row (N := 2048) (m ((c : Thread nD τ).loc main_arg6)) := by
  show StableHlo.after hostOps1 (V6 m (outsA m) c) (Proc.devRef .tc main_v23) = _
  generalize hW : V6 m (outsA m) c = W
  after_results
  subst hW
  rw [V6_of m (outsA m) c main_arg6 (by decide), V5_launch m c main_arg6 (by decide) (by decide) (by decide) (by decide) (by decide)]
  exact reshape_row (N := 2048) _ _

/-! ## Before the third region -/

/-- The latent code, its change of format the identity. -/
theorem VC_v25 : VC m c main_v25 = outs m 8 main_v24 c := by
  rw [outs_eight]
  show StableHlo.after hostOps2 (V8 m (outsB m) c) (Proc.devRef .tc main_v25) = _
  generalize hW : V8 m (outsB m) c = W
  after_results
  subst hW
  rw [V8_self]
  rfl
theorem VC_v18 : VC m c main_v18 = VA m c main_v18 :=
  (V9_of m (outsB m) c main_v18 (by decide)).trans <| (V8_of m (outsB m) c main_v18 (by decide)).trans <|
    (V7_of m (outsB m) c main_v18 (by decide)).trans (V6_of m (outsB m) c main_v18 (by decide))
theorem VC_v26 : VC m c main_v26 = Cert.Net.row (N := 8192) (m ((c : Thread nD τ).loc main_arg7)) := by
  show StableHlo.after hostOps2 (V8 m (outsB m) c) (Proc.devRef .tc main_v26) = _
  generalize hW : V8 m (outsB m) c = W
  after_results
  subst hW
  rw [V8_of m (outsB m) c main_arg7 (by decide), V7_of m (outsB m) c main_arg7 (by decide), V6_of m (outsB m) c main_arg7 (by decide),
    V5_launch m c main_arg7 (by decide) (by decide) (by decide) (by decide) (by decide)]
  exact reshape_row (N := 8192) _ _

/-! ## Before the fourth region, and at the end -/

theorem VD_v27 : VD m c main_v27 = outs m 10 main_v27 c := by
  rw [outs_ten]
  exact (V11_of m (outsC m) c main_v27 (by decide)).trans (V10_self m c (outsC m))
theorem VD_v17 : VD m c main_v17 = VA m c main_v17 :=
  (V11_of m (outsC m) c main_v17 (by decide)).trans <| (V10_of m (outsC m) c main_v17 (by decide)).trans <|
    (V9_of m (outsC m) c main_v17 (by decide)).trans <| (V8_of m (outsC m) c main_v17 (by decide)).trans <|
    (V7_of m (outsC m) c main_v17 (by decide)).trans (V6_of m (outsC m) c main_v17 (by decide))
theorem VD_v28 : VD m c main_v28 = Cert.Net.row (N := 2048) (m ((c : Thread nD τ).loc main_arg8)) := by
  show StableHlo.after hostOps3 (V10 m (outsC m) c) (Proc.devRef .tc main_v28) = _
  generalize hW : V10 m (outsC m) c = W
  after_results
  subst hW
  rw [V10_of m (outsC m) c main_arg8 (by decide), V9_of m (outsC m) c main_arg8 (by decide), V8_of m (outsC m) c main_arg8 (by decide),
    V7_of m (outsC m) c main_arg8 (by decide), V6_of m (outsC m) c main_arg8 (by decide),
    V5_launch m c main_arg8 (by decide) (by decide) (by decide) (by decide) (by decide)]
  exact reshape_row (N := 2048) _ _
/-- The two results at the end: the reconstruction is what the fourth region leaves, the latent code what the second left. -/
theorem end_v29 : V12 m (outs m) c main_v29 = outs m 12 main_v29 c := V12_self m c (outs m)
theorem end_v24 : V12 m (outs m) c main_v24 = outs m 8 main_v24 c :=
  (V12_of m (outs m) c main_v24 (by decide)).trans <| (V11_of m (outs m) c main_v24 (by decide)).trans <|
    (V10_of m (outs m) c main_v24 (by decide)).trans <| (V9_of m (outs m) c main_v24 (by decide)).trans (V8_self m c (outs m))

end Cert.KernelIdeal.Net

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Net.RefStages.lean ====
/-
  The reference, stage by stage, is the network of Net/Spec.lean: each of its four affine stages read entry by entry —
  a host product as the plain sum over the contracted axis, a bias broadcast as the bias row, the activation's host
  operations as the kernel's (the host's `1 / (1 + exp (-x))` is `logistic x`, its `-|d|` is `0 - |d|`) — equals the
  corresponding function of the stage before it.
-/
import proofs.«113703_j70265664962673_1_alg».proof.Proof.RefRead
import proofs.«113703_j70265664962673_1_alg».proof.Proof.Net.Spec
import proofs.«113703_j70265664962673_1_alg».proof.Proof.LibDot
import Idealize.ShloMosaic.Lib.IdealHost

noncomputable section

namespace Cert.ReferenceIdeal.Stages

open Cert.ReferenceIdeal Cert.ReferenceIdeal.Gen Cert.ReferenceIdeal.Read Cert.Net
open Idealize.ShloMosaic Idealize.ShloMosaic.ValueIdx

/-! ### The activation's scalar identities -/

/-- Over the extended reals `0 - y` is `-y`, the zero being the word of `0.0`. -/
theorem zero_word_sub (y : EReal) : Ideal.ofBits .f32 0x00000000#32 - y = -y := by
  rw [Ideal.ofBits_zero_f32, zero_sub]

/-- The host's `1 / (1 + exp (-x))`, its ones the word of `1.0`, is the logistic function. -/
theorem logistic_host (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = FloatOps.logistic x := by
  show Ideal.div (Ideal.ofBits .f32 0x3F800000#32) (Ideal.ofBits .f32 0x3F800000#32 + Ideal.exp (-(x : EReal)))
      = Ideal.div 1 (1 + Ideal.exp (-(x : EReal)))
  rw [Ideal.ofBits_one_f32]

/-- The host's negated absolute value is the network's `0 - |d|`. -/
theorem neg_abs_host (d : Ideal .f32) :
    FloatOps.hostNegf (FloatOps.hostAbsf d) = FloatOps.subf zero32 (FloatOps.absf d) := by
  show -(max (d : EReal) (-d)) = Ideal.ofBits .f32 0x00000000#32 - max (d : EReal) (-d)
  rw [zero_word_sub]

/-- The host's stable `log (1 + eˣ)` is the network's: its comparison "differs from itself" picks the same branch
    under either reading of the predicate, and its `-|d|` is `0 - |d|`. -/
theorem softplus_host (x : Ideal .f32) :
    Scalar.select (FloatOps.cmpf .une (FloatOps.subf x zero32) (FloatOps.subf x zero32)) (FloatOps.addf x zero32)
        (FloatOps.addf (FloatOps.maximumf x zero32)
          (FloatOps.hostUnary .log1p (FloatOps.hostUnary .exp (FloatOps.hostNegf (FloatOps.hostAbsf (FloatOps.subf x zero32))))))
      = softplus x := by
  rw [neg_abs_host]
  rfl

/-! ### The four stages -/

variable (x0 : (⟨S8192x2048, .f32⟩ : BufTy).Contents (Elt Ideal)) (x1 x2 : (⟨S256, .f32⟩ : BufTy).Contents (Elt Ideal)) (x3 : (⟨S2048x8192, .f32⟩ : BufTy).Contents (Elt Ideal))
  (x4 : (⟨S8192x2048, .f32⟩ : BufTy).Contents (Elt Ideal)) (x5 : (⟨S8192, .f32⟩ : BufTy).Contents (Elt Ideal)) (x6 : (⟨S2048, .f32⟩ : BufTy).Contents (Elt Ideal)) (x7 : (⟨S8192, .f32⟩ : BufTy).Contents (Elt Ideal))
  (x8 : (⟨S2048, .f32⟩ : BufTy).Contents (Elt Ideal)) (x9 x10 : (⟨S8192, .f32⟩ : BufTy).Contents (Elt Ideal)) (x11 : (⟨S2048x8192, .i32⟩ : BufTy).Contents (Elt Ideal)) (x12 : (⟨S8192x2048, .i32⟩ : BufTy).Contents (Elt Ideal))
  (x13 : (⟨S2048x8192, .i1⟩ : BufTy).Contents (Elt Ideal)) (x14 : (⟨S8192x2048, .i1⟩ : BufTy).Contents (Elt Ideal))

/-- The hidden code: `act (x · W₁ + b₁)`. -/
theorem hidden_eq :
    val_main_v40 (F := Ideal) x0 x1 x3 x5 x9 x10 x11 x13
      = encode (M := 8192) (K := 2048) (N := 8192) x0 (val_main_v7 (F := Ideal) x1 x3 x11 x13) (row x5) (row x9) (row x10) := by
  funext i
  obtain ⟨p, q, rfl⟩ : ∃ p q, i = ix2 p q := ⟨i 0, i 1, eq_ix2 i⟩
  have e18 : idx_main_v17 (idx_main_v18 (ix2 p q)) = ix1 q :=
    funext fun a => Fin.ext (by match a with | ⟨0, _⟩ => rfl)
  have e28 : idx_main_v27 (idx_main_v28 (ix2 p q)) = ix1 q :=
    funext fun a => Fin.ext (by match a with | ⟨0, _⟩ => rfl)
  have e34 : idx_main_v33 (idx_main_v34 (ix2 p q)) = ix1 q :=
    funext fun a => Fin.ext (by match a with | ⟨0, _⟩ => rfl)
  have e38 : idx_main_v37 (idx_main_v38 (ix2 p q)) = ix1 q :=
    funext fun a => Fin.ext (by match a with | ⟨0, _⟩ => rfl)
  have el : ∀ k : Fin 2048, lidx_main_v16 (ix2 p q) k = ix2 p k := fun k =>
    funext fun a => Fin.ext (by match a with | ⟨0, _⟩ => rfl | ⟨1, _⟩ => rfl)
  have er : ∀ k : Fin 2048, ridx_main_v16 (ix2 p q) k = ix2 k q := fun k =>
    funext fun a => Fin.ext (by match a with | ⟨0, _⟩ => rfl | ⟨1, _⟩ => rfl)
  rw [val_main_v40_apply, val_main_v29_apply, val_main_v39_apply, val_main_v28_apply, val_main_v27_apply, e28,
    val_main_v38_apply, val_main_v37_apply, e38, val_main_v32_apply, val_main_v31_apply, val_main_v36_apply,
    val_main_v35_apply, val_main_v34_apply, val_main_v33_apply, e34, val_main_v19_apply, val_main_v16_apply,
    val_main_v18_apply, val_main_v17_apply, e18, val_main_v30_apply, val_main_cst_4_apply,
    val_main_v26_apply, val_main_v25_apply, val_main_cst_3_apply, val_main_v24_apply, val_main_v23_apply,
    val_main_cst_apply, val_main_v22_apply, val_main_v21_apply, logistic_host,
    val_main_v20_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply, softplus_host, encode_apply, row_apply, row_apply, row_apply]
  simp only [el, er]
  rfl

/-- The latent code: `h · W₂ + b₂`. -/
theorem latent_eq :
    val_main_v44 (F := Ideal) x0 x1 x2 x3 x4 x5 x6 x9 x10 x11 x12 x13 x14
      = affine (M := 8192) (K := 8192) (N := 2048) (val_main_v40 (F := Ideal) x0 x1 x3 x5 x9 x10 x11 x13)
          (val_main_v15 (F := Ideal) x2 x4 x12 x14) (row x6) := by
  funext i
  obtain ⟨p, q, rfl⟩ : ∃ p q, i = ix2 p q := ⟨i 0, i 1, eq_ix2 i⟩
  have eb : idx_main_v42 (idx_main_v43 (ix2 p q)) = ix1 q :=
    funext fun a => Fin.ext (by match a with | ⟨0, _⟩ => rfl)
  have el : ∀ k : Fin 8192, lidx_main_v41 (ix2 p q) k = ix2 p k := fun k =>
    funext fun a => Fin.ext (by match a with | ⟨0, _⟩ => rfl | ⟨1, _⟩ => rfl)
  have er : ∀ k : Fin 8192, ridx_main_v41 (ix2 p q) k = ix2 k q := fun k =>
    funext fun a => Fin.ext (by match a with | ⟨0, _⟩ => rfl | ⟨1, _⟩ => rfl)
  rw [val_main_v44_apply, val_main_v41_apply, val_main_v43_apply, val_main_v42_apply, eb, affine_apply, row_apply]
  simp only [el, er]
  rfl

/-- The expansion: `z · W₂ᵀ + d₁`. -/
theorem expand_eq :
    val_main_v49 (F := Ideal) x0 x1 x2 x3 x4 x5 x6 x7 x9 x10 x11 x12 x13 x14
      = affineT (M := 8192) (K := 2048) (N := 8192) (val_main_v44 (F := Ideal) x0 x1 x2 x3 x4 x5 x6 x9 x10 x11 x12 x13 x14)
          (val_main_v15 (F := Ideal) x2 x4 x12 x14) (row x7) := by
  funext i
  obtain ⟨p, q, rfl⟩ : ∃ p q, i = ix2 p q := ⟨i 0, i 1, eq_ix2 i⟩
  have eb : idx_main_v47 (idx_main_v48 (ix2 p q)) = ix1 q :=
    funext fun a => Fin.ext (by match a with | ⟨0, _⟩ => rfl)
  have el : ∀ k : Fin 2048, lidx_main_v46 (ix2 p q) k = ix2 p k := fun k =>
    funext fun a => Fin.ext (by match a with | ⟨0, _⟩ => rfl | ⟨1, _⟩ => rfl)
  have er : ∀ k : Fin 2048, idx_main_v45 (ridx_main_v46 (ix2 p q) k) = ix2 q k := fun k =>
    funext fun a => Fin.ext (by match a with | ⟨0, _⟩ => rfl | ⟨1, _⟩ => rfl)
  rw [val_main_v49_apply, val_main_v46_apply, val_main_v48_apply, val_main_v47_apply, eb, affineT_apply, row_apply]
  simp only [val_main_v45_apply, el, er]
  rfl

/-- The reconstruction: `t · W₁ᵀ + d₂`. -/
theorem recon_eq :
    val_main_v54 (F := Ideal) x0 x1 x2 x3 x4 x5 x6 x7 x8 x9 x10 x11 x12 x13 x14
      = affineT (M := 8192) (K := 8192) (N := 2048) (val_main_v49 (F := Ideal) x0 x1 x2 x3 x4 x5 x6 x7 x9 x10 x11 x12 x13 x14)
          (val_main_v7 (F := Ideal) x1 x3 x11 x13) (row x8) := by
  funext i
  obtain ⟨p, q, rfl⟩ : ∃ p q, i = ix2 p q := ⟨i 0, i 1, eq_ix2 i⟩
  have eb : idx_main_v52 (idx_main_v53 (ix2 p q)) = ix1 q :=
    funext fun a => Fin.ext (by match a with | ⟨0, _⟩ => rfl)
  have el : ∀ k : Fin 8192, lidx_main_v51 (ix2 p q) k = ix2 p k := fun k =>
    funext fun a => Fin.ext (by match a with | ⟨0, _⟩ => rfl | ⟨1, _⟩ => rfl)
  have er : ∀ k : Fin 8192, idx_main_v50 (ridx_main_v51 (ix2 p q) k) = ix2 q k := fun k =>
    funext fun a => Fin.ext (by match a with | ⟨0, _⟩ => rfl | ⟨1, _⟩ => rfl)
  rw [val_main_v54_apply, val_main_v51_apply, val_main_v53_apply, val_main_v52_apply, eb, affineT_apply, row_apply]
  simp only [val_main_v50_apply, el, er]
  rfl

end Cert.ReferenceIdeal.Stages

end
-- ==== Proof.Net.EncodeValue.lean ====
/-
  The first product's kernel, read as a value at the ideal instance: after its 64 grid points the output array holds,
  entry by entry, the activation of the plain product plus the bias — each output block is written once, by the one
  point that owns it, and the blocks tile the array.
-/
import proofs.«113703_j70265664962673_1_alg».proof.Proof.Net.EncodeData
import proofs.«113703_j70265664962673_1_alg».proof.Proof.Net.Spec
import proofs.«113703_j70265664962673_1_alg».proof.Proof.LibDot
import Idealize.ShloMosaic.PureOps.Ideal.Laws
import Idealize.ShloMosaic.Lib.ValueIdx
import Idealize.ShloMosaic.Lib.ValueLayout

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-- The printed dimension record of the product is the plain rows-by-columns one. -/
theorem encode_dot_eq : dot_S1024x2048_S2048x1024_S1024x1024_1_0_0_1_n_n = DotDims.plain 1024 2048 1024 := rfl

/-- The zero block at an entry. -/
theorem encode_pay1_apply (p q : Fin 1024) : (k0_pay1 (F := Ideal)) (ix2 p q) = 0 := by
  unfold k0_pay1
  simp only [shapeCast_self]
  exact Ideal.ofBits_zero_f32

/-- The accumulating term at an entry: the accumulator there plus the row of the left block against the column of the right. -/
theorem encode_pay2_apply (s : Vec Ideal S1024x1024 .f32) (a : Vec Ideal S1024x2048 .bf16) (b : Vec Ideal S2048x1024 .bf16)
    (p q : Fin 1024) :
    k0_pay2 s a b (ix2 p q) = s (ix2 p q) + ∑ k : Fin 2048, a (ix2 p k) * b (ix2 k q) := by
  unfold k0_pay2
  simp only [shapeCast_self]
  show s (ix2 p q) + FloatOps.matmul (F := Ideal) dot_S1024x2048_S2048x1024_S1024x1024_1_0_0_1_n_n none a b (constant S1024x1024 .f32 0x00000000#32) (ix2 p q) = _
  rw [encode_dot_eq]
  exact congrArg (s (ix2 p q) + ·) (Cert.GNN.matmul_plain_zero_apply none a b p q)

/-- A row broadcast over the 1024 rows of a block reads the row. -/
theorem encode_bc_apply {α : Type} (v : S1x1024.Idx → α) (p q : Fin 1024) :
    broadcastTo S1024x1024 v broadcasts_S1x1024_S1024x1024 (ix2 p q) = v (ix2 0 q) :=
  broadcastTo_1b_ab_apply v broadcasts_S1x1024_S1024x1024 p q

/-- The closing term at an entry: the activation of the accumulator plus the bias, the parameters read off their rows. -/
theorem encode_pay3_apply (s : Vec Ideal S1024x1024 .f32) (b c ρ : Vec Ideal S1x1024 .f32) (p q : Fin 1024) :
    k0_pay3 s b c ρ (ix2 p q) = Cert.Net.act (c (ix2 0 q)) (ρ (ix2 0 q)) (s (ix2 p q) + b (ix2 0 q)) := by
  unfold k0_pay3
  simp only [shapeCast_self]
  simp only [truncf, addf, mulf, divf, tanh, encode_bc_apply]
  rfl

/-- What a point leaves in the output block, at an entry: the activation of the whole product's entry plus the bias. -/
theorem encode_out_apply (x : Vec Ideal S1024x2048 .bf16) (w : Vec Ideal S2048x1024 .bf16) (b c ρ : Vec Ideal S1x1024 .f32)
    (p q : Fin 1024) :
    k0_pay3 (k0_pay2 k0_pay1 x w) b c ρ (ix2 p q)
      = Cert.Net.act (c (ix2 0 q)) (ρ (ix2 0 q)) ((∑ k : Fin 2048, x (ix2 p k) * w (ix2 k q)) + b (ix2 0 q)) := by
  rw [encode_pay3_apply, encode_pay2_apply, encode_pay1_apply, zero_add]

/-! ## The index maps over the grid -/

/-- The point's row block and column block are the output's; the left operand moves with the rows, the right operand and
    the three rows of parameters with the columns, and the contracted axis is one block. -/
theorem encode_idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every pair of a row block and a column block is some point's. -/
theorem encode_idx_onto : ∀ (r s : Fin 8), ∃ t : Fin cfg0.N, win0_5.index t = ![r.val, s.val] :=
  (by decide +kernel : ∀ (r s : Fin 8), ∃ t : Fin grid0.N, win0_5.index t = ![r.val, s.val])

section
variable (V : (c : Dev nD) → (b : Ref sig .tc) → Buf (Elt Ideal) ((c : Thread nD τ).loc b))

/-! ## The input blocks, read where the output's rectangle says -/

theorem encode_blk0_apply (c : Dev nD) (t : Fin cfg0.N) (p : Fin 1024) (k : Fin 2048) (P : Fin 8192)
    (hP : P.val = win0_5.index t (0 : Fin 2) * 1024 + p.val) :
    (encodeBlk V c 0 t : S1024x2048.Idx → EReal) (ix2 p k) = (V c main_v16 : S8192x2048.Idx → EReal) (ix2 P k) := by
  obtain ⟨e0, e1, -⟩ := encode_idx_facts t
  show (V c main_v16 : S8192x2048.Idx → EReal) (((cfg0.win 0).blk t).view.emb (ix2 p k)) = _
  refine congrArg _ (funext fun a => Fin.ext ?_)
  match a with
  | ⟨0, _⟩ => show win0_0.index t (0 : Fin 2) * 1024 + 1 * p.val = P.val; omega
  | ⟨1, _⟩ => show win0_0.index t (1 : Fin 2) * 2048 + 1 * k.val = k.val; omega

theorem encode_blk1_apply (c : Dev nD) (t : Fin cfg0.N) (k : Fin 2048) (q : Fin 1024) (Q : Fin 8192)
    (hQ : Q.val = win0_5.index t (1 : Fin 2) * 1024 + q.val) :
    (encodeBlk V c 1 t : S2048x1024.Idx → EReal) (ix2 k q) = (V c main_v17 : S2048x8192.Idx → EReal) (ix2 k Q) := by
  obtain ⟨-, -, e2, e3, -⟩ := encode_idx_facts t
  show (V c main_v17 : S2048x8192.Idx → EReal) (((cfg0.win 1).blk t).view.emb (ix2 k q)) = _
  refine congrArg _ (funext fun a => Fin.ext ?_)
  match a with
  | ⟨0, _⟩ => show win0_1.index t (0 : Fin 2) * 2048 + 1 * k.val = k.val; omega
  | ⟨1, _⟩ => show win0_1.index t (1 : Fin 2) * 1024 + 1 * q.val = Q.val; omega

theorem encode_blk2_apply (c : Dev nD) (t : Fin cfg0.N) (q : Fin 1024) (Q : Fin 8192)
    (hQ : Q.val = win0_5.index t (1 : Fin 2) * 1024 + q.val) :
    (encodeBlk V c 2 t : S1x1024.Idx → EReal) (ix2 0 q) = (V c main_v19 : S1x8192.Idx → EReal) (ix2 0 Q) := by
  obtain ⟨-, -, -, -, e4, e5, -⟩ := encode_idx_facts t
  show (V c main_v19 : S1x8192.Idx → EReal) (((cfg0.win 2).blk t).view.emb (ix2 0 q)) = _
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * q.val = Q.val; omega

theorem encode_blk3_apply (c : Dev nD) (t : Fin cfg0.N) (q : Fin 1024) (Q : Fin 8192)
    (hQ : Q.val = win0_5.index t (1 : Fin 2) * 1024 + q.val) :
    (encodeBlk V c 3 t : S1x1024.Idx → EReal) (ix2 0 q) = (V c main_v20 : S1x8192.Idx → EReal) (ix2 0 Q) := by
  obtain ⟨-, -, -, -, -, -, e6, e7, -⟩ := encode_idx_facts t
  show (V c main_v20 : S1x8192.Idx → EReal) (((cfg0.win 3).blk t).view.emb (ix2 0 q)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = Q.val; omega

theorem encode_blk4_apply (c : Dev nD) (t : Fin cfg0.N) (q : Fin 1024) (Q : Fin 8192)
    (hQ : Q.val = win0_5.index t (1 : Fin 2) * 1024 + q.val) :
    (encodeBlk V c 4 t : S1x1024.Idx → EReal) (ix2 0 q) = (V c main_v21 : S1x8192.Idx → EReal) (ix2 0 Q) := by
  obtain ⟨-, -, -, -, -, -, -, -, e8, e9, -⟩ := encode_idx_facts t
  show (V c main_v21 : S1x8192.Idx → EReal) (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = Q.val; omega

/-! ## What a point writes back, the cover, the array -/

/-- The network stage of the arrays the region was entered with. -/
abbrev encodeG (c : Dev nD) : Cert.Net.Arr 8192 8192 :=
  Cert.Net.encode (M := 8192) (K := 2048) (N := 8192) (V c main_v16) (V c main_v17) (V c main_v19) (V c main_v20) (V c main_v21)

/-- An entry of the output block at point `t` sits in the array at the point's row block and column block. -/
theorem encode_emb5 (t : Fin cfg0.N) (p q : Fin 1024) (P Q : Fin 8192)
    (hP : P.val = win0_5.index t (0 : Fin 2) * 1024 + p.val) (hQ : Q.val = win0_5.index t (1 : Fin 2) * 1024 + q.val) :
    (((cfg0.win 5).blk t).view.emb (ix2 p q) : S8192x8192.Idx) = ix2 P Q := by
  refine funext fun a => Fin.ext ?_
  match a with
  | ⟨0, _⟩ => show win0_5.index t (0 : Fin 2) * 1024 + 1 * p.val = P.val; omega
  | ⟨1, _⟩ => show win0_5.index t (1 : Fin 2) * 1024 + 1 * q.val = Q.val; omega

/-- What point `t` writes back is block `t` of the network stage. -/
theorem encode_flushed_eq (c : Dev nD) (t : Fin cfg0.N) :
    (encodeDat (F := Ideal) V c).flushed 5 t = ((cfg0.win 5).blk t).view.read (Elt Ideal) (encodeG V c) := by
  show (cfg0.win 5).cut (grid0.coords t) ((encodeDat (F := Ideal) V c).after 5 t) = _
  rw [encodeDat_after5]
  funext j
  obtain ⟨p, q, rfl⟩ : ∃ (p q : Fin 1024), j = ix2 p q := ⟨j 0, j 1, eq_ix2 j⟩
  obtain ⟨-, -, -, -, -, -, -, -, -, -, b0, b1⟩ := encode_idx_facts t
  have hp : p.val < 1024 := p.isLt
  have hq : q.val < 1024 := q.isLt
  show encodeOut V c t (ix2 p q) = encodeG V c (((cfg0.win 5).blk t).view.emb (ix2 p q))
  obtain ⟨P, hP⟩ : ∃ P : Fin 8192, P.val = win0_5.index t (0 : Fin 2) * 1024 + p.val := ⟨⟨_, by omega⟩, rfl⟩
  obtain ⟨Q, hQ⟩ : ∃ Q : Fin 8192, Q.val = win0_5.index t (1 : Fin 2) * 1024 + q.val := ⟨⟨_, by omega⟩, rfl⟩
  rw [encode_emb5 t p q P Q hP hQ]
  unfold encodeOut
  refine (encode_out_apply (encodeBlk V c 0 t) (encodeBlk V c 1 t) (encodeBlk V c 2 t) (encodeBlk V c 3 t) (encodeBlk V c 4 t) p q).trans ?_
  refine Eq.trans ?_ (Cert.Net.encode_apply (M := 8192) (K := 2048) (N := 8192) (V c main_v16) (V c main_v17) (V c main_v19) (V c main_v20) (V c main_v21) _ _).symm
  unfold Cert.Net.dotAt
  rw [encode_blk2_apply V c t q Q hQ, encode_blk3_apply V c t q Q hQ, encode_blk4_apply V c t q Q hQ]
  refine congrArg (fun z => Cert.Net.act _ _ (z + _)) (Finset.sum_congr rfl fun k _ => ?_)
  rw [encode_blk0_apply V c t p k P hP, encode_blk1_apply V c t k q Q hQ]

/-- An index of the array is in point `t`'s block iff each coordinate is in the block's range on its axis. -/
theorem encode_mem_blk (t : Fin cfg0.N) (i : S8192x8192.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v22).slice (win0_5.rect t)).set ↔ _
  rw [View.set_slice_whole, Rect.mem_set_unit]
  exact Iff.rfl

/-- Every entry of the array lies in the block of the point whose row block and column block are its quotients by 1024. -/
theorem encode_cover (i : S8192x8192.Idx) :
    ∃ t : Fin cfg0.N, (cfg0.win 5).flush t = true ∧ i ∈ ((cfg0.win 5).blk t).view.set := by
  have hi0 : (i 0).val < 8192 := (i 0).isLt
  have hi1 : (i 1).val < 8192 := (i 1).isLt
  obtain ⟨t, ht⟩ := encode_idx_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  rw [encode_mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The output array after the region, at the ideal values, as one function of the arrays the region was entered with. -/
theorem encode_value (c : Dev nD) :
    (encodeDat (F := Ideal) V c).arrAt 5 cfg0.N
      = Cert.Net.encode (M := 8192) (K := 2048) (N := 8192) (V c main_v16) (V c main_v17) (V c main_v19) (V c main_v20) (V c main_v21) :=
  (encodeDat (F := Ideal) V c).arrAt_eq_of_cover 5 (encodeG V c) (fun t _ => encode_flushed_eq V c t) encode_cover

end

end Cert.KernelIdeal.Net

end
-- ==== Proof.Net.LatentValue.lean ====
/-
  The second product's kernel, read as a value at the ideal instance: after its 128 grid points the output array
  holds, entry by entry, the plain product plus the bias — the accumulator after the eighth block of the contracted
  axis is the sum of the eight partial products, which is the sum over the whole axis; each output block is written
  once, at its eighth point, and the blocks tile the array.
-/
import proofs.«113703_j70265664962673_1_alg».proof.Proof.Net.LatentData
import proofs.«113703_j70265664962673_1_alg».proof.Proof.Net.Spec
import proofs.«113703_j70265664962673_1_alg».proof.Proof.LibDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-! ## The body's three terms at an entry -/

/-- The printed dimension record of the block product is the plain rows-by-columns one. -/
theorem latent_dot_eq : dot_S1024x1024_S1024x1024_S1024x1024_1_0_0_1_n_n = DotDims.plain 1024 1024 1024 := rfl

/-- The restart term is the zero block. -/
theorem latent_pay1_apply (p q : Fin 1024) : k1_pay1 (F := Ideal) (ix2 p q) = 0 := by
  unfold k1_pay1
  rw [shapeCast_self]
  exact Ideal.ofBits_zero_f32

/-- The update term at an entry: what the accumulator held there plus the block product's entry. -/
theorem latent_pay2_apply (s : Vec Ideal S1024x1024 .f32) (a b : Vec Ideal S1024x1024 .bf16) (p q : Fin 1024) :
    k1_pay2 (F := Ideal) s a b (ix2 p q) = s (ix2 p q) + ∑ k : Fin 1024, a (ix2 p k) * b (ix2 k q) := by
  unfold k1_pay2
  rw [shapeCast_self, shapeCast_self, shapeCast_self, latent_dot_eq]
  exact congrArg (s (ix2 p q) + ·) (Cert.GNN.matmul_plain_zero_apply none a b p q)

/-- The closing term at an entry: the accumulator there plus the bias row's entry of that column. -/
theorem latent_pay3_apply (s : Vec Ideal S1024x1024 .f32) (b : Vec Ideal S1x1024 .f32) (p q : Fin 1024) :
    k1_pay3 (F := Ideal) s b (ix2 p q) = s (ix2 p q) + b (ix2 0 q) := by
  unfold k1_pay3
  rw [shapeCast_self]
  exact congrArg (s (ix2 p q) + ·) (broadcastTo_1b_ab_apply b broadcasts_S1x1024_S1024x1024 p q)

/-! ## Rows and columns by block -/

/-- Entry `r` of block `b` (taken modulo the eight blocks) of an axis of 8192. -/
def latentRow8 (b : ℕ) (r : Fin 1024) : Fin 8192 := ⟨b % 8 * 1024 + r.val, by have := r.isLt; omega⟩
/-- Entry `r` of block `b` (taken modulo the two blocks) of an axis of 2048. -/
def latentRow2 (b : ℕ) (r : Fin 1024) : Fin 2048 := ⟨b % 2 * 1024 + r.val, by have := r.isLt; omega⟩

theorem latentRow8_congr {a b : ℕ} (h : a % 8 = b % 8) (r : Fin 1024) : latentRow8 a r = latentRow8 b r :=
  Fin.ext (by show a % 8 * 1024 + r.val = b % 8 * 1024 + r.val; rw [h])
theorem latentRow2_congr {a b : ℕ} (h : a % 2 = b % 2) (r : Fin 1024) : latentRow2 a r = latentRow2 b r :=
  Fin.ext (by show a % 2 * 1024 + r.val = b % 2 * 1024 + r.val; rw [h])

/-! ## Where each window's block sits at a grid position: decided over the 128 positions -/

theorem latent_index_facts : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

section
variable (V : (c : Dev nD) → (b : Ref sig .tc) → Buf (Elt Ideal) ((c : Thread nD τ).loc b))

/-- The three input blocks at a position, each at its literal type. -/
abbrev latentLhsBlk (c : Dev nD) (t : Fin cfg1.N) : Vec Ideal S1024x1024 .bf16 := latentBlk (F := Ideal) V c 0 t
abbrev latentRhsBlk (c : Dev nD) (t : Fin cfg1.N) : Vec Ideal S1024x1024 .bf16 := latentBlk (F := Ideal) V c 1 t
abbrev latentBiasBlk (c : Dev nD) (t : Fin cfg1.N) : Vec Ideal S1x1024 .f32 := latentBlk (F := Ideal) V c 2 t
/-- The three input arrays as the region finds them, each at its literal type. -/
abbrev latentLhsArr (c : Dev nD) : Cert.Net.Arr 8192 8192 := V c main_v22
abbrev latentRhsArr (c : Dev nD) : Cert.Net.Arr 8192 2048 := V c main_v18
abbrev latentBiasArr (c : Dev nD) : Cert.Net.Arr 1 2048 := V c main_v23

theorem latentLhsBlk_apply (c : Dev nD) (t : Fin cfg1.N) (p l : Fin 1024) :
    latentLhsBlk V c t (ix2 p l) = latentLhsArr V c (ix2 (latentRow8 (t.val / 16) p) (latentRow8 t.val l)) := by
  obtain ⟨e0, e1, -⟩ := latent_index_facts t
  have ht : t.val < 128 := t.isLt
  show V c main_v22 (((cfg1.win 0).blk t).view.emb (ix2 p l)) = V c main_v22 _
  refine congrArg (V c main_v22) (funext fun a => Fin.ext ?_)
  match a with
  | ⟨0, _⟩ =>
    show win1_0.index t (0 : Fin 2) * 1024 + 1 * p.val = t.val / 16 % 8 * 1024 + p.val
    rw [e0]; omega
  | ⟨1, _⟩ =>
    show win1_0.index t (1 : Fin 2) * 1024 + 1 * l.val = t.val % 8 * 1024 + l.val
    rw [e1]; omega

theorem latentRhsBlk_apply (c : Dev nD) (t : Fin cfg1.N) (l q : Fin 1024) :
    latentRhsBlk V c t (ix2 l q) = latentRhsArr V c (ix2 (latentRow8 t.val l) (latentRow2 (t.val / 8) q)) := by
  obtain ⟨-, -, e0, e1, -⟩ := latent_index_facts t
  have ht : t.val < 128 := t.isLt
  show V c main_v18 (((cfg1.win 1).blk t).view.emb (ix2 l q)) = V c main_v18 _
  refine congrArg (V c main_v18) (funext fun a => Fin.ext ?_)
  match a with
  | ⟨0, _⟩ =>
    show win1_1.index t (0 : Fin 2) * 1024 + 1 * l.val = t.val % 8 * 1024 + l.val
    rw [e0]; omega
  | ⟨1, _⟩ =>
    show win1_1.index t (1 : Fin 2) * 1024 + 1 * q.val = t.val / 8 % 2 * 1024 + q.val
    rw [e1]; omega

theorem latentBiasBlk_apply (c : Dev nD) (t : Fin cfg1.N) (q : Fin 1024) :
    latentBiasBlk V c t (ix2 0 q) = latentBiasArr V c (ix2 0 (latentRow2 (t.val / 8) q)) := by
  obtain ⟨-, -, -, -, e0, e1, -⟩ := latent_index_facts t
  have ht : t.val < 128 := t.isLt
  show V c main_v23 (((cfg1.win 2).blk t).view.emb (ix2 0 q)) = V c main_v23 _
  refine congrArg (V c main_v23) (funext fun a => Fin.ext ?_)
  match a with
  | ⟨0, _⟩ =>
    show win1_2.index t (0 : Fin 2) * 1 + 1 * 0 = 0
    rw [e0]
  | ⟨1, _⟩ =>
    show win1_2.index t (1 : Fin 2) * 1024 + 1 * q.val = t.val / 8 % 2 * 1024 + q.val
    rw [e1]; omega

/-! ## The accumulator is the partial sum over the blocks of the contracted axis met so far -/

/-- One block's share of the product's entry: row `p` of row block `r` against column `q` of column block `s`,
    over block `j` of the contracted axis. -/
def latentTerm (c : Dev nD) (r s : ℕ) (p q : Fin 1024) (j : ℕ) : EReal :=
  ∑ l : Fin 1024, latentLhsArr V c (ix2 (latentRow8 r p) (latentRow8 j l)) * latentRhsArr V c (ix2 (latentRow8 j l) (latentRow2 s q))

theorem latentTerm_congr (c : Dev nD) (r s : ℕ) (p q : Fin 1024) {j j' : ℕ} (h : j % 8 = j' % 8) :
    latentTerm V c r s p q j = latentTerm V c r s p q j' := by
  unfold latentTerm
  exact Finset.sum_congr rfl fun l _ => by rw [latentRow8_congr h l]

/-- This position's block product at an entry is its block's share. -/
theorem latent_step (c : Dev nD) (t : Fin cfg1.N) (p q : Fin 1024) :
    (∑ l : Fin 1024, latentLhsBlk V c t (ix2 p l) * latentRhsBlk V c t (ix2 l q)) = latentTerm V c (t.val / 16) (t.val / 8) p q t.val := by
  unfold latentTerm
  exact Finset.sum_congr rfl fun l _ => by rw [latentLhsBlk_apply, latentRhsBlk_apply]

theorem latentAcc_apply (c : Dev nD) : ∀ (n : ℕ) (hn : n < cfg1.N) (p q : Fin 1024),
    latentAcc (F := Ideal) V c n hn (ix2 p q) = ∑ j ∈ Finset.range (n % 8 + 1), latentTerm V c (n / 16) (n / 8) p q j
  | 0, hn, p, q => by
    rw [latentAcc_first V c ⟨0, hn⟩ rfl]
    refine (latent_pay2_apply _ (latentLhsBlk V c ⟨0, hn⟩) (latentRhsBlk V c ⟨0, hn⟩) p q).trans ?_
    rw [latent_pay1_apply, zero_add, latent_step]
    show _ = ∑ j ∈ Finset.range 1, _
    rw [Finset.sum_range_one]
  | n + 1, hn, p, q => by
    have hN : n + 1 < 128 := hn
    by_cases h : (n + 1) % 8 = 0
    · rw [latentAcc_first V c ⟨n + 1, hn⟩ h]
      refine (latent_pay2_apply _ (latentLhsBlk V c ⟨n + 1, hn⟩) (latentRhsBlk V c ⟨n + 1, hn⟩) p q).trans ?_
      rw [latent_pay1_apply, zero_add, latent_step, h]
      show _ = ∑ j ∈ Finset.range 1, _
      rw [Finset.sum_range_one]
      exact latentTerm_congr V c _ _ p q (by show (n + 1) % 8 = 0 % 8; omega)
    · rw [latentAcc_next V c ⟨n + 1, hn⟩ h]
      refine (latent_pay2_apply _ (latentLhsBlk V c ⟨n + 1, hn⟩) (latentRhsBlk V c ⟨n + 1, hn⟩) p q).trans ?_
      show latentAcc (F := Ideal) V c n _ (ix2 p q) + _ = _
      rw [latentAcc_apply c n (Nat.lt_of_succ_lt hn) p q, latent_step]
      have e1 : n / 16 = (n + 1) / 16 := by omega
      have e2 : n / 8 = (n + 1) / 8 := by omega
      have e3 : (n + 1) % 8 = n % 8 + 1 := by omega
      show _ + latentTerm V c ((n + 1) / 16) ((n + 1) / 8) p q (n + 1) = _
      rw [e1, e2, e3, Finset.sum_range_succ _ (n % 8 + 1)]
      exact congrArg _ (latentTerm_congr V c _ _ p q (by omega))

end

/-! ## The eight blocks' shares add up to the whole contracted axis -/

/-- An axis of 8192 is eight blocks of 1024. -/
def latentBlockEquiv : Fin 8 × Fin 1024 ≃ Fin 8192 where
  toFun x := ⟨x.1.val * 1024 + x.2.val, by have := x.1.isLt; have := x.2.isLt; omega⟩
  invFun k := (⟨k.val / 1024, by have := k.isLt; omega⟩, ⟨k.val % 1024, Nat.mod_lt _ (by decide)⟩)
  left_inv x := by
    have h1 := x.1.isLt
    have h2 := x.2.isLt
    refine Prod.ext (Fin.ext ?_) (Fin.ext ?_)
    · show (x.1.val * 1024 + x.2.val) / 1024 = x.1.val
      omega
    · show (x.1.val * 1024 + x.2.val) % 1024 = x.2.val
      omega
  right_inv k := Fin.ext (by show k.val / 1024 * 1024 + k.val % 1024 = k.val; omega)

/-- A sum over the axis is the sum over its blocks of the sums inside each. Only that `+` is associative and
    commutative is used. -/
theorem latent_sum_blocks (f : Fin 8192 → EReal) : ∑ k : Fin 8192, f k = ∑ j ∈ Finset.range 8, ∑ l : Fin 1024, f (latentRow8 j l) := by
  rw [← Equiv.sum_comp latentBlockEquiv f, Fintype.sum_prod_type, Finset.sum_range]
  refine Finset.sum_congr rfl fun j _ => Finset.sum_congr rfl fun l _ => congrArg f (Fin.ext ?_)
  show j.val * 1024 + l.val = j.val % 8 * 1024 + l.val
  rw [Nat.mod_eq_of_lt j.isLt]

section
variable (V : (c : Dev nD) → (b : Ref sig .tc) → Buf (Elt Ideal) ((c : Thread nD τ).loc b))

/-- After the eighth block the accumulator holds the product's entry, summed over the whole contracted axis. -/
theorem latentAcc_last (c : Dev nD) (t : Fin cfg1.N) (h : t.val % 8 = 7) (p q : Fin 1024) :
    latentAcc (F := Ideal) V c t.val t.isLt (ix2 p q)
      = Cert.Net.dotAt (latentLhsArr V c) (latentRhsArr V c) (latentRow8 (t.val / 16) p) (latentRow2 (t.val / 8) q) := by
  rw [latentAcc_apply, h]
  unfold Cert.Net.dotAt
  rw [latent_sum_blocks]
  rfl

/-- The stage's output array: the product plus the bias row. -/
abbrev latentG (c : Dev nD) : Cert.Net.Arr 8192 2048 :=
  Cert.Net.affine (M := 8192) (K := 8192) (N := 2048) (latentLhsArr V c) (latentRhsArr V c) (latentBiasArr V c)

/-- What a position with `k = 7` leaves in the output window is the stage's block at that position. -/
theorem latentOut_apply (c : Dev nD) (t : Fin cfg1.N) (h : t.val % 8 = 7) (p q : Fin 1024) :
    latentOut (F := Ideal) V c t (ix2 p q) = latentG V c (ix2 (latentRow8 (t.val / 16) p) (latentRow2 (t.val / 8) q)) := by
  unfold latentOut
  refine (latent_pay3_apply _ (latentBiasBlk V c t) p q).trans ?_
  rw [latentAcc_last V c t h, latentBiasBlk_apply]
  rfl

/-! ## From the blocks to the array -/

/-- What a writing position writes back is its block of the stage's output. -/
theorem latent_flushed_eq (c : Dev nD) (t : Fin cfg1.N) (hf : (cfg1.win 3).flush t = true) :
    (latentDat (F := Ideal) V c).flushed 3 t = ((cfg1.win 3).blk t).view.read (Elt Ideal) (latentG V c) := by
  have h7 : t.val % 8 = 7 := (flush1_3 t).mp hf
  obtain ⟨-, -, -, -, -, -, e0, e1⟩ := latent_index_facts t
  have ht : t.val < 128 := t.isLt
  show (cfg1.win 3).cut (grid1.coords t) ((latentDat (F := Ideal) V c).after 3 t) = _
  rw [latentDat_after3]
  have key : ∀ y : S1024x1024.Idx, latentOut (F := Ideal) V c t y = latentG V c (((cfg1.win 3).blk t).view.emb y) := fun y => by
    obtain ⟨p, q, rfl⟩ : ∃ p q, y = ix2 p q := ⟨y 0, y 1, eq_ix2 y⟩
    rw [latentOut_apply V c t h7]
    refine congrArg (latentG V c) (funext fun a => Fin.ext ?_)
    match a with
    | ⟨0, _⟩ =>
      show t.val / 16 % 8 * 1024 + p.val = win1_3.index t (0 : Fin 2) * 1024 + 1 * p.val
      rw [e0]; omega
    | ⟨1, _⟩ =>
      show t.val / 8 % 2 * 1024 + q.val = win1_3.index t (1 : Fin 2) * 1024 + 1 * q.val
      rw [e1]; omega
  exact funext key

/-- An entry of the array is in a position's block iff each coordinate is in the block's range on its axis. -/
theorem latent_mem_blk (t : Fin cfg1.N) (i : S8192x2048.Idx) :
    i ∈ ((cfg1.win 3).blk t).view.set
      ↔ ∀ a : Fin 2, win1_3.index t a * S1024x1024.size a ≤ (i a).val ∧ (i a).val < win1_3.index t a * S1024x1024.size a + S1024x1024.size a := by
  show i ∈ ((View.whole main_v24).slice (win1_3.rect t)).set ↔ _
  rw [View.set_slice_whole, Rect.mem_set_unit]
  exact Iff.rfl

/-- Every entry is written: entry `(r, s)` by the eighth position of row block `r / 1024`, column block `s / 1024`. -/
theorem latent_cover (i : S8192x2048.Idx) :
    ∃ t : Fin cfg1.N, (cfg1.win 3).flush t = true ∧ i ∈ ((cfg1.win 3).blk t).view.set := by
  have hi0 : (i 0).val < 8192 := (i 0).isLt
  have hi1 : (i 1).val < 2048 := (i 1).isLt
  obtain ⟨n, hn⟩ : ∃ n, n = ((i 0).val / 1024 * 2 + (i 1).val / 1024) * 8 + 7 := ⟨_, rfl⟩
  have hlt : n < 128 := by omega
  obtain ⟨-, -, -, -, -, -, e0, e1⟩ := latent_index_facts ⟨n, hlt⟩
  refine ⟨⟨n, hlt⟩, (flush1_3 ⟨n, hlt⟩).mpr (by show n % 8 = 7; omega), ?_⟩
  rw [latent_mem_blk]
  intro a
  match a with
  | ⟨0, _⟩ =>
    show win1_3.index ⟨n, hlt⟩ (0 : Fin 2) * 1024 ≤ (i 0).val ∧ (i 0).val < win1_3.index ⟨n, hlt⟩ (0 : Fin 2) * 1024 + 1024
    rw [e0]
    show n / 16 * 1024 ≤ (i 0).val ∧ (i 0).val < n / 16 * 1024 + 1024
    omega
  | ⟨1, _⟩ =>
    show win1_3.index ⟨n, hlt⟩ (1 : Fin 2) * 1024 ≤ (i 1).val ∧ (i 1).val < win1_3.index ⟨n, hlt⟩ (1 : Fin 2) * 1024 + 1024
    rw [e1]
    show n / 8 % 2 * 1024 ≤ (i 1).val ∧ (i 1).val < n / 8 % 2 * 1024 + 1024
    omega

/-- The output array after the region, at the ideal values, as one function of the arrays the region was entered with. -/
theorem latent_value (c : Dev nD) :
    (latentDat (F := Ideal) V c).arrAt 3 cfg1.N
      = Cert.Net.affine (M := 8192) (K := 8192) (N := 2048) (V c main_v22) (V c main_v18) (V c main_v23) :=
  (latentDat (F := Ideal) V c).arrAt_eq_of_cover 3 (latentG V c) (fun t hf => latent_flushed_eq V c t hf) latent_cover

end

end Cert.KernelIdeal.Net

end
-- ==== Proof.Net.ExpandValue.lean ====
/-
  The third product's kernel, read as a value at the ideal instance: after its 64 grid points the output array holds,
  entry by entry, the product of the first operand's rows with the second operand's ROWS (the kernel transposes the
  block before the product) plus the bias — each output block written once, the blocks tiling the array.

  The steps. (1) At one grid point the three terms of the body, composed, give at entry `(p, q)` of the 1024 × 1024
  output block the sum over the whole contracted axis `k < 2048` of `a (p, k) · b (q, k)`, plus the bias row at `q`:
  the accumulator starts at the zero block, the product into a zero accumulator is the plain sum, the transposed
  block read at `(k, q)` is the block at `(q, k)`, the broadcast row read at `(p, q)` is the row at `(0, q)`, and a
  change of float format is the identity. (2) At the point with output block `(I, J)` the first operand's block is rows
  `1024·I …` of its array (all 2048 columns), the second operand's block rows `1024·J …` of its array, the bias block
  columns `1024·J …` of the bias row: so entry `(p, q)` of the block is the network stage at `(1024·I + p, 1024·J + q)`.
  (3) Every point writes its block back, and entry `(r, s)` of the array lies in the block `(r / 1024, s / 1024)`, which
  some point has: the blocks cover the array.
-/
import proofs.«113703_j70265664962673_1_alg».proof.Proof.Net.ExpandData
import proofs.«113703_j70265664962673_1_alg».proof.Proof.Net.Spec
import proofs.«113703_j70265664962673_1_alg».proof.Proof.LibDot
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-! ## One grid point: the body's terms at an entry of the output block -/

/-- The product's dimension record is the plain "rows by columns" one: a 1024 × 2048 block against a 2048 × 1024 block,
    contracting the shared axis, no batch axis. -/
theorem expandDot_plain : dot_S1024x2048_S2048x1024_S1024x1024_1_0_0_1_n_n = DotDims.plain 1024 2048 1024 := rfl

/-- The block the accumulator is reset to is zero at every entry. -/
theorem expandZero_apply (p q : Fin 1024) : (k2_pay1 (F := Ideal)) (ix2 p q) = 0 := by
  unfold k2_pay1
  rw [shapeCast_self]
  exact Ideal.ofBits_zero_f32

/-- The accumulating term at entry `(p, q)`: what the accumulator held there plus the sum, over the whole contracted
    axis, of the first block's row `p` against the second block's ROW `q` — the second block is transposed before the
    product, so its column `q` as the product sees it is row `q` of the block as loaded. -/
theorem expandAcc_apply (s : Vec Ideal S1024x1024 .f32) (a b : Vec Ideal S1024x2048 .bf16) (p q : Fin 1024) :
    k2_pay2 s a b (ix2 p q) = s (ix2 p q) + ∑ k : Fin 2048, a (ix2 p k) * b (ix2 q k) := by
  unfold k2_pay2
  simp only [shapeCast_self]
  rw [addf_apply, expandDot_plain]
  refine congrArg (s (ix2 p q) + ·) ?_
  refine (Cert.GNN.matmul_plain_zero_apply none a _ p q).trans ?_
  refine Finset.sum_congr rfl fun k _ => ?_
  rw [transpose_ix2_apply]

/-- The closing term at entry `(p, q)`: the accumulator there plus the bias row at `q` (the one row is broadcast down
    all 1024 rows; the narrowing of the float format is the identity on extended reals). -/
theorem expandClose_apply (s : Vec Ideal S1024x1024 .f32) (r : Vec Ideal S1x1024 .f32) (p q : Fin 1024) :
    k2_pay3 s r (ix2 p q) = s (ix2 p q) + r (ix2 0 q) := by
  unfold k2_pay3
  simp only [shapeCast_self]
  rw [truncf_apply, addf_apply, broadcastTo_1b_ab_apply]

/-- The three terms composed, as the body runs them at every point: `0 + ∑ₖ a (p, k) · b (q, k)`, then the bias. -/
theorem expandTerms_apply (a b : Vec Ideal S1024x2048 .bf16) (r : Vec Ideal S1x1024 .f32) (p q : Fin 1024) :
    k2_pay3 (k2_pay2 k2_pay1 a b) r (ix2 p q) = (∑ k : Fin 2048, a (ix2 p k) * b (ix2 q k)) + r (ix2 0 q) := by
  rw [expandClose_apply, expandAcc_apply, expandZero_apply, zero_add]

section
variable (V : (c : Dev nD) → (b : Ref sig .tc) → Buf (Elt Ideal) ((c : Thread nD τ).loc b))

/-! ## Where each block sits in its array -/

/-- The block indices over the 64 points: the first operand's block is at the output block's row index and takes
    the whole contracted axis; the second operand's block is at the output block's COLUMN index, again the whole
    contracted axis; the bias block is at the output block's column index in its one row; and the output's block
    indices stay below 8 on both axes. -/
theorem expand_index_facts : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7
    ∧ win2_3.index t (1 : Fin 2) ≤ 7 :=
  (by decide +kernel : ∀ t : Fin grid2.N, _)

/-- Every one of the 8 × 8 output blocks is some point's. -/
theorem expand_index_onto : ∀ (q0 q1 : Fin 8), ∃ t : Fin cfg2.N, win2_3.index t = ![q0.val, q1.val] :=
  (by decide +kernel : ∀ (q0 q1 : Fin 8), ∃ t : Fin grid2.N, win2_3.index t = ![q0.val, q1.val])

/-- The first operand's block at point `t`, entry `(p, k)`, is the array's entry `(1024 · I + p, k)`, `I` the block's
    row index (its column index is `0`: one block spans the contracted axis). -/
theorem expandBlk0_apply (c : Dev nD) (t : Fin cfg2.N) (p : Fin 1024) (k : Fin 2048) (P : Fin 8192)
    (hP : P.val = win2_0.index t 0 * 1024 + p.val) (h1 : win2_0.index t 1 = 0) :
    (expandBlk V c 0 t : Vec Ideal S1024x2048 .bf16) (ix2 p k) = (V c main_v25 : S8192x2048.Idx → EReal) (ix2 P k) := by
  unfold expandBlk
  rw [View.read_apply]
  show V c main_v25 _ = V c main_v25 _
  congr 1
  funext a
  apply Fin.ext
  match a with
  | ⟨0, _⟩ => show win2_0.index t 0 * 1024 + 1 * p.val = P.val; omega
  | ⟨1, _⟩ => show win2_0.index t 1 * 2048 + 1 * k.val = k.val; omega

/-- The second operand's block at point `t`, entry `(q, k)`, is the array's entry `(1024 · J + q, k)`. -/
theorem expandBlk1_apply (c : Dev nD) (t : Fin cfg2.N) (q : Fin 1024) (k : Fin 2048) (Q : Fin 8192)
    (hQ : Q.val = win2_1.index t 0 * 1024 + q.val) (h1 : win2_1.index t 1 = 0) :
    (expandBlk V c 1 t : Vec Ideal S1024x2048 .bf16) (ix2 q k) = (V c main_v18 : S8192x2048.Idx → EReal) (ix2 Q k) := by
  unfold expandBlk
  rw [View.read_apply]
  show V c main_v18 _ = V c main_v18 _
  congr 1
  funext a
  apply Fin.ext
  match a with
  | ⟨0, _⟩ => show win2_1.index t 0 * 1024 + 1 * q.val = Q.val; omega
  | ⟨1, _⟩ => show win2_1.index t 1 * 2048 + 1 * k.val = k.val; omega

/-- The bias block at point `t`, entry `(0, q)`, is the bias row's entry `(0, 1024 · J + q)`. -/
theorem expandBlk2_apply (c : Dev nD) (t : Fin cfg2.N) (q : Fin 1024) (Q : Fin 8192)
    (hQ : Q.val = win2_2.index t 1 * 1024 + q.val) (h0 : win2_2.index t 0 = 0) :
    (expandBlk V c 2 t : Vec Ideal S1x1024 .f32) (ix2 0 q) = (V c main_v26 : S1x8192.Idx → EReal) (ix2 0 Q) := by
  unfold expandBlk
  rw [View.read_apply]
  show V c main_v26 _ = V c main_v26 _
  congr 1
  funext a
  apply Fin.ext
  match a with
  | ⟨0, _⟩ => show win2_2.index t 0 * 1 + 1 * 0 = 0; omega
  | ⟨1, _⟩ => show win2_2.index t 1 * 1024 + 1 * q.val = Q.val; omega

/-! ## What a point writes back, and the cover -/

/-- The network stage `A · Bᵀ + b` of the arrays the region was entered with. -/
abbrev expandStage (c : Dev nD) : S8192x8192.Idx → EReal :=
  Cert.Net.affineT (M := 8192) (K := 2048) (N := 8192) (V c main_v25) (V c main_v18) (V c main_v26)

/-- What point `t` writes back is block `t` of the network stage: entry `(p, q)` of the block is the composed terms of
    the three input blocks at `(p, q)`, each input block entry is the array entry its rectangle names, and the output
    block's entry `(p, q)` sits at `(1024 · I + p, 1024 · J + q)` of the array. -/
theorem expand_flushed_eq (c : Dev nD) (t : Fin cfg2.N) :
    (expandDat (F := Ideal) V c).flushed 3 t = ((cfg2.win 3).blk t).view.read (Elt Ideal) (expandStage V c) := by
  show (cfg2.win 3).cut (grid2.coords t) ((expandDat (F := Ideal) V c).after 3 t) = _
  rw [expandDat_after3]
  obtain ⟨e0, e1, e2, e3, e4, e5, e6, e7⟩ := expand_index_facts t
  funext y
  rw [View.read_apply]
  have hy0 : (y 0).val < 1024 := (y 0).isLt
  have hy1 : (y 1).val < 1024 := (y 1).isLt
  have hP : win2_3.index t 0 * 1024 + (y 0).val < 8192 := by omega
  have hQ : win2_3.index t 1 * 1024 + (y 1).val < 8192 := by omega
  have hL : win2_3.xinj (grid2.coords t) y = ix2 (⟨(y 0).val, hy0⟩ : Fin 1024) (⟨(y 1).val, hy1⟩ : Fin 1024) :=
    funext fun a => Fin.ext (by match a with | ⟨0, _⟩ => rfl | ⟨1, _⟩ => rfl)
  have hR : ((cfg2.win 3).blk t).view.emb y
      = ix2 (⟨win2_3.index t 0 * 1024 + (y 0).val, hP⟩ : Fin 8192) (⟨win2_3.index t 1 * 1024 + (y 1).val, hQ⟩ : Fin 8192) :=
    funext fun a => Fin.ext (by
      match a with
      | ⟨0, _⟩ => show win2_3.index t 0 * 1024 + 1 * (y 0).val = win2_3.index t 0 * 1024 + (y 0).val; omega
      | ⟨1, _⟩ => show win2_3.index t 1 * 1024 + 1 * (y 1).val = win2_3.index t 1 * 1024 + (y 1).val; omega)
  show expandOut V c t (win2_3.xinj (grid2.coords t) y) = expandStage V c (((cfg2.win 3).blk t).view.emb y)
  refine (congrArg (expandOut V c t) hL).trans ?_
  refine Eq.trans ?_ (congrArg (expandStage V c) hR).symm
  unfold expandOut
  refine (expandTerms_apply (expandBlk V c 0 t) (expandBlk V c 1 t) (expandBlk V c 2 t) ⟨(y 0).val, hy0⟩ ⟨(y 1).val, hy1⟩).trans ?_
  refine Eq.trans ?_ (Cert.Net.affineT_apply (M := 8192) (K := 2048) (N := 8192) (V c main_v25) (V c main_v18) (V c main_v26) ⟨_, hP⟩ ⟨_, hQ⟩).symm
  unfold Cert.Net.dotTAt
  refine congrArg₂ (· + ·) (Finset.sum_congr rfl fun k _ => ?_) ?_
  · exact congrArg₂ (· * ·)
      (expandBlk0_apply V c t ⟨(y 0).val, hy0⟩ k ⟨_, hP⟩ (by show _ = win2_0.index t 0 * 1024 + (y 0).val; rw [e0]) e1)
      (expandBlk1_apply V c t ⟨(y 1).val, hy1⟩ k ⟨_, hQ⟩ (by show _ = win2_1.index t 0 * 1024 + (y 1).val; rw [e2]) e3)
  · exact expandBlk2_apply V c t ⟨(y 1).val, hy1⟩ ⟨_, hQ⟩ (by show _ = win2_2.index t 1 * 1024 + (y 1).val; rw [e5]) e4

/-- An entry of the output array is in point `t`'s block iff each coordinate is in the block's range on its axis. -/
theorem expand_mem_blk (t : Fin cfg2.N) (i : S8192x8192.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v27).slice (win2_3.rect t)).set ↔ _
  rw [View.set_slice_whole, Rect.mem_set_unit]
  exact Iff.rfl

/-- The blocks cover the array: entry `(r, s)` is in the block `(r / 1024, s / 1024)`, and every point writes back. -/
theorem expand_cover (i : S8192x8192.Idx) : ∃ t : Fin cfg2.N, (cfg2.win 3).flush t = true ∧ i ∈ ((cfg2.win 3).blk t).view.set := by
  have hi0 : (i 0).val < 8192 := (i 0).isLt
  have hi1 : (i 1).val < 8192 := (i 1).isLt
  obtain ⟨t, ht⟩ := expand_index_onto ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [expand_mem_blk]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-- The output array after the region, at the ideal values, as one function of the arrays the region was entered with. -/
theorem expand_value (c : Dev nD) :
    (expandDat (F := Ideal) V c).arrAt 3 cfg2.N
      = Cert.Net.affineT (M := 8192) (K := 2048) (N := 8192) (V c main_v25) (V c main_v18) (V c main_v26) :=
  (expandDat (F := Ideal) V c).arrAt_eq_of_cover 3 (expandStage V c) (fun t _ => expand_flushed_eq V c t) expand_cover

end

end Cert.KernelIdeal.Net

end
-- ==== Proof.Net.ReconValue.lean ====
/-
  The fourth product's kernel, read as a value at the ideal instance: after its 128 grid points the output array
  holds, entry by entry, the product of the first operand's rows with the second operand's ROWS (the kernel transposes
  each block before the partial product) plus the bias — the accumulator after the eighth block of the contracted axis
  is the sum over the whole axis; each output block is written once, at its eighth point, and the blocks tile the array.

  The steps: each of the kernel's three terms read at one entry (the zero block, the update "old accumulator plus the
  block product", the closing "accumulator plus bias row"); each input block read where its rectangle sits in its array
  (block index times 1024 plus the coordinate inside the block, the block indices being `t / 16`, `t / 8 % 2` and
  `t % 8` at position `t`); by induction on the position, the accumulator as the sum of the terms of the first
  `t % 8 + 1` stretches of 1024 of the contracted axis; the eight stretches re-indexed as the one sum over 8192; and the
  output blocks, written where `t % 8 = 7`, covering the array.
-/
import proofs.«113703_j70265664962673_1_alg».proof.Proof.Net.ReconData
import proofs.«113703_j70265664962673_1_alg».proof.Proof.Net.Spec
import proofs.«113703_j70265664962673_1_alg».proof.Proof.LibDot
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Data.Fintype.BigOperators
import Mathlib.Logic.Equiv.Fin.Basic

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-! ## The kernel's three terms at one entry -/

/-- The printed dimension record of the block product is the plain rows-by-columns record. -/
theorem recon_dot_eq : dot_S1024x1024_S1024x1024_S1024x1024_1_0_0_1_n_n = DotDims.plain 1024 1024 1024 := rfl

/-- The zero block at an entry. -/
theorem recon_pay1_apply (p q : Fin 1024) : (k3_pay1 (F := Ideal)) (ix2 p q) = 0 := by
  unfold k3_pay1
  simp only [shapeCast_self]
  exact Ideal.ofBits_zero_f32

/-- The update term at an entry: the old accumulator plus the rows of the first block against the ROWS of the second. -/
theorem recon_pay2_apply (s : Vec Ideal S1024x1024 .f32) (a b : Vec Ideal S1024x1024 .bf16) (p q : Fin 1024) :
    k3_pay2 (F := Ideal) s a b (ix2 p q) = s (ix2 p q) + ∑ k : Fin 1024, a (ix2 p k) * b (ix2 q k) := by
  unfold k3_pay2
  simp only [shapeCast_self]
  show s (ix2 p q) + FloatOps.matmul (F := Ideal) (φ₁ := .bf16) (φ₂ := .bf16) dot_S1024x1024_S1024x1024_S1024x1024_1_0_0_1_n_n none a
      (transpose S1024x1024 [1, 0] b transposes_S1024x1024_p1_0_S1024x1024) (constant (F := Ideal) S1024x1024 .f32 0x00000000#32) (ix2 p q) = _
  rw [recon_dot_eq]
  refine congrArg (s (ix2 p q) + ·) ?_
  refine (Cert.GNN.matmul_plain_zero_apply none a _ p q).trans ?_
  refine Finset.sum_congr rfl fun k _ => ?_
  refine congrArg (a (ix2 p k) * ·) ?_
  exact transpose_apply [1, 0] b transposes_S1024x1024_p1_0_S1024x1024 (ix2 k q) (ix2 q k) (fun d => by
    match d with
    | ⟨0, _⟩ => rfl
    | ⟨1, _⟩ => rfl)

/-- The closing term at an entry: the accumulator plus the bias row's entry of that column. -/
theorem recon_pay3_apply (s : Vec Ideal S1024x1024 .f32) (r : Vec Ideal S1x1024 .f32) (p q : Fin 1024) :
    k3_pay3 (F := Ideal) s r (ix2 p q) = s (ix2 p q) + r (ix2 0 q) := by
  unfold k3_pay3
  simp only [shapeCast_self]
  refine congrArg (s (ix2 p q) + ·) ?_
  exact broadcastTo_apply r broadcasts_S1x1024_S1024x1024 (ix2 p q) (ix2 0 q) (fun d => by
    match d with
    | ⟨0, _⟩ => rfl
    | ⟨1, _⟩ => rfl)

/-! ## Sums over consecutive stretches, the grid's block indices, arrays at natural coordinates -/

/-- A sum over `m * n` consecutive naturals, cut into `m` runs of `n`. -/
theorem recon_sum_fin_mul {β : Type*} [AddCommMonoid β] (m n : ℕ) (g : ℕ → β) :
    ∑ k : Fin (m * n), g k.val = ∑ j ∈ Finset.range m, ∑ l : Fin n, g (n * j + l.val) := by
  rw [Finset.sum_range, ← Fintype.sum_prod_type' (fun (j : Fin m) (l : Fin n) => g (n * j.val + l.val)),
    ← Equiv.sum_comp finProdFinEquiv (fun k : Fin (m * n) => g k.val)]
  refine Finset.sum_congr rfl fun x _ => ?_
  show g (x.2.val + n * x.1.val) = _
  rw [Nat.add_comm]

/-- The grid has 128 points. -/
theorem recon_N : cfg3.N = 128 := (by decide : grid3.N = 128)

/-- The block indices of the four windows at position `t`: the contracted axis runs fastest, then the column block,
    then the row block. -/
theorem recon_idx : ∀ t : Fin cfg3.N,
    win3_0.index t (0 : Fin 2) = t.val / 16 ∧ win3_0.index t (1 : Fin 2) = t.val % 8
    ∧ win3_1.index t (0 : Fin 2) = t.val / 8 % 2 ∧ win3_1.index t (1 : Fin 2) = t.val % 8
    ∧ win3_2.index t (0 : Fin 2) = 0 ∧ win3_2.index t (1 : Fin 2) = t.val / 8 % 2
    ∧ win3_3.index t (0 : Fin 2) = t.val / 16 ∧ win3_3.index t (1 : Fin 2) = t.val / 8 % 2 :=
  (by decide +kernel : ∀ t : Fin grid3.N, _)

/-- An array's entry at natural coordinates, zero outside the array. -/
def reconAt {M N : ℕ} (X : Cert.Net.Arr M N) (r s : ℕ) : EReal :=
  if h : r < M ∧ s < N then X (ix2 ⟨r, h.1⟩ ⟨s, h.2⟩) else 0

theorem reconAt_of_lt {M N : ℕ} (X : Cert.Net.Arr M N) (r s : ℕ) (hr : r < M) (hs : s < N) :
    reconAt X r s = X (ix2 ⟨r, hr⟩ ⟨s, hs⟩) := dif_pos ⟨hr, hs⟩

section
variable (V : (c : Dev nD) → (b : Ref sig .tc) → Buf (Elt Ideal) ((c : Thread nD τ).loc b))

/-! ## The input blocks, read where their rectangles sit -/

/-- The three input blocks at position `t`, at their literal types. -/
abbrev reconA (c : Dev nD) (t : Fin cfg3.N) : Vec Ideal S1024x1024 .bf16 := reconBlk (F := Ideal) V c 0 t
abbrev reconB (c : Dev nD) (t : Fin cfg3.N) : Vec Ideal S1024x1024 .bf16 := reconBlk (F := Ideal) V c 1 t
abbrev reconBias (c : Dev nD) (t : Fin cfg3.N) : Vec Ideal S1x1024 .f32 := reconBlk (F := Ideal) V c 2 t

/-- The first operand's block sits at row block `t / 16`, block `t % 8` of the contracted axis. -/
theorem reconA_apply (c : Dev nD) (t : Fin cfg3.N) (p k : Fin 1024) :
    reconA V c t (ix2 p k) = reconAt (V c main_v27) (1024 * (t.val / 16) + p.val) (1024 * (t.val % 8) + k.val) := by
  obtain ⟨e0, e1, -⟩ := recon_idx t
  have hp := p.isLt
  have hk := k.isLt
  have ht : t.val < 128 := lt_of_lt_of_eq t.isLt recon_N
  have hr : 1024 * (t.val / 16) + p.val < 8192 := by omega
  have hs : 1024 * (t.val % 8) + k.val < 8192 := by omega
  rw [reconAt_of_lt _ _ _ hr hs]
  show V c main_v27 (((cfg3.win 0).blk t).view.emb (ix2 p k)) = V c main_v27 (ix2 ⟨_, hr⟩ ⟨_, hs⟩)
  refine congrArg (V c main_v27) (funext fun a => Fin.ext ?_)
  match a with
  | ⟨0, _⟩ => show win3_0.index t (0 : Fin 2) * 1024 + 1 * p.val = 1024 * (t.val / 16) + p.val; omega
  | ⟨1, _⟩ => show win3_0.index t (1 : Fin 2) * 1024 + 1 * k.val = 1024 * (t.val % 8) + k.val; omega

/-- The second operand's block sits at column block `t / 8 % 2` (its ROW block), block `t % 8` of the contracted axis. -/
theorem reconB_apply (c : Dev nD) (t : Fin cfg3.N) (q k : Fin 1024) :
    reconB V c t (ix2 q k) = reconAt (V c main_v17) (1024 * (t.val / 8 % 2) + q.val) (1024 * (t.val % 8) + k.val) := by
  obtain ⟨-, -, e0, e1, -⟩ := recon_idx t
  have hq := q.isLt
  have hk := k.isLt
  have ht : t.val < 128 := lt_of_lt_of_eq t.isLt recon_N
  have hr : 1024 * (t.val / 8 % 2) + q.val < 2048 := by omega
  have hs : 1024 * (t.val % 8) + k.val < 8192 := by omega
  rw [reconAt_of_lt _ _ _ hr hs]
  show V c main_v17 (((cfg3.win 1).blk t).view.emb (ix2 q k)) = V c main_v17 (ix2 ⟨_, hr⟩ ⟨_, hs⟩)
  refine congrArg (V c main_v17) (funext fun a => Fin.ext ?_)
  match a with
  | ⟨0, _⟩ => show win3_1.index t (0 : Fin 2) * 1024 + 1 * q.val = 1024 * (t.val / 8 % 2) + q.val; omega
  | ⟨1, _⟩ => show win3_1.index t (1 : Fin 2) * 1024 + 1 * k.val = 1024 * (t.val % 8) + k.val; omega

/-- The bias block is the stretch of the bias row over column block `t / 8 % 2`. -/
theorem reconBias_apply (c : Dev nD) (t : Fin cfg3.N) (q : Fin 1024) :
    reconBias V c t (ix2 0 q) = reconAt (V c main_v28) 0 (1024 * (t.val / 8 % 2) + q.val) := by
  obtain ⟨-, -, -, -, e0, e1, -⟩ := recon_idx t
  have hq := q.isLt
  have ht : t.val < 128 := lt_of_lt_of_eq t.isLt recon_N
  have hs : 1024 * (t.val / 8 % 2) + q.val < 2048 := by omega
  rw [reconAt_of_lt _ _ _ Nat.one_pos hs]
  show V c main_v28 (((cfg3.win 2).blk t).view.emb (ix2 0 q)) = V c main_v28 (ix2 ⟨0, Nat.one_pos⟩ ⟨_, hs⟩)
  refine congrArg (V c main_v28) (funext fun a => Fin.ext ?_)
  match a with
  | ⟨0, _⟩ => show win3_2.index t (0 : Fin 2) * 1 + 1 * 0 = 0; omega
  | ⟨1, _⟩ => show win3_2.index t (1 : Fin 2) * 1024 + 1 * q.val = 1024 * (t.val / 8 % 2) + q.val; omega

/-! ## The accumulator, position by position, and the whole contracted axis -/

/-- One term of the whole product, at natural coordinates: row `r` of the first operand against ROW `s` of the second,
    at position `k` of the contracted axis. -/
def reconTerm (c : Dev nD) (r s k : ℕ) : EReal := reconAt (V c main_v27) r k * reconAt (V c main_v17) s k

/-- The partial product of the two blocks at position `n` is the stretch `n % 8` of the contracted axis. -/
theorem recon_partial (c : Dev nD) (n : ℕ) (hn : n < cfg3.N) (p q : Fin 1024) :
    ∑ k : Fin 1024, reconA V c ⟨n, hn⟩ (ix2 p k) * reconB V c ⟨n, hn⟩ (ix2 q k)
      = ∑ l : Fin 1024, reconTerm V c (1024 * (n / 16) + p.val) (1024 * (n / 8 % 2) + q.val) (1024 * (n % 8) + l.val) :=
  Finset.sum_congr rfl fun k _ => by
    rw [reconA_apply V c ⟨n, hn⟩ p k, reconB_apply V c ⟨n, hn⟩ q k]
    rfl

/-- Where the contracted axis starts over, the accumulator is the partial product alone. -/
theorem reconAcc_first_apply (c : Dev nD) (n : ℕ) (hn : n < cfg3.N) (h : n % 8 = 0) (p q : Fin 1024) :
    reconAcc (F := Ideal) V c n hn (ix2 p q)
      = ∑ k : Fin 1024, reconA V c ⟨n, hn⟩ (ix2 p k) * reconB V c ⟨n, hn⟩ (ix2 q k) := by
  refine (congrFun (reconAcc_first (F := Ideal) V c ⟨n, hn⟩ h) (ix2 p q)).trans ?_
  refine (recon_pay2_apply (k3_pay1 (F := Ideal)) (reconA V c ⟨n, hn⟩) (reconB V c ⟨n, hn⟩) p q).trans ?_
  rw [recon_pay1_apply, zero_add]

/-- Elsewhere it is the previous accumulator plus the partial product. -/
theorem reconAcc_succ_apply (c : Dev nD) (n : ℕ) (hn : n + 1 < cfg3.N) (h : ¬(n + 1) % 8 = 0) (p q : Fin 1024) :
    reconAcc (F := Ideal) V c (n + 1) hn (ix2 p q)
      = reconAcc (F := Ideal) V c n (Nat.lt_of_succ_lt hn) (ix2 p q)
        + ∑ k : Fin 1024, reconA V c ⟨n + 1, hn⟩ (ix2 p k) * reconB V c ⟨n + 1, hn⟩ (ix2 q k) :=
  (congrFun (if_neg h : reconAcc (F := Ideal) V c (n + 1) hn
      = k3_pay2 (reconAcc (F := Ideal) V c n (Nat.lt_of_succ_lt hn)) (reconA V c ⟨n + 1, hn⟩) (reconB V c ⟨n + 1, hn⟩)) (ix2 p q)).trans
    (recon_pay2_apply (reconAcc (F := Ideal) V c n (Nat.lt_of_succ_lt hn)) (reconA V c ⟨n + 1, hn⟩) (reconB V c ⟨n + 1, hn⟩) p q)

/-- After position `n` the accumulator holds, at `(p, q)`, the terms of the first `n % 8 + 1` stretches of the
    contracted axis, for the row block `n / 16` and the column block `n / 8 % 2`. -/
theorem reconAcc_apply (c : Dev nD) : ∀ (n : ℕ) (hn : n < cfg3.N) (p q : Fin 1024),
    reconAcc (F := Ideal) V c n hn (ix2 p q)
      = ∑ j ∈ Finset.range (n % 8 + 1), ∑ l : Fin 1024,
          reconTerm V c (1024 * (n / 16) + p.val) (1024 * (n / 8 % 2) + q.val) (1024 * j + l.val)
  | 0, hn, p, q => by
    rw [reconAcc_first_apply V c 0 hn rfl p q, recon_partial V c 0 hn p q]
    exact (Finset.sum_range_one (fun j => ∑ l : Fin 1024,
      reconTerm V c (1024 * (0 / 16) + p.val) (1024 * (0 / 8 % 2) + q.val) (1024 * j + l.val))).symm
  | n + 1, hn, p, q => by
    by_cases h : (n + 1) % 8 = 0
    · rw [reconAcc_first_apply V c (n + 1) hn h p q, recon_partial V c (n + 1) hn p q, h]
      exact (Finset.sum_range_one (fun j => ∑ l : Fin 1024,
        reconTerm V c (1024 * ((n + 1) / 16) + p.val) (1024 * ((n + 1) / 8 % 2) + q.val) (1024 * j + l.val))).symm
    · have h1 : (n + 1) % 8 = n % 8 + 1 := by omega
      have h2 : (n + 1) / 16 = n / 16 := by omega
      have h3 : (n + 1) / 8 % 2 = n / 8 % 2 := by omega
      rw [reconAcc_succ_apply V c n hn h p q, recon_partial V c (n + 1) hn p q,
        reconAcc_apply c n (Nat.lt_of_succ_lt hn) p q, h1, h2, h3, Finset.sum_range_succ _ (n % 8 + 1)]

/-- The eight stretches together are the whole contracted axis. -/
theorem recon_whole (c : Dev nD) (r s : ℕ) (hr : r < 8192) (hs : s < 2048) :
    ∑ j ∈ Finset.range 8, ∑ l : Fin 1024, reconTerm V c r s (1024 * j + l.val)
      = Cert.Net.dotTAt (M := 8192) (K := 8192) (N := 2048) (V c main_v27) (V c main_v17) ⟨r, hr⟩ ⟨s, hs⟩ := by
  rw [← recon_sum_fin_mul 8 1024 (reconTerm V c r s)]
  show ∑ k : Fin 8192, reconTerm V c r s k.val = _
  unfold Cert.Net.dotTAt
  refine Finset.sum_congr rfl fun k _ => ?_
  unfold reconTerm
  rw [reconAt_of_lt _ _ _ hr k.isLt, reconAt_of_lt _ _ _ hs k.isLt]

/-! ## What is written back, where, and the array after the region -/

/-- The network stage this region computes, of the arrays it was entered with. -/
abbrev reconG (c : Dev nD) : Cert.Net.Arr 8192 2048 :=
  Cert.Net.affineT (M := 8192) (K := 8192) (N := 2048) (V c main_v27) (V c main_v17) (V c main_v28)

/-- What a point with `k = 7` writes back is its block of the stage: the accumulator there is the whole sum, and the
    closing term adds the bias entry of the column. -/
theorem recon_flushed_eq (c : Dev nD) (t : Fin cfg3.N) (hf : (cfg3.win 3).flush t = true) :
    (reconDat (F := Ideal) V c).flushed 3 t = ((cfg3.win 3).blk t).view.read (Elt Ideal) (reconG V c) := by
  have h7 : t.val % 8 = 7 := (flush3_3 t).mp hf
  have ht : t.val < 128 := lt_of_lt_of_eq t.isLt recon_N
  obtain ⟨-, -, -, -, -, -, e0, e1⟩ := recon_idx t
  show (cfg3.win 3).cut (grid3.coords t) ((reconDat (F := Ideal) V c).after 3 t) = _
  rw [reconDat_after3]
  funext j
  obtain ⟨p, q, rfl⟩ : ∃ (p q : Fin 1024), j = ix2 p q := ⟨j 0, j 1, eq_ix2 j⟩
  have hp := p.isLt
  have hq := q.isLt
  have hr : 1024 * (t.val / 16) + p.val < 8192 := by omega
  have hs : 1024 * (t.val / 8 % 2) + q.val < 2048 := by omega
  have hemb : ((cfg3.win 3).blk t).view.emb (ix2 p q) = ix2 (⟨_, hr⟩ : Fin 8192) (⟨_, hs⟩ : Fin 2048) :=
    funext fun a => Fin.ext (by
      match a with
      | ⟨0, _⟩ => show win3_3.index t (0 : Fin 2) * 1024 + 1 * p.val = 1024 * (t.val / 16) + p.val; omega
      | ⟨1, _⟩ => show win3_3.index t (1 : Fin 2) * 1024 + 1 * q.val = 1024 * (t.val / 8 % 2) + q.val; omega)
  show reconOut (F := Ideal) V c t (ix2 p q) = reconG V c (((cfg3.win 3).blk t).view.emb (ix2 p q))
  rw [hemb]
  refine Eq.trans ?_ (Cert.Net.affineT_apply (M := 8192) (K := 8192) (N := 2048) (V c main_v27) (V c main_v17) (V c main_v28)
    ⟨_, hr⟩ ⟨_, hs⟩).symm
  unfold reconOut
  refine (recon_pay3_apply (reconAcc (F := Ideal) V c t.val t.isLt) (reconBias V c t) p q).trans ?_
  rw [reconAcc_apply V c t.val t.isLt p q, h7, reconBias_apply V c t q, recon_whole V c _ _ hr hs,
    reconAt_of_lt _ _ _ Nat.one_pos hs]
  rfl

/-- An entry of the output array is in point `t`'s block iff each coordinate is in the block's range on its axis. -/
theorem recon_mem_blk (t : Fin cfg3.N) (i : S8192x2048.Idx) :
    i ∈ ((cfg3.win 3).blk t).view.set
      ↔ ∀ a : Fin 2, win3_3.index t a * S1024x1024.size a ≤ (i a).val
          ∧ (i a).val < win3_3.index t a * S1024x1024.size a + S1024x1024.size a := by
  show i ∈ ((View.whole main_v29).slice (win3_3.rect t)).set ↔ _
  rw [View.set_slice_whole, Rect.mem_set_unit]
  exact Iff.rfl

/-- Every entry is written: entry `(r, s)` by the last point of row block `r / 1024`, column block `s / 1024`. -/
theorem recon_cover (i : S8192x2048.Idx) :
    ∃ t : Fin cfg3.N, (cfg3.win 3).flush t = true ∧ i ∈ ((cfg3.win 3).blk t).view.set := by
  have hi0 : (i 0).val < 8192 := (i 0).isLt
  have hi1 : (i 1).val < 2048 := (i 1).isLt
  have hn : 16 * ((i 0).val / 1024) + 8 * ((i 1).val / 1024) + 7 < cfg3.N := by rw [recon_N]; omega
  obtain ⟨e0, e1⟩ : win3_3.index ⟨_, hn⟩ (0 : Fin 2) = (i 0).val / 1024 ∧ win3_3.index ⟨_, hn⟩ (1 : Fin 2) = (i 1).val / 1024 := by
    obtain ⟨-, -, -, -, -, -, e0, e1⟩ := recon_idx ⟨_, hn⟩
    dsimp only at e0 e1
    constructor <;> omega
  refine ⟨⟨_, hn⟩, (flush3_3 _).mpr (by dsimp only; omega), ?_⟩
  rw [recon_mem_blk]
  intro a
  match a with
  | ⟨0, _⟩ =>
    show win3_3.index ⟨_, hn⟩ (0 : Fin 2) * 1024 ≤ (i 0).val ∧ (i 0).val < win3_3.index ⟨_, hn⟩ (0 : Fin 2) * 1024 + 1024
    omega
  | ⟨1, _⟩ =>
    show win3_3.index ⟨_, hn⟩ (1 : Fin 2) * 1024 ≤ (i 1).val ∧ (i 1).val < win3_3.index ⟨_, hn⟩ (1 : Fin 2) * 1024 + 1024
    omega

/-- The output array after the region, at the ideal values, as one function of the arrays the region was entered with. -/
theorem recon_value (c : Dev nD) :
    (reconDat (F := Ideal) V c).arrAt 3 cfg3.N
      = Cert.Net.affineT (M := 8192) (K := 8192) (N := 2048) (V c main_v27) (V c main_v17) (V c main_v28) :=
  (reconDat (F := Ideal) V c).arrAt_eq_of_cover 3 (reconG V c) (fun t hf => recon_flushed_eq V c t hf) recon_cover

end

end Cert.KernelIdeal.Net

end
-- ==== Proof.Net.Bridge.lean ====
/-
  The kernel program's two results are the reference's, at the ideal instance, from memories that agree on the
  arguments. Each region's output array is a network stage of the arrays it was entered with; those arrays are, through
  the host operations between the regions, the launch memory's arguments and the earlier regions' outputs; and the
  reference's stages are the same network stages of the same arguments. So, region by region, what the kernel program
  leaves equals the reference's stage: the hidden code, the latent code, the expansion, the reconstruction.
-/
import proofs.«113703_j70265664962673_1_alg».proof.Proof.Net.HostReads
import proofs.«113703_j70265664962673_1_alg».proof.Proof.Net.RefStages
import proofs.«113703_j70265664962673_1_alg».proof.Proof.Net.EncodeValue
import proofs.«113703_j70265664962673_1_alg».proof.Proof.Net.LatentValue
import proofs.«113703_j70265664962673_1_alg».proof.Proof.Net.ExpandValue
import proofs.«113703_j70265664962673_1_alg».proof.Proof.Net.ReconValue

set_option maxRecDepth 16384

noncomputable section

namespace Cert.KernelIdeal.Net

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.ReferenceIdeal.Read Cert.ReferenceIdeal.Stages
variable {F : FTy → Type} [FloatOps F]

local notation "𝕄" => MT nD τ sig Unit (Elt F) ℕ (UR sig nD τ) ℕ

variable (m : (ℓ : Loc nD τ sig) → Buf (Elt Ideal) ℓ) (c : Dev nD)

/-- The hidden code the first region leaves is the reference's. -/
theorem hidden_out :
    outs m 6 main_v22 c
      = val_main_v40 (F := Ideal) (m ((c : Thread nD τ).loc main_arg0)) (m ((c : Thread nD τ).loc main_arg1)) (m ((c : Thread nD τ).loc main_arg3)) (m ((c : Thread nD τ).loc main_arg5)) (m ((c : Thread nD τ).loc main_arg9)) (m ((c : Thread nD τ).loc main_arg10)) (m ((c : Thread nD τ).loc main_arg11)) (m ((c : Thread nD τ).loc main_arg13)) := by
  rw [outs_v22, encode_value, VA_v16, VA_v17, VA_v19, VA_v20, VA_v21]
  exact (hidden_eq _ _ _ _ _ _ _ _).symm

/-- The latent code the second region leaves is the reference's. -/
theorem latent_out :
    outs m 8 main_v24 c
      = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [outs_v24, latent_value, VB_v22, hidden_out, VB_v18, VA_v18, VB_v23]
  exact (latent_eq _ _ _ _ _ _ _ _ _ _ _ _ _).symm

/-- The expansion the third region leaves is the reference's. -/
theorem expand_out :
    outs m 10 main_v27 c
      = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [outs_v27, expand_value, VC_v25, latent_out, VC_v18, VA_v18, VC_v26]
  exact (expand_eq _ _ _ _ _ _ _ _ _ _ _ _ _ _).symm

/-- The reconstruction the fourth region leaves is the reference's. -/
theorem recon_out :
    outs m 12 main_v29 c
      = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [outs_v29, recon_value, VD_v27, expand_out, VD_v17, VA_v17, VD_v28]
  exact (recon_eq _ _ _ _ _ _ _ _ _ _ _ _ _ _ _).symm

/-- At the end of @main the two result buffers hold the reference's stages of the launch memory's arguments. -/
theorem end_recon : V12 m (outs m) c main_v29
    = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (end_v29 m c).trans (recon_out m c)
theorem end_latent : V12 m (outs m) c main_v24
    = val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (end_v24 m c).trans (latent_out m c)

end Cert.KernelIdeal.Net

end
-- ==== Proof.lean ====
/-
  The proof of `Cert.Claim`: the word-level kernel program, its idealization and the idealized reference each run to
  the end with their arguments unchanged, and the idealized kernel program and the idealized reference end with equal
  results.

  The kernel program is four tiled matrix products with fused epilogues among host operations:
  `h = act (x · W₁ + b₁)`, `z = h · W₂ + b₂`, `t = z · W₂ᵀ + d₁`, `r = t · W₁ᵀ + d₂`, the effective weights a codebook gather
  under a mask; it returns `r` and `z`. Each product is a pipelined kernel over a grid of 1024 × 1024 output blocks;
  the two with a long contracted axis accumulate eight partial products in a scratch block carried between grid
  points. Proof/Net/ proves, per kernel, the body's triple in each control case, the proof data of its pipeline with
  the accumulator's contents point by point, and its region of @main as a segment; Net/Run.lean launches the four
  segments among the host stretches (the same text, at the word level, is Proof/NetBits/). At the ideal instance each
  region's output array is a plain network stage of its operands (Net/*Value.lean: the eight partial sums are the sum
  over the whole axis, the blocks tile the array), the host stretches between regions are read in Net/HostReads.lean,
  the reference's stages are the same network stages (Net/RefStages.lean), and Net/Bridge.lean chains them.
  The idealization rewrote nothing, so `preserves` asks nothing.
-/
import proofs.«113703_j70265664962673_1_alg».proof.Defs
import proofs.«113703_j70265664962673_1_alg».proof.Proof.Gen.Kernel
import proofs.«113703_j70265664962673_1_alg».proof.Proof.Gen.KernelIdeal
import proofs.«113703_j70265664962673_1_alg».proof.Proof.Gen.ReferenceIdeal
import proofs.«113703_j70265664962673_1_alg».proof.Proof.Gen.Pre_finite_inputs
import proofs.«113703_j70265664962673_1_alg».proof.Proof.Gen.ReferenceIdeal.Run
import proofs.«113703_j70265664962673_1_alg».proof.Proof.Net.Run
import proofs.«113703_j70265664962673_1_alg».proof.Proof.NetBits.Run
import proofs.«113703_j70265664962673_1_alg».proof.Proof.Net.Bridge

noncomputable section

namespace Cert.Proof

open Idealize.ShloMosaic Idealize.ShloMosaic.TcCoe Idealize.SL.Sem

/-- The word-level kernel program runs and keeps its arguments: the run of its four regions, the results dropped. -/
theorem frame_kernel : Cert.frame_Kernel := fun m ρ _ =>
  (θ_run Cert.Kernel.defs _ _).mono (fun _ h c => (h c).2.2) (Cert.Kernel.Net.run_all (F := Bits) m ρ)

/-- The idealized kernel program likewise. -/
theorem frame_kernelIdeal : Cert.frame_KernelIdeal := fun m ρ _ =>
  (θ_run Cert.KernelIdeal.defs _ _).mono (fun _ h c => (h c).2.2) (Cert.KernelIdeal.Net.run_all (F := Ideal) m ρ)

/-- The reference has no kernel: its frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the reconstruction and the latent code of the same
    network: the kernel program's last boundary holds the reference's stages of its own arguments, which are the
    reference's arguments. -/
theorem algebraic : Cert.algebraic_KernelIdeal_ReferenceIdeal := by
  intro m g m' g' _ hag
  refine ⟨fun c => Cert.KernelIdeal.Gen.V12 m (Cert.KernelIdeal.Net.outs m) c Cert.KernelIdeal.main_v29,
    fun c => Cert.KernelIdeal.Gen.V12 m (Cert.KernelIdeal.Net.outs m) c Cert.KernelIdeal.main_v24,
    Cert.KernelIdeal.Net.run_all (F := Ideal) m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · rw [Cert.ReferenceIdeal.Read.val_main_v54_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2]
    exact (Cert.KernelIdeal.Net.end_recon m c).symm
  · rw [Cert.ReferenceIdeal.Read.val_main_v44_eq, (hag c).1, (hag c).2.1, (hag c).2.2.1, (hag c).2.2.2.1, (hag c).2.2.2.2.1, (hag c).2.2.2.2.2.1, (hag c).2.2.2.2.2.2.1, (hag c).2.2.2.2.2.2.2.2.2.1, (hag c).2.2.2.2.2.2.2.2.2.2.1, (hag c).2.2.2.2.2.2.2.2.2.2.2.1, (hag c).2.2.2.2.2.2.2.2.2.2.2.2.1, (hag c).2.2.2.2.2.2.2.2.2.2.2.2.2.1, (hag c).2.2.2.2.2.2.2.2.2.2.2.2.2.2]
    exact (Cert.KernelIdeal.Net.end_latent m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
